-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v74)) (v1 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_v38) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2x128 : Shape := ⟨4, ![4, 4096, 2, 128]⟩
abbrev S384x384x2x128 : Shape := ⟨4, ![384, 384, 2, 128]⟩
abbrev S2x4096x2 : Shape := ⟨3, ![2, 4096, 2]⟩
abbrev S2x4096 : Shape := ⟨2, ![2, 4096]⟩
abbrev S2x384 : Shape := ⟨2, ![2, 384]⟩
abbrev S1 : Shape := ⟨1, ![1]⟩
abbrev S128x128 : Shape := ⟨2, ![128, 128]⟩
abbrev S128 : Shape := ⟨1, ![128]⟩
abbrev S128x256 : Shape := ⟨2, ![128, 256]⟩
abbrev S_ : Shape := ⟨0, ![]⟩

class Facts : Prop where
  bcast_S_S4x4096x2x128 : S_.BroadcastsInDim S4x4096x2x128 (![] : Fin 0 → Fin S4x4096x2x128.rank)
  reducesTo_S4x4096x2x128_S_d0_1_2_3 : S4x4096x2x128.ReducesTo [0, 1, 2, 3] S_
  h_S_ : 0 < S_.numel
  bcast_S_S384x384x2x128 : S_.BroadcastsInDim S384x384x2x128 (![] : Fin 0 → Fin S384x384x2x128.rank)
  reducesTo_S384x384x2x128_S_d0_1_2_3 : S384x384x2x128.ReducesTo [0, 1, 2, 3] S_
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part2 {F : FTy → Type} [FloatOps F] (main_arg10 : FVec F S128x128 .f32) (main_arg11 : FVec F S128 .f32) (main_v33 : IVec S_ 1) : IVec S_ 1 :=
  let main_v34 : FVec F S128x128 .f32 := Host.absf main_arg10
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg11
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg7 : FVec F S128 .f32) (main_arg8 : FVec F S128x256 .f32) (main_arg9 : FVec F S128 .f32) (main_arg10 : FVec F S128x128 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg8
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_v33

def fn {F : FTy → Type} [FloatOps F] (main_arg0 : FVec F S4x4096x2x128 .f32) (main_arg1 : FVec F S384x384x2x128 .f32) (main_arg2 : IVec S2x4096x2 32) (main_arg3 : IVec S2x4096 1) (main_arg4 : IVec S2x384 1) (main_arg5 : FVec F S1 .f32) (main_arg6 : FVec F S128x128 .f32) (main_arg7 : FVec F S128 .f32) (main_arg8 : FVec F S128x256 .f32) (main_arg9 : FVec F S128 .f32) (main_arg10 : FVec F S128x128 .f32) (main_arg11 : FVec F S128 .f32) : IVec S_ 1 :=
  let main_v0 : FVec F S4x4096x2x128 .f32 := Host.absf main_arg0
  let main_cst : FVec F S_ .f32 := constant S_ .f32 0x7F800000#32
  let main_v1 : FVec F S4x4096x2x128 .f32 := broadcastInDim S4x4096x2x128 ![] bcast_S_S4x4096x2x128 main_cst
  let main_v2 : IVec S4x4096x2x128 1 := cmpf .olt main_v0 main_v1
  let main_c : IVec S_ 1 := constantI S_ 1 1#1
  let main_v3 : IVec S_ 1 := (fun x v => Host.reduce IntOp.andi x v reducesTo_S4x4096x2x128_S_d0_1_2_3 h_S_) main_v2 main_c
  let main_v4 : FVec F S384x384x2x128 .f32 := Host.absf main_arg1
  let main_cst_0 : FVec F S_ .f32 := constant S_ .f32 0x7F800000#32
  let main_v5 : FVec F S384x384x2x128 .f32 := broadcastInDim S384x384x2x128 ![] bcast_S_S384x384x2x128 main_cst_0
  let main_v6 : IVec S384x384x2x128 1 := cmpf .olt main_v4 main_v5
  let main_c_1 : IVec S_ 1 := constantI S_ 1 1#1
  let main_v7 : IVec S_ 1 := (fun x v => Host.reduce IntOp.andi x v reducesTo_S384x384x2x128_S_d0_1_2_3 h_S_) main_v6 main_c_1
  let main_v8 : IVec S_ 1 := andi main_v3 main_v7
  let main_v9 : FVec F S1 .f32 := Host.absf main_arg5
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_v13 main_v16
-- ==== Kernel.lean ====
abbrev S4x4096x2x128 : Shape := ⟨4, ![4, 4096, 2, 128]⟩
abbrev S384x384x2x128 : Shape := ⟨4, ![384, 384, 2, 128]⟩
abbrev S2x4096x2 : Shape := ⟨3, ![2, 4096, 2]⟩
abbrev S2x4096 : Shape := ⟨2, ![2, 4096]⟩
abbrev S2x384 : Shape := ⟨2, ![2, 384]⟩
abbrev S1 : Shape := ⟨1, ![1]⟩
abbrev S128x128 : Shape := ⟨2, ![128, 128]⟩
abbrev S128 : Shape := ⟨1, ![128]⟩
abbrev S128x256 : Shape := ⟨2, ![128, 256]⟩
abbrev S32768x128 : Shape := ⟨2, ![32768, 128]⟩
abbrev S4096x128 : Shape := ⟨2, ![4096, 128]⟩
abbrev S1x128 : Shape := ⟨2, ![1, 128]⟩
abbrev S_ : Shape := ⟨0, ![]⟩
abbrev S4096x2x128 : Shape := ⟨3, ![4096, 2, 128]⟩
abbrev S1x4096x1 : Shape := ⟨3, ![1, 4096, 1]⟩
abbrev S4096 : Shape := ⟨1, ![4096]⟩
abbrev S385x385x2x128 : Shape := ⟨4, ![385, 385, 2, 128]⟩
abbrev S1x1x1x1 : Shape := ⟨4, ![1, 1, 1, 1]⟩
abbrev S4096x1 : Shape := ⟨2, ![4096, 1]⟩
abbrev S4096x2 : Shape := ⟨2, ![4096, 2]⟩
abbrev S294912x128 : Shape := ⟨2, ![294912, 128]⟩
abbrev S2x4096x1 : Shape := ⟨3, ![2, 4096, 1]⟩
abbrev S2 : Shape := ⟨1, ![2]⟩
abbrev S1x2 : Shape := ⟨2, ![1, 2]⟩
abbrev S4096x2x1 : Shape := ⟨3, ![4096, 2, 1]⟩
abbrev S4096x2x3 : Shape := ⟨3, ![4096, 2, 3]⟩
abbrev S1x4096x2x128 : Shape := ⟨4, ![1, 4096, 2, 128]⟩

abbrev nBuf : Space → Nat
  | .hbm => 102
  | .vmem => 17
  | .smem => 0
  | _ => 0

abbrev bufTy : (tb : Table) → Fin (tcTables nBuf tb) → BufTy
  | .hbm, ⟨0, _⟩ => ⟨S4x4096x2x128, .f32⟩
  | .hbm, ⟨1, _⟩ => ⟨S384x384x2x128, .f32⟩
  | .hbm, ⟨2, _⟩ => ⟨S2x4096x2, .i32⟩
  | .hbm, ⟨3, _⟩ => ⟨S2x4096, .i1⟩
  | .hbm, ⟨4, _⟩ => ⟨S2x384, .i1⟩
  | .hbm, ⟨5, _⟩ => ⟨S1, .f32⟩
  | .hbm, ⟨6, _⟩ => ⟨S128x128, .f32⟩
  | .hbm, ⟨7, _⟩ => ⟨S128, .f32⟩
  | .hbm, ⟨8, _⟩ => ⟨S128x256, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S32768x128, .f32⟩
  | .hbm, ⟨14, _⟩ => ⟨S32768x128, .f32⟩
  | .hbm, ⟨15, _⟩ => ⟨S4x4096x2x128, .f32⟩
  | .hbm, ⟨16, _⟩ => ⟨S_, .f32⟩
  | .hbm, ⟨17, _⟩ => ⟨S4096x2x128, .f32⟩
  | .hbm, ⟨18, _⟩ => ⟨S_, .f32⟩
  | .hbm, ⟨19, _⟩ => ⟨S4096x2x128, .f32⟩
  | .hbm, ⟨20, _⟩ => ⟨S4096x2x128, .f32⟩
  | .hbm, ⟨21, _⟩ => ⟨S1x4096x1, .i32⟩
  | .hbm, ⟨22, _⟩ => ⟨S4096, .i32⟩
  | .hbm, ⟨23, _⟩ => ⟨S1x4096x1, .i32⟩
  | .hbm, ⟨24, _⟩ => ⟨S4096, .i32⟩
  | .hbm, ⟨25, _⟩ => ⟨S_, .f32⟩
  | .hbm, ⟨26, _⟩ => ⟨S385x385x2x128, .f32⟩
  | .hbm, ⟨27, _⟩ => ⟨S1x1x1x1, .f32⟩
  | .hbm, ⟨28, _⟩ => ⟨S385x385x2x128, .f32⟩
  | .hbm, ⟨29, _⟩ => ⟨S385x385x2x128, .f32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S4096, .i32⟩
  | .hbm, ⟨44, _⟩ => ⟨S4096x1, .i32⟩
  | .hbm, ⟨45, _⟩ => ⟨S4096x1, .i32⟩
  | .hbm, ⟨46, _⟩ => ⟨S4096x2, .i32⟩
  | .hbm, ⟨47, _⟩ => ⟨S385x385x2x128, .f32⟩
  | .hbm, ⟨48, _⟩ => ⟨S384x384x2x128, .f32⟩
  | .hbm, ⟨49, _⟩ => ⟨S128x128, .f32⟩
  | .hbm, ⟨50, _⟩ => ⟨S128x128, .f32⟩
  | .hbm, ⟨51, _⟩ => ⟨S128x128, .f32⟩
  | .hbm, ⟨52, _⟩ => ⟨S128x128, .f32⟩
  | .hbm, ⟨53, _⟩ => ⟨S128x128, .f32⟩
  | .hbm, ⟨54, _⟩ => ⟨S294912x128, .f32⟩
  | .hbm, ⟨55, _⟩ => ⟨S294912x128, .f32⟩
  | .hbm, ⟨56, _⟩ => ⟨S294912x128, .f32⟩
  | .hbm, ⟨57, _⟩ => ⟨S384x384x2x128, .f32⟩
  | .hbm, ⟨58, _⟩ => ⟨S_, .i32⟩
  | .hbm, ⟨59, _⟩ => ⟨S2x4096x2, .i32⟩
  | .hbm, ⟨60, _⟩ => ⟨S2x4096x2, .i32⟩
  | .hbm, ⟨61, _⟩ => ⟨S_, .i32⟩
  | .hbm, ⟨62, _⟩ => ⟨S2x4096x2, .i32⟩
  | .hbm, ⟨63, _⟩ => ⟨S2x4096x2, .i32⟩
  | .hbm, ⟨64, _⟩ => ⟨S2x4096x1, .i32⟩
  | .hbm, ⟨65, _⟩ => ⟨S2x4096, .i32⟩
  | .hbm, ⟨66, _⟩ => ⟨S4096x2, .i32⟩
  | .hbm, ⟨67, _⟩ => ⟨S2x4096x1, .i32⟩
  | .hbm, ⟨68, _⟩ => ⟨S2x4096, .i32⟩
  | .hbm, ⟨69, _⟩ => ⟨S4096x2, .i32⟩
  | .hbm, ⟨70, _⟩ => ⟨S2, .i32⟩
  | .hbm, ⟨71, _⟩ => ⟨S1x2, .i32⟩
  | .hbm, ⟨72, _⟩ => ⟨S4096x2, .i32⟩
  | .hbm, ⟨73, _⟩ => ⟨S_, .i32⟩
  | .hbm, ⟨74, _⟩ => ⟨S4096x2, .i32⟩
  | .hbm, ⟨75, _⟩ => ⟨S4096x2, .i1⟩
  | .hbm, ⟨76, _⟩ => ⟨S_, .i32⟩
  | .hbm, ⟨77, _⟩ => ⟨S4096x2, .i32⟩
  | .hbm, ⟨78, _⟩ => ⟨S4096x2, .i32⟩
  | .hbm, ⟨79, _⟩ => ⟨S4096x2, .i32⟩
  | .hbm, ⟨80, _⟩ => ⟨S_, .i32⟩
  | .hbm, ⟨81, _⟩ => ⟨S4096x2, .i32⟩
  | .hbm, ⟨82, _⟩ => ⟨S4096x2, .i1⟩
  | .hbm, ⟨83, _⟩ => ⟨S_, .i32⟩
  | .hbm, ⟨84, _⟩ => ⟨S4096x2, .i32⟩
  | .hbm, ⟨85, _⟩ => ⟨S4096x2, .i32⟩
  | .hbm, ⟨86, _⟩ => ⟨S4096x2, .i32⟩
  | .hbm, ⟨87, _⟩ => ⟨S_, .i32⟩
  | .hbm, ⟨88, _⟩ => ⟨S4096x2, .i32⟩
  | .hbm, ⟨89, _⟩ => ⟨S4096x2, .i1⟩
  | .hbm, ⟨90, _⟩ => ⟨S_, .i32⟩
  | .hbm, ⟨91, _⟩ => ⟨S4096x2, .i32⟩
  | .hbm, ⟨92, _⟩ => ⟨S4096x2, .i32⟩
  | .hbm, ⟨93, _⟩ => ⟨S4096x2, .i32⟩
  | .hbm, ⟨94, _⟩ => ⟨S4096x2x1, .i32⟩
  | .hbm, ⟨95, _⟩ => ⟨S4096x2x1, .i32⟩
  | .hbm, ⟨96, _⟩ => ⟨S4096x2x1, .i32⟩
  | .hbm, ⟨97, _⟩ => ⟨S4096x2x3, .i32⟩
  | .hbm, ⟨98, _⟩ => ⟨S4096x2x128, .f32⟩
  | .hbm, ⟨99, _⟩ => ⟨S1x4096x2x128, .f32⟩
  | .hbm, ⟨100, _⟩ => ⟨S4x4096x2x128, .f32⟩
  | .hbm, ⟨101, _⟩ => ⟨S4x4096x2x128, .f32⟩
  | .local _ .vmem, ⟨0, _⟩ => ⟨S4096x128, .f32⟩
  | .local _ .vmem, ⟨1, _⟩ => ⟨S4096x128, .f32⟩
  | .local _ .vmem, ⟨2, _⟩ => ⟨S128x128, .f32⟩
  | .local _ .vmem, ⟨3, _⟩ => ⟨S128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S128x128, .f32⟩
  | .local _ .vmem, ⟨11, _⟩ => ⟨S128x128, .f32⟩
  | .local _ .vmem, ⟨12, _⟩ => ⟨S128, .f32⟩
  | .local _ .vmem, ⟨13, _⟩ => ⟨S128x128, .f32⟩
  | .local _ .vmem, ⟨14, _⟩ => ⟨S128, .f32⟩
  | .local _ .vmem, ⟨15, _⟩ => ⟨S4096x128, .f32⟩
  | .local _ .vmem, ⟨16, _⟩ => ⟨S4096x128, .f32⟩
  | _, _ => ⟨S4x4096x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_5 : Ref sig .tc := ⟨.hbm, 58, rfl⟩
abbrev main_v39 : Ref sig .tc := ⟨.hbm, 59, rfl⟩
abbrev main_v40 : Ref sig .tc := ⟨.hbm, 60, rfl⟩
abbrev main_c_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_7 : Ref sig .tc := ⟨.hbm, 73, rfl⟩
abbrev main_v52 : Ref sig .tc := ⟨.hbm, 74, rfl⟩
abbrev main_v53 : Ref sig .tc := ⟨.hbm, 75, rfl⟩
abbrev main_c_8 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_9 : Ref sig .tc := ⟨.hbm, 80, rfl⟩
abbrev main_v57 : Ref sig .tc := ⟨.hbm, 81, rfl⟩
abbrev main_v58 : Ref sig .tc := ⟨.hbm, 82, rfl⟩
abbrev main_c_10 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_11 : Ref sig .tc := ⟨.hbm, 87, rfl⟩
abbrev main_v62 : Ref sig .tc := ⟨.hbm, 88, rfl⟩
abbrev main_v63 : Ref sig .tc := ⟨.hbm, 89, rfl⟩
abbrev main_c_12 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![72], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4096x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  transposes_S128x128_S128x128_1_0 : S128x128.Transposes [1, 0] S128x128
  shapeCasts_S4x4096x2x128_S32768x128 : S4x4096x2x128.ShapeCasts S32768x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  shapeCasts_S32768x128_S4x4096x2x128 : S32768x128.ShapeCasts S4x4096x2x128
  reducesTo_S4x4096x2x128_S4096x2x128_d0 : S4x4096x2x128.ReducesTo [0] S4096x2x128
  h_S_ : 0 < S_.numel
  bcast_S_S4096x2x128 : S_.BroadcastsInDim S4096x2x128 (![] : Fin 0 → Fin S4096x2x128.rank)
  slices_S2x4096x2_S1x4096x1_0_0_0 : S2x4096x2.Slices ![0, 0, 0] S1x4096x1
  shapeCasts_S1x4096x1_S4096 : S1x4096x1.ShapeCasts S4096
  slices_S2x4096x2_S1x4096x1_0_0_1 : S2x4096x2.Slices ![0, 0, 1] S1x4096x1
  bcast_S_S385x385x2x128 : S_.BroadcastsInDim S385x385x2x128 (![] : Fin 0 → Fin S385x385x2x128.rank)
  bcast_S1_S1x1x1x1_3 : S1.BroadcastsInDim S1x1x1x1 (![3] : Fin 1 → Fin S1x1x1x1.rank)
  bcast_S1x1x1x1_S385x385x2x128_0_1_2_3 : S1x1x1x1.BroadcastsInDim S385x385x2x128 (![0, 1, 2, 3] : Fin 4 → Fin S385x385x2x128.rank)
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  slices_S385x385x2x128_S384x384x2x128_1_1_0_0 : S385x385x2x128.Slices ![1, 1, 0, 0] S384x384x2x128
  slices_S128x256_S128x128_0_0 : S128x256.Slices ![0, 0] S128x128
  slices_S128x256_S128x128_0_128 : S128x256.Slices ![0, 128] S128x128
  shapeCasts_S384x384x2x128_S294912x128 : S384x384x2x128.ShapeCasts S294912x128
  shapeCasts_S294912x128_S384x384x2x128 : S294912x128.ShapeCasts S384x384x2x128
  bcast_S_S2x4096x2 : S_.BroadcastsInDim S2x4096x2 (![] : Fin 0 → Fin S2x4096x2.rank)
  slices_S2x4096x2_S2x4096x1_0_0_0 : S2x4096x2.Slices ![0, 0, 0] S2x4096x1
  shapeCasts_S2x4096x1_S2x4096 : S2x4096x1.ShapeCasts S2x4096
  transposes_S2x4096_S4096x2_1_0 : S2x4096.Transposes [1, 0] S4096x2
  slices_S2x4096x2_S2x4096x1_0_0_1 : S2x4096x2.Slices ![0, 0, 1] S2x4096x1
  bcast_S2_S1x2_1 : S2.BroadcastsInDim S1x2 (![1] : Fin 1 → Fin S1x2.rank)
  bcast_S1x2_S4096x2_0_1 : S1x2.BroadcastsInDim S4096x2 (![0, 1] : Fin 2 → Fin S4096x2.rank)
  bcast_S_S4096x2 : S_.BroadcastsInDim S4096x2 (![] : Fin 0 → Fin S4096x2.rank)
  bcast_S4096x2_S4096x2x1_0_1 : S4096x2.BroadcastsInDim S4096x2x1 (![0, 1] : Fin 2 → Fin S4096x2x1.rank)
  concatenates_S4096x2x1_S4096x2x1_S4096x2x1_S4096x2x3_d2 : Shape.Concatenates [S4096x2x1, S4096x2x1, S4096x2x1] S4096x2x3 2
  bcast_S4096x2x128_S1x4096x2x128_1_2_3 : S4096x2x128.BroadcastsInDim S1x4096x2x128 (![1, 2, 3] : Fin 3 → Fin S1x4096x2x128.rank)
  bcast_S1x4096x2x128_S4x4096x2x128_0_1_2_3 : S1x4096x2x128.BroadcastsInDim S4x4096x2x128 (![0, 1, 2, 3] : Fin 4 → Fin S4x4096x2x128.rank)
  dot_S4096x128_S128x128_S4096x128_1_0_0_1_n_n_wf : DotDims.WF S4096x128 S128x128 S4096x128 [1] [0] [0] [1] [] []
  scatter_S385x385x2x128_S4096x2_S4096x2x128_12_01_01_1_wf : ScatterDims.WF S385x385x2x128 S4096x2 S4096x2x128 [1, 2] [0, 1] [0, 1] 1
  gather_S384x384x2x128_S4096x2x3_S4096x2x128_2_012_n_n_012_2_111128_wf : GatherDims.WF S384x384x2x128 S4096x2x3 S4096x2x128 [2] [0, 1, 2] [] [0, 1, 2] [] 2 ![1, 1, 1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S32768x128.size a
  hwx0_0 : ∀ i : grid0.Coords, EltTy.bits .f32 = 32 ∨ (Rect.block (s := S32768x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S32768x128.size a
  hwx0_3 : ∀ i : grid0.Coords, EltTy.bits .f32 = 32 ∨ (Rect.block (s := S32768x128) S4096x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S294912x128.size a
  hwx1_0 : ∀ i : grid1.Coords, EltTy.bits .f32 = 32 ∨ (Rect.block (s := S294912x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S294912x128.size a
  hwx1_1 : ∀ i : grid1.Coords, EltTy.bits .f32 = 32 ∨ (Rect.block (s := S294912x128) S4096x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4096x128.size a ≤ S294912x128.size a
  hwx1_7 : ∀ i : grid1.Coords, EltTy.bits .f32 = 32 ∨ (Rect.block (s := S294912x128) S4096x128.size (cc1_transform_7 i) (hinb1_7 i)).WholeWords (EltTy.packing .f32)

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def scatter_S385x385x2x128_S4096x2_S4096x2x128_12_01_01_1 : ScatterDims S385x385x2x128 S4096x2 S4096x2x128 where
  updateWindowDims := [1, 2]
  insertedWindowDims := [0, 1]
  scatterDimsToOperandDims := [0, 1]
  indexVectorDim := 1
  wf := scatter_S385x385x2x128_S4096x2_S4096x2x128_12_01_01_1_wf
def gather_S384x384x2x128_S4096x2x3_S4096x2x128_2_012_n_n_012_2_111128 : GatherDims S384x384x2x128 S4096x2x3 S4096x2x128 where
  offsetDims := [2]
  collapsedSliceDims := [0, 1, 2]
  operandBatchingDims := []
  startIndicesBatchingDims := []
  startIndexMap := [0, 1, 2]
  indexVectorDim := 2
  sliceSizes := ![1, 1, 1, 128]
  wf := gather_S384x384x2x128_S4096x2x3_S4096x2x128_2_012_n_n_012_2_111128_wf

abbrev win0_0 : Pipeline.Window sig grid0 :=
  Pipeline.Window.ofSpec (Memref.whole main_v1) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v35) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v37) S4096x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S4x4096x2x128 : Shape := ⟨4, ![4, 4096, 2, 128]⟩
abbrev S384x384x2x128 : Shape := ⟨4, ![384, 384, 2, 128]⟩
abbrev S2x4096x2 : Shape := ⟨3, ![2, 4096, 2]⟩
abbrev S2x4096 : Shape := ⟨2, ![2, 4096]⟩
abbrev S2x384 : Shape := ⟨2, ![2, 384]⟩
abbrev S1 : Shape := ⟨1, ![1]⟩
abbrev S128x128 : Shape := ⟨2, ![128, 128]⟩
abbrev S128 : Shape := ⟨1, ![128]⟩
abbrev S128x256 : Shape := ⟨2, ![128, 256]⟩
abbrev S1x1x1x128 : Shape := ⟨4, ![1, 1, 1, 128]⟩
abbrev S_ : Shape := ⟨0, ![]⟩
abbrev S4096x2x128 : Shape := ⟨3, ![4096, 2, 128]⟩
abbrev S385x385x2x128 : Shape := ⟨4, ![385, 385, 2, 128]⟩
abbrev S1x1x1x1 : Shape := ⟨4, ![1, 1, 1, 1]⟩
abbrev S1x4096x1 : Shape := ⟨3, ![1, 4096, 1]⟩
abbrev S4096 : Shape := ⟨1, ![4096]⟩
abbrev S4096x1 : Shape := ⟨2, ![4096, 1]⟩
abbrev S4096x2 : Shape := ⟨2, ![4096, 2]⟩
abbrev S384x384x2x256 : Shape := ⟨4, ![384, 384, 2, 256]⟩
abbrev S2x4096x1 : Shape := ⟨3, ![2, 4096, 1]⟩
abbrev S2 : Shape := ⟨1, ![2]⟩
abbrev S1x2 : Shape := ⟨2, ![1, 2]⟩
abbrev S4096x2x1 : Shape := ⟨3, ![4096, 2, 1]⟩
abbrev S4096x2x3 : Shape := ⟨3, ![4096, 2, 3]⟩
abbrev S1x4096x2x128 : Shape := ⟨4, ![1, 4096, 2, 128]⟩

abbrev nBuf : Space → Nat
  | .hbm => 102
  | .vmem => 0
  | .smem => 0
  | _ => 0

abbrev bufTy : (tb : Table) → Fin (tcTables nBuf tb) → BufTy
  | .hbm, ⟨0, _⟩ => ⟨S4x4096x2x128, .f32⟩
  | .hbm, ⟨1, _⟩ => ⟨S384x384x2x128, .f32⟩
  | .hbm, ⟨2, _⟩ => ⟨S2x4096x2, .i32⟩
  | .hbm, ⟨3, _⟩ => ⟨S2x4096, .i1⟩
  | .hbm, ⟨4, _⟩ => ⟨S2x384, .i1⟩
  | .hbm, ⟨5, _⟩ => ⟨S1, .f32⟩
  | .hbm, ⟨6, _⟩ => ⟨S128x128, .f32⟩
  | .hbm, ⟨7, _⟩ => ⟨S128, .f32⟩
  | .hbm, ⟨8, _⟩ => ⟨S128x256, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S4x4096x2x128, .f32⟩
  | .hbm, ⟨13, _⟩ => ⟨S1x1x1x128, .f32⟩
  | .hbm, ⟨14, _⟩ => ⟨S4x4096x2x128, .f32⟩
  | .hbm, ⟨15, _⟩ => ⟨S4x4096x2x128, .f32⟩
  | .hbm, ⟨16, _⟩ => ⟨S_, .f32⟩
  | .hbm, ⟨17, _⟩ => ⟨S4096x2x128, .f32⟩
  | .hbm, ⟨18, _⟩ => ⟨S_, .f32⟩
  | .hbm, ⟨19, _⟩ => ⟨S4096x2x128, .f32⟩
  | .hbm, ⟨20, _⟩ => ⟨S4096x2x128, .f32⟩
  | .hbm, ⟨21, _⟩ => ⟨S_, .f32⟩
  | .hbm, ⟨22, _⟩ => ⟨S385x385x2x128, .f32⟩
  | .hbm, ⟨23, _⟩ => ⟨S1x1x1x1, .f32⟩
  | .hbm, ⟨24, _⟩ => ⟨S385x385x2x128, .f32⟩
  | .hbm, ⟨25, _⟩ => ⟨S385x385x2x128, .f32⟩
  | .hbm, ⟨26, _⟩ => ⟨S1x4096x1, .i32⟩
  | .hbm, ⟨27, _⟩ => ⟨S4096, .i32⟩
  | .hbm, ⟨28, _⟩ => ⟨S1x4096x1, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i1⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S4096, .i32⟩
  | .hbm, ⟨37, _⟩ => ⟨S_, .i32⟩
  | .hbm, ⟨38, _⟩ => ⟨S4096, .i32⟩
  | .hbm, ⟨39, _⟩ => ⟨S4096, .i1⟩
  | .hbm, ⟨40, _⟩ => ⟨S_, .i32⟩
  | .hbm, ⟨41, _⟩ => ⟨S4096, .i32⟩
  | .hbm, ⟨42, _⟩ => ⟨S4096, .i32⟩
  | .hbm, ⟨43, _⟩ => ⟨S4096, .i32⟩
  | .hbm, ⟨44, _⟩ => ⟨S4096x1, .i32⟩
  | .hbm, ⟨45, _⟩ => ⟨S4096x1, .i32⟩
  | .hbm, ⟨46, _⟩ => ⟨S4096x2, .i32⟩
  | .hbm, ⟨47, _⟩ => ⟨S385x385x2x128, .f32⟩
  | .hbm, ⟨48, _⟩ => ⟨S384x384x2x128, .f32⟩
  | .hbm, ⟨49, _⟩ => ⟨S384x384x2x256, .f32⟩
  | .hbm, ⟨50, _⟩ => ⟨S384x384x2x128, .f32⟩
  | .hbm, ⟨51, _⟩ => ⟨S1x1x1x128, .f32⟩
  | .hbm, ⟨52, _⟩ => ⟨S384x384x2x128, .f32⟩
  | .hbm, ⟨53, _⟩ => ⟨S384x384x2x128, .f32⟩
  | .hbm, ⟨54, _⟩ => ⟨S384x384x2x128, .f32⟩
  | .hbm, ⟨55, _⟩ => ⟨S1x1x1x128, .f32⟩
  | .hbm, ⟨56, _⟩ => ⟨S384x384x2x128, .f32⟩
  | .hbm, ⟨57, _⟩ => ⟨S384x384x2x128, .f32⟩
  | .hbm, ⟨58, _⟩ => ⟨S_, .i32⟩
  | .hbm, ⟨59, _⟩ => ⟨S2x4096x2, .i32⟩
  | .hbm, ⟨60, _⟩ => ⟨S2x4096x2, .i32⟩
  | .hbm, ⟨61, _⟩ => ⟨S_, .i32⟩
  | .hbm, ⟨62, _⟩ => ⟨S2x4096x2, .i32⟩
  | .hbm, ⟨63, _⟩ => ⟨S2x4096x2, .i32⟩
  | .hbm, ⟨64, _⟩ => ⟨S2x4096x1, .i32⟩
  | .hbm, ⟨65, _⟩ => ⟨S2x4096, .i32⟩
  | .hbm, ⟨66, _⟩ => ⟨S4096x2, .i32⟩
  | .hbm, ⟨67, _⟩ => ⟨S2x4096x1, .i32⟩
  | .hbm, ⟨68, _⟩ => ⟨S2x4096, .i32⟩
  | .hbm, ⟨69, _⟩ => ⟨S4096x2, .i32⟩
  | .hbm, ⟨70, _⟩ => ⟨S2, .i32⟩
  | .hbm, ⟨71, _⟩ => ⟨S1x2, .i32⟩
  | .hbm, ⟨72, _⟩ => ⟨S_, .i32⟩
  | .hbm, ⟨73, _⟩ => ⟨S4096x2, .i32⟩
  | .hbm, ⟨74, _⟩ => ⟨S4096x2, .i1⟩
  | .hbm, ⟨75, _⟩ => ⟨S_, .i32⟩
  | .hbm, ⟨76, _⟩ => ⟨S4096x2, .i32⟩
  | .hbm, ⟨77, _⟩ => ⟨S4096x2, .i32⟩
  | .hbm, ⟨78, _⟩ => ⟨S4096x2, .i32⟩
  | .hbm, ⟨79, _⟩ => ⟨S_, .i32⟩
  | .hbm, ⟨80, _⟩ => ⟨S4096x2, .i32⟩
  | .hbm, ⟨81, _⟩ => ⟨S4096x2, .i1⟩
  | .hbm, ⟨82, _⟩ => ⟨S_, .i32⟩
  | .hbm, ⟨83, _⟩ => ⟨S4096x2, .i32⟩
  | .hbm, ⟨84, _⟩ => ⟨S4096x2, .i32⟩
  | .hbm, ⟨85, _⟩ => ⟨S4096x2, .i32⟩
  | .hbm, ⟨86, _⟩ => ⟨S_, .i32⟩
  | .hbm, ⟨87, _⟩ => ⟨S1x2, .i32⟩
  | .hbm, ⟨88, _⟩ => ⟨S1x2, .i1⟩
  | .hbm, ⟨89, _⟩ => ⟨S_, .i32⟩
  | .hbm, ⟨90, _⟩ => ⟨S1x2, .i32⟩
  | .hbm, ⟨91, _⟩ => ⟨S1x2, .i32⟩
  | .hbm, ⟨92, _⟩ => ⟨S1x2, .i32⟩
  | .hbm, ⟨93, _⟩ => ⟨S4096x2, .i32⟩
  | .hbm, ⟨94, _⟩ => ⟨S4096x2x1, .i32⟩
  | .hbm, ⟨95, _⟩ => ⟨S4096x2x1, .i32⟩
  | .hbm, ⟨96, _⟩ => ⟨S4096x2x1, .i32⟩
  | .hbm, ⟨97, _⟩ => ⟨S4096x2x3, .i32⟩
  | .hbm, ⟨98, _⟩ => ⟨S4096x2x128, .f32⟩
  | .hbm, ⟨99, _⟩ => ⟨S1x4096x2x128, .f32⟩
  | .hbm, ⟨100, _⟩ => ⟨S4x4096x2x128, .f32⟩
  | .hbm, ⟨101, _⟩ => ⟨S4x4096x2x128, .f32⟩
  | _, _ => ⟨S4x4096x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_2 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_5 : Ref sig .tc := ⟨.hbm, 58, rfl⟩
abbrev main_v39 : Ref sig .tc := ⟨.hbm, 59, rfl⟩
abbrev main_v40 : Ref sig .tc := ⟨.hbm, 60, rfl⟩
abbrev main_c_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_7 : Ref sig .tc := ⟨.hbm, 72, rfl⟩
abbrev main_v51 : Ref sig .tc := ⟨.hbm, 73, rfl⟩
abbrev main_v52 : Ref sig .tc := ⟨.hbm, 74, rfl⟩
abbrev main_c_8 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_9 : Ref sig .tc := ⟨.hbm, 79, rfl⟩
abbrev main_v56 : Ref sig .tc := ⟨.hbm, 80, rfl⟩
abbrev main_v57 : Ref sig .tc := ⟨.hbm, 81, rfl⟩
abbrev main_c_10 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_11 : Ref sig .tc := ⟨.hbm, 86, rfl⟩
abbrev main_v61 : Ref sig .tc := ⟨.hbm, 87, rfl⟩
abbrev main_v62 : Ref sig .tc := ⟨.hbm, 88, rfl⟩
abbrev main_c_12 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩

abbrev nD : Nat := 1
abbrev τ : Topo := Topo.v7x

variable {F : FTy → Type} [FloatOps F]

class Facts₀ : Prop where
  bcast_S128_S1x1x1x128_3 : S128.BroadcastsInDim S1x1x1x128 (![3] : Fin 1 → Fin S1x1x1x128.rank)
  bcast_S1x1x1x128_S4x4096x2x128_0_1_2_3 : S1x1x1x128.BroadcastsInDim S4x4096x2x128 (![0, 1, 2, 3] : Fin 4 → Fin S4x4096x2x128.rank)
  reducesTo_S4x4096x2x128_S4096x2x128_d0 : S4x4096x2x128.ReducesTo [0] S4096x2x128
  h_S_ : 0 < S_.numel
  bcast_S_S4096x2x128 : S_.BroadcastsInDim S4096x2x128 (![] : Fin 0 → Fin S4096x2x128.rank)
  bcast_S_S385x385x2x128 : S_.BroadcastsInDim S385x385x2x128 (![] : Fin 0 → Fin S385x385x2x128.rank)
  bcast_S1_S1x1x1x1_3 : S1.BroadcastsInDim S1x1x1x1 (![3] : Fin 1 → Fin S1x1x1x1.rank)
  bcast_S1x1x1x1_S385x385x2x128_0_1_2_3 : S1x1x1x1.BroadcastsInDim S385x385x2x128 (![0, 1, 2, 3] : Fin 4 → Fin S385x385x2x128.rank)
  slices_S2x4096x2_S1x4096x1_0_0_0 : S2x4096x2.Slices ![0, 0, 0] S1x4096x1
  shapeCasts_S1x4096x1_S4096 : S1x4096x1.ShapeCasts S4096
  slices_S2x4096x2_S1x4096x1_0_0_1 : S2x4096x2.Slices ![0, 0, 1] S1x4096x1
  bcast_S_S4096 : S_.BroadcastsInDim S4096 (![] : Fin 0 → Fin S4096.rank)
  bcast_S4096_S4096x1_0 : S4096.BroadcastsInDim S4096x1 (![0] : Fin 1 → Fin S4096x1.rank)
  concatenates_S4096x1_S4096x1_S4096x2_d1 : Shape.Concatenates [S4096x1, S4096x1] S4096x2 1
  slices_S385x385x2x128_S384x384x2x128_1_1_0_0 : S385x385x2x128.Slices ![1, 1, 0, 0] S384x384x2x128
  concatenates_S384x384x2x128_S384x384x2x128_S384x384x2x256_d3 : Shape.Concatenates [S384x384x2x128, S384x384x2x128] S384x384x2x256 3
  bcast_S1x1x1x128_S384x384x2x128_0_1_2_3 : S1x1x1x128.BroadcastsInDim S384x384x2x128 (![0, 1, 2, 3] : Fin 4 → Fin S384x384x2x128.rank)
  bcast_S_S2x4096x2 : S_.BroadcastsInDim S2x4096x2 (![] : Fin 0 → Fin S2x4096x2.rank)
  slices_S2x4096x2_S2x4096x1_0_0_0 : S2x4096x2.Slices ![0, 0, 0] S2x4096x1
  shapeCasts_S2x4096x1_S2x4096 : S2x4096x1.ShapeCasts S2x4096
  transposes_S2x4096_S4096x2_1_0 : S2x4096.Transposes [1, 0] S4096x2
  slices_S2x4096x2_S2x4096x1_0_0_1 : S2x4096x2.Slices ![0, 0, 1] S2x4096x1
  bcast_S2_S1x2_1 : S2.BroadcastsInDim S1x2 (![1] : Fin 1 → Fin S1x2.rank)
  bcast_S_S4096x2 : S_.BroadcastsInDim S4096x2 (![] : Fin 0 → Fin S4096x2.rank)
  bcast_S_S1x2 : S_.BroadcastsInDim S1x2 (![] : Fin 0 → Fin S1x2.rank)
  bcast_S1x2_S4096x2_0_1 : S1x2.BroadcastsInDim S4096x2 (![0, 1] : Fin 2 → Fin S4096x2.rank)
  bcast_S4096x2_S4096x2x1_0_1 : S4096x2.BroadcastsInDim S4096x2x1 (![0, 1] : Fin 2 → Fin S4096x2x1.rank)
  concatenates_S4096x2x1_S4096x2x1_S4096x2x1_S4096x2x3_d2 : Shape.Concatenates [S4096x2x1, S4096x2x1, S4096x2x1] S4096x2x3 2
  bcast_S4096x2x128_S1x4096x2x128_1_2_3 : S4096x2x128.BroadcastsInDim S1x4096x2x128 (![1, 2, 3] : Fin 3 → Fin S1x4096x2x128.rank)
  bcast_S1x4096x2x128_S4x4096x2x128_0_1_2_3 : S1x4096x2x128.BroadcastsInDim S4x4096x2x128 (![0, 1, 2, 3] : Fin 4 → Fin S4x4096x2x128.rank)
  dot_S4x4096x2x128_S128x128_S4x4096x2x128_3_1_012_0_n_n_wf : DotDims.WF S4x4096x2x128 S128x128 S4x4096x2x128 [3] [1] [0, 1, 2] [0] [] []
  scatter_S385x385x2x128_S4096x2_S4096x2x128_12_01_01_1_wf : ScatterDims.WF S385x385x2x128 S4096x2 S4096x2x128 [1, 2] [0, 1] [0, 1] 1
  dot_S384x384x2x256_S128x256_S384x384x2x128_3_1_012_0_n_n_wf : DotDims.WF S384x384x2x256 S128x256 S384x384x2x128 [3] [1] [0, 1, 2] [0] [] []
  dot_S384x384x2x128_S128x128_S384x384x2x128_3_1_012_0_n_n_wf : DotDims.WF S384x384x2x128 S128x128 S384x384x2x128 [3] [1] [0, 1, 2] [0] [] []
  gather_S384x384x2x128_S4096x2x3_S4096x2x128_2_012_n_n_012_2_111128_wf : GatherDims.WF S384x384x2x128 S4096x2x3 S4096x2x128 [2] [0, 1, 2] [] [0, 1, 2] [] 2 ![1, 1, 1, 128]

variable [Facts₀]

def dot_S4x4096x2x128_S128x128_S4x4096x2x128_3_1_012_0_n_n : DotDims S4x4096x2x128 S128x128 S4x4096x2x128 where
  lhsContracting := [3]
  rhsContracting := [1]
  lhsNonContracting := [0, 1, 2]
  rhsNonContracting := [0]
  lhsBatch := []
  rhsBatch := []
  wf := dot_S4x4096x2x128_S128x128_S4x4096x2x128_3_1_012_0_n_n_wf
def scatter_S385x385x2x128_S4096x2_S4096x2x128_12_01_01_1 : ScatterDims S385x385x2x128 S4096x2 S4096x2x128 where
  updateWindowDims := [1, 2]
  insertedWindowDims := [0, 1]
  scatterDimsToOperandDims := [0, 1]
  indexVectorDim := 1
  wf := scatter_S385x385x2x128_S4096x2_S4096x2x128_12_01_01_1_wf
def dot_S384x384x2x256_S128x256_S384x384x2x128_3_1_012_0_n_n : DotDims S384x384x2x256 S128x256 S384x384x2x128 where
  lhsContracting := [3]
  rhsContracting := [1]
  lhsNonContracting := [0, 1, 2]
  rhsNonContracting := [0]
  lhsBatch := []
  rhsBatch := []
  wf := dot_S384x384x2x256_S128x256_S384x384x2x128_3_1_012_0_n_n_wf
def dot_S384x384x2x128_S128x128_S384x384x2x128_3_1_012_0_n_n : DotDims S384x384x2x128 S128x128 S384x384x2x128 where
  lhsContracting := [3]
  rhsContracting := [1]
  lhsNonContracting := [0, 1, 2]
  rhsNonContracting := [0]
  lhsBatch := []
  rhsBatch := []
  wf := dot_S384x384x2x128_S128x128_S384x384x2x128_3_1_012_0_n_n_wf
def gather_S384x384x2x128_S4096x2x3_S4096x2x128_2_012_n_n_012_2_111128 : GatherDims S384x384x2x128 S4096x2x3 S4096x2x128 where
  offsetDims := [2]
  collapsedSliceDims := [0, 1, 2]
  operandBatchingDims := []
  startIndicesBatchingDims := []
  startIndexMap := [0, 1, 2]
  indexVectorDim := 2
  sliceSizes := ![1, 1, 1, 128]
  wf := gather_S384x384x2x128_S4096x2x3_S4096x2x128_2_012_n_n_012_2_111128_wf

class Facts : Prop extends Facts₀ where

variable [Facts]
-- ==== Proof.KiLinear.lean ====
/-
  The first call: the row-tiled projection  out = x · W + b  on blocks of 4096 rows.
  At a grid point t the call is handed block t of the flattened activations (4096 x 128), the whole
  weight matrix (128 x 128) and the whole bias row (128); it writes block t of the result. This module
  states what one call of the body leaves in its output buffer as a function of the three blocks it
  reads, proves the body's triple, and packages the per-point facts the pipeline rule asks for, all at
  a parameter V: the contents of the unscoped buffers when the call is entered.
-/
import proofs.«116224_j58600533786747_1_alg».proof.Proof.Gen.KernelIdeal.Launch
import proofs.«116224_j58600533786747_1_alg».proof.Proof.Gen.KernelIdeal.Skeleton
import proofs.«116224_j58600533786747_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the unscoped buffers' contents on entry to the call
variable (V : (c : Dev nD) → (b : Ref sig .tc) → Buf (Elt F) ((c : Thread nD τ).loc b))

/-! ## Blocks -/

/-- Operand w's block at point t, read off its array as the call finds it. -/
def linBlk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds block t at point t (it is fetched at every point). -/
theorem linFound0 {c : Dev nD} (dat : Dat τ (Elt F) Unit ℕ (UR sig nD τ) ℕ cfg0 c) (hA : dat.A 0 = V c (Pipeline.arrRef spec0 0))
    (hafter : ∀ t, dat.after 0 t = linBlk V c 0 t) (t : Fin cfg0.N) (d) : dat.before 0 t d = linBlk V c 0 t :=
  (dat.before_in_eq_fetched 0 rfl (fun _ => rfl) (fun _ _ _ => rfl) (fun t => by rw [hafter]; unfold Dat.blockOf linBlk; rw [hA]; try rfl) t d).trans
    (by unfold Dat.fetched Dat.blockOf linBlk; rw [hA]; try rfl)

/-- The weights' staging buffer holds the whole matrix at every point: fetched once, its block index never moves. -/
theorem linFound1 {c : Dev nD} (dat : Dat τ (Elt F) Unit ℕ (UR sig nD τ) ℕ cfg0 c) (hA : dat.A 1 = V c (Pipeline.arrRef spec0 1))
    (hafter : ∀ t, dat.after 1 t = linBlk V c 1 t) (t : Fin cfg0.N) (d) : dat.before 1 t d = linBlk V c 1 t :=
  (dat.before_in_eq_fetched 1 rfl (fun _ => rfl) (fun _ _ _ => rfl) (fun t => by rw [hafter]; unfold Dat.blockOf linBlk; rw [hA]; try rfl) t d).trans
    (by unfold Dat.fetched Dat.blockOf linBlk; rw [hA]; try rfl)

/-- The bias row's staging buffer likewise. -/
theorem linFound2 {c : Dev nD} (dat : Dat τ (Elt F) Unit ℕ (UR sig nD τ) ℕ cfg0 c) (hA : dat.A 2 = V c (Pipeline.arrRef spec0 2))
    (hafter : ∀ t, dat.after 2 t = linBlk V c 2 t) (t : Fin cfg0.N) (d) : dat.before 2 t d = linBlk V c 2 t :=
  (dat.before_in_eq_fetched 2 rfl (fun _ => rfl) (fun _ _ _ => rfl) (fun t => by rw [hafter]; unfold Dat.blockOf linBlk; rw [hA]; try rfl) t d).trans
    (by unfold Dat.fetched Dat.blockOf linBlk; rw [hA]; try rfl)

/-! ## The rectangles the body touches: each buffer whole -/

abbrev rowsTile : Rect S4096x128 := Rect.unit (s := S4096x128) ![0, 0] S4096x128.size inb_S4096x128_S4096x128_0_0
abbrev matTile : Rect S128x128 := Rect.unit (s := S128x128) ![0, 0] S128x128.size inb_S128x128_S128x128_0_0
abbrev rowTile : Rect S128 := Rect.unit (s := S128) ![0] S128.size inb_S128_S128_0

/-- What one call leaves in the output buffer: its single store of x · W + b over the whole tile. -/
def linOut (x : Vec F S4096x128 .f32) (w : Vec F S128x128 .f32) (b : Vec F S128 .f32) : Vec F S4096x128 .f32 :=
  View.canon [⟨rowsTile, k0_pay1 (View.ld x rowsTile) (View.ld w matTile) (View.ld b rowTile)⟩]

/-- The one store covers the buffer. -/
theorem linCover (p : Vec F S4096x128 .f32) (y : S4096x128.Idx) :
    ∃ pc ∈ ([⟨rowsTile, p⟩] : List (View.Piece (Elt F) S4096x128 .f32)), y ∈ pc.1.set :=
  View.cover_of_tiled [⟨rowsTile, p⟩] S4096x128.size (by rfl) y

/-! ## The body's triple -/

set_option maxHeartbeats 1000000 in
/-- From whole staging memrefs holding x, W and b (the output's holding anything) the body runs to its end, leaving
    the three inputs as they were and the output at `linOut x W b`. -/
theorem linRun (c : Dev nD) (E : Set ℕ) (i : grid0.Coords)
    (a1 : Memref sig .tc .vmem S4096x128 .f32) (h1 : a1.IsWhole) (a2 : Memref sig .tc .vmem S128x128 .f32) (h2 : a2.IsWhole)
    (a3 : Memref sig .tc .vmem S128 .f32) (h3 : a3.IsWhole) (a4 : Memref sig .tc .vmem S4096x128 .f32) (h4 : a4.IsWhole)
    (x : Vec F S4096x128 .f32) (w : Vec F S128x128 .f32) (b : Vec F S128 .f32) (K : PUnit → sProp 𝕄) :
    iprop(owns (c : Thread nD τ) a1 fullShare x ∗ owns (c : Thread nD τ) a2 fullShare w ∗ owns (c : Thread nD τ) a3 fullShare b
        ∗ (∃ d, owns (c : Thread nD τ) a4 fullShare d)
        ∗ (iprop(owns (c : Thread nD τ) a1 fullShare x ∗ owns (c : Thread nD τ) a2 fullShare w ∗ owns (c : Thread nD τ) a3 fullShare b
            ∗ owns (c : Thread nD τ) a4 fullShare (linOut x w b)) -∗ K ⟨⟩))
      ⊢ wp frame (wpE (defs₀ (F := F)) Variants.none c none) E (cc0__linear_kernel i a1 h1 a2 h2 a3 h3 a4 h4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (linCover _)

/-! ## The pipeline's proof data for this call -/

/-- Arrays as found on entry; after the body at point t each input buffer still at its block and the output buffer
    at `linOut` of the three blocks; nothing kept between points, nothing owed, full shares. -/
def linDat (c : Dev nD) : Dat τ (Elt F) Unit ℕ (UR sig nD τ) ℕ cfg0 c where
  A w := V c (Pipeline.arrRef spec0 w)
  after w t := match w with
    | ⟨0, _⟩ => linBlk V c 0 t
    | ⟨1, _⟩ => linBlk V c 1 t
    | ⟨2, _⟩ => linBlk V c 2 t
    | ⟨3, _⟩ => linOut (linBlk V c 0 t) (linBlk V c 1 t) (linBlk V c 2 t)
  Φ _ := Pipeline.ΦA spec0 c
  q _ := fullShare
  owed _ := 0

theorem linDat_A (c : Dev nD) (w : Fin cfg0.W) : (linDat V c).A w = V c (Pipeline.arrRef spec0 w) := by
  dsimp only [linDat]

theorem linAfter0 (c : Dev nD) (t : Fin cfg0.N) : (linDat V c).after 0 t = linBlk V c 0 t := by dsimp only [linDat]
theorem linAfter1 (c : Dev nD) (t : Fin cfg0.N) : (linDat V c).after 1 t = linBlk V c 1 t := by dsimp only [linDat]
theorem linAfter2 (c : Dev nD) (t : Fin cfg0.N) : (linDat V c).after 2 t = linBlk V c 2 t := by dsimp only [linDat]
theorem linAfter3 (c : Dev nD) (t : Fin cfg0.N) :
    (linDat V c).after 3 t = linOut (linBlk V c 0 t) (linBlk V c 1 t) (linBlk V c 2 t) := by dsimp only [linDat]

theorem linBefore0 (c : Dev nD) (t : Fin cfg0.N) (d) : (linDat V c).before 0 t d = linBlk V c 0 t :=
  linFound0 V (linDat V c) (linDat_A V c 0) (linAfter0 V c) t d
theorem linBefore1 (c : Dev nD) (t : Fin cfg0.N) (d) : (linDat V c).before 1 t d = linBlk V c 1 t :=
  linFound1 V (linDat V c) (linDat_A V c 1) (linAfter1 V c) t d
theorem linBefore2 (c : Dev nD) (t : Fin cfg0.N) (d) : (linDat V c).before 2 t d = linBlk V c 2 t :=
  linFound2 V (linDat V c) (linDat_A V c 2) (linAfter2 V c) t d

/-! ## The body obligation at a point -/

/-- What the body is called with at point t. -/
def linPre (c : Dev nD) (t : Fin cfg0.N) : sProp 𝕄 :=
  iprop((linDat V c).Φ t.castSucc ∗ (linDat V c).owesAt () t.castSucc
    ∗ (∃ d, owns (c : Thread nD τ) (st0_0 t) fullShare ((linDat V c).before 0 t d))
    ∗ (∃ d, owns (c : Thread nD τ) (st0_1 t) fullShare ((linDat V c).before 1 t d))
    ∗ (∃ d, owns (c : Thread nD τ) (st0_2 t) fullShare ((linDat V c).before 2 t d))
    ∗ (∃ d, owns (c : Thread nD τ) (st0_3 t) fullShare ((linDat V c).before 3 t d)))

/-- What it returns. -/
def linPost (c : Dev nD) (t : Fin cfg0.N) : sProp 𝕄 :=
  iprop((linDat V c).Φ t.succ ∗ (linDat V c).owesAt () t.succ
    ∗ owns (c : Thread nD τ) (st0_0 t) fullShare ((linDat V c).after 0 t)
    ∗ owns (c : Thread nD τ) (st0_1 t) fullShare ((linDat V c).after 1 t)
    ∗ owns (c : Thread nD τ) (st0_2 t) fullShare ((linDat V c).after 2 t)
    ∗ owns (c : Thread nD τ) (st0_3 t) fullShare ((linDat V c).after 3 t))

theorem linBody (c : Dev nD) (t : Fin cfg0.N) :
    linPre V c t ⊢ wp frame (wpE (defs₀ (F := F)) Variants.none c none) Set.univ (bodyAt0 t) (fun _ => linPost V c t) := by
  unfold linPre linPost bodyAt0
  simp only [linBefore0, linBefore1, linBefore2]
  rw [show (linDat V c).Φ t.succ = (linDat V c).Φ t.castSucc from rfl,
    show (linDat V c).owesAt () t.succ = (linDat V c).owesAt () t.castSucc from rfl,
    linAfter0, linAfter1, linAfter2, linAfter3]
  iintro ⟨HΦ, Ho, ⟨%d0, H0⟩, ⟨%d1, H1⟩, ⟨%d2, H2⟩, ⟨%d3, H3⟩⟩
  iapply (linRun c Set.univ _ _ _ _ _ _ _ _ _ (linBlk V c 0 t) (linBlk V c 1 t) (linBlk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline rule's obligation for this call, at every point. -/
theorem linObligation (c : Dev nD) : BodyObligation (linDat (F := F) V c) (defs₀ (F := F)) Variants.none () Set.univ := fun t => by
  rw [bigSep_W0, bigSep_W0]
  exact linBody V c t

end Cert.KernelIdeal.Frame

end
-- ==== Proof.KiFused.lean ====
/-
  The second call: the fused two-layer map on blocks of 4096 rows,
      out = ((f · W1 + g · W2) + b1) · W3 + b2 ,
  f a block of the flattened features, g the same block of the scattered update, W1 and W2 the two halves of the
  first layer's weights (transposed), W3 the second layer's. At a grid point t the call is handed block t of f and
  of g and the five small operands whole; it writes block t of the result. As for the first call: what one call
  leaves in its output buffer, the body's triple, and the per-point facts the pipeline rule asks for, at a
  parameter V (the unscoped buffers' contents on entry).
-/
import proofs.«116224_j58600533786747_1_alg».proof.Proof.Gen.KernelIdeal.Launch
import proofs.«116224_j58600533786747_1_alg».proof.Proof.Gen.KernelIdeal.Skeleton
import proofs.«116224_j58600533786747_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Blocks -/

/-- Operand w's block at point t, read off its array as the call finds it. -/
def fusBlk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first feature operand's staging buffer holds block t at point t (fetched at every point). -/
theorem fusFound0 {c : Dev nD} (dat : Dat τ (Elt F) Unit ℕ (UR sig nD τ) ℕ cfg1 c) (hA : dat.A 0 = V c (Pipeline.arrRef spec1 0))
    (hafter : ∀ t, dat.after 0 t = fusBlk V c 0 t) (t : Fin cfg1.N) (d) : dat.before 0 t d = fusBlk V c 0 t :=
  (dat.before_in_eq_fetched 0 rfl (fun _ => rfl) (fun _ _ _ => rfl) (fun t => by rw [hafter]; unfold Dat.blockOf fusBlk; rw [hA]; try rfl) t d).trans
    (by unfold Dat.fetched Dat.blockOf fusBlk; rw [hA]; try rfl)

/-- The second feature operand's likewise. -/
theorem fusFound1 {c : Dev nD} (dat : Dat τ (Elt F) Unit ℕ (UR sig nD τ) ℕ cfg1 c) (hA : dat.A 1 = V c (Pipeline.arrRef spec1 1))
    (hafter : ∀ t, dat.after 1 t = fusBlk V c 1 t) (t : Fin cfg1.N) (d) : dat.before 1 t d = fusBlk V c 1 t :=
  (dat.before_in_eq_fetched 1 rfl (fun _ => rfl) (fun _ _ _ => rfl) (fun t => by rw [hafter]; unfold Dat.blockOf fusBlk; rw [hA]; try rfl) t d).trans
    (by unfold Dat.fetched Dat.blockOf fusBlk; rw [hA]; try rfl)

/-- The first weight matrix is fetched once and its block index never moves: its buffer holds it whole at every point. -/
theorem fusFound2 {c : Dev nD} (dat : Dat τ (Elt F) Unit ℕ (UR sig nD τ) ℕ cfg1 c) (hA : dat.A 2 = V c (Pipeline.arrRef spec1 2))
    (hafter : ∀ t, dat.after 2 t = fusBlk V c 2 t) (t : Fin cfg1.N) (d) : dat.before 2 t d = fusBlk V c 2 t :=
  (dat.before_in_eq_fetched 2 rfl (fun _ => rfl) (fun _ _ _ => rfl) (fun t => by rw [hafter]; unfold Dat.blockOf fusBlk; rw [hA]; try rfl) t d).trans
    (by unfold Dat.fetched Dat.blockOf fusBlk; rw [hA]; try rfl)

/-- The second weight matrix likewise. -/
theorem fusFound3 {c : Dev nD} (dat : Dat τ (Elt F) Unit ℕ (UR sig nD τ) ℕ cfg1 c) (hA : dat.A 3 = V c (Pipeline.arrRef spec1 3))
    (hafter : ∀ t, dat.after 3 t = fusBlk V c 3 t) (t : Fin cfg1.N) (d) : dat.before 3 t d = fusBlk V c 3 t :=
  (dat.before_in_eq_fetched 3 rfl (fun _ => rfl) (fun _ _ _ => rfl) (fun t => by rw [hafter]; unfold Dat.blockOf fusBlk; rw [hA]; try rfl) t d).trans
    (by unfold Dat.fetched Dat.blockOf fusBlk; rw [hA]; try rfl)

/-- The inner bias row likewise. -/
theorem fusFound4 {c : Dev nD} (dat : Dat τ (Elt F) Unit ℕ (UR sig nD τ) ℕ cfg1 c) (hA : dat.A 4 = V c (Pipeline.arrRef spec1 4))
    (hafter : ∀ t, dat.after 4 t = fusBlk V c 4 t) (t : Fin cfg1.N) (d) : dat.before 4 t d = fusBlk V c 4 t :=
  (dat.before_in_eq_fetched 4 rfl (fun _ => rfl) (fun _ _ _ => rfl) (fun t => by rw [hafter]; unfold Dat.blockOf fusBlk; rw [hA]; try rfl) t d).trans
    (by unfold Dat.fetched Dat.blockOf fusBlk; rw [hA]; try rfl)

/-- The outer weight matrix likewise. -/
theorem fusFound5 {c : Dev nD} (dat : Dat τ (Elt F) Unit ℕ (UR sig nD τ) ℕ cfg1 c) (hA : dat.A 5 = V c (Pipeline.arrRef spec1 5))
    (hafter : ∀ t, dat.after 5 t = fusBlk V c 5 t) (t : Fin cfg1.N) (d) : dat.before 5 t d = fusBlk V c 5 t :=
  (dat.before_in_eq_fetched 5 rfl (fun _ => rfl) (fun _ _ _ => rfl) (fun t => by rw [hafter]; unfold Dat.blockOf fusBlk; rw [hA]; try rfl) t d).trans
    (by unfold Dat.fetched Dat.blockOf fusBlk; rw [hA]; try rfl)

/-- The outer bias row likewise. -/
theorem fusFound6 {c : Dev nD} (dat : Dat τ (Elt F) Unit ℕ (UR sig nD τ) ℕ cfg1 c) (hA : dat.A 6 = V c (Pipeline.arrRef spec1 6))
    (hafter : ∀ t, dat.after 6 t = fusBlk V c 6 t) (t : Fin cfg1.N) (d) : dat.before 6 t d = fusBlk V c 6 t :=
  (dat.before_in_eq_fetched 6 rfl (fun _ => rfl) (fun _ _ _ => rfl) (fun t => by rw [hafter]; unfold Dat.blockOf fusBlk; rw [hA]; try rfl) t d).trans
    (by unfold Dat.fetched Dat.blockOf fusBlk; rw [hA]; try rfl)

/-! ## The rectangles the body touches: each buffer whole -/

abbrev rowsTile1 : Rect S4096x128 := Rect.unit (s := S4096x128) ![0, 0] S4096x128.size inb_S4096x128_S4096x128_0_0
abbrev matTile1 : Rect S128x128 := Rect.unit (s := S128x128) ![0, 0] S128x128.size inb_S128x128_S128x128_0_0
abbrev rowTile1 : Rect S128 := Rect.unit (s := S128) ![0] S128.size inb_S128_S128_0

/-- What one call leaves in the output buffer: its single store over the whole tile. -/
def fusOut (f g : Vec F S4096x128 .f32) (w1 w2 : Vec F S128x128 .f32) (b1 : Vec F S128 .f32) (w3 : Vec F S128x128 .f32) (b2 : Vec F S128 .f32) :
    Vec F S4096x128 .f32 :=
  View.canon [⟨rowsTile1, k1_pay1 (View.ld f rowsTile1) (View.ld g rowsTile1) (View.ld w1 matTile1) (View.ld w2 matTile1)
    (View.ld b1 rowTile1) (View.ld w3 matTile1) (View.ld b2 rowTile1)⟩]

/-- The one store covers the buffer. -/
theorem fusCover (p : Vec F S4096x128 .f32) (y : S4096x128.Idx) :
    ∃ pc ∈ ([⟨rowsTile1, p⟩] : List (View.Piece (Elt F) S4096x128 .f32)), y ∈ pc.1.set :=
  View.cover_of_tiled [⟨rowsTile1, p⟩] S4096x128.size (by rfl) y

/-! ## The body's triple -/

set_option maxHeartbeats 2000000 in
/-- From whole staging memrefs holding the seven inputs (the output's holding anything) the body runs to its end,
    leaving the inputs as they were and the output at `fusOut` of them. -/
theorem fusRun (c : Dev nD) (E : Set ℕ) (i : grid1.Coords)
    (a1 : Memref sig .tc .vmem S4096x128 .f32) (h1 : a1.IsWhole) (a2 : Memref sig .tc .vmem S4096x128 .f32) (h2 : a2.IsWhole)
    (a3 : Memref sig .tc .vmem S128x128 .f32) (h3 : a3.IsWhole) (a4 : Memref sig .tc .vmem S128x128 .f32) (h4 : a4.IsWhole)
    (a5 : Memref sig .tc .vmem S128 .f32) (h5 : a5.IsWhole) (a6 : Memref sig .tc .vmem S128x128 .f32) (h6 : a6.IsWhole)
    (a7 : Memref sig .tc .vmem S128 .f32) (h7 : a7.IsWhole) (a8 : Memref sig .tc .vmem S4096x128 .f32) (h8 : a8.IsWhole)
    (f g : Vec F S4096x128 .f32) (w1 w2 : Vec F S128x128 .f32) (b1 : Vec F S128 .f32) (w3 : Vec F S128x128 .f32) (b2 : Vec F S128 .f32)
    (K : PUnit → sProp 𝕄) :
    iprop(owns (c : Thread nD τ) a1 fullShare f ∗ owns (c : Thread nD τ) a2 fullShare g ∗ owns (c : Thread nD τ) a3 fullShare w1
        ∗ owns (c : Thread nD τ) a4 fullShare w2 ∗ owns (c : Thread nD τ) a5 fullShare b1 ∗ owns (c : Thread nD τ) a6 fullShare w3
        ∗ owns (c : Thread nD τ) a7 fullShare b2 ∗ (∃ d, owns (c : Thread nD τ) a8 fullShare d)
        ∗ (iprop(owns (c : Thread nD τ) a1 fullShare f ∗ owns (c : Thread nD τ) a2 fullShare g ∗ owns (c : Thread nD τ) a3 fullShare w1
            ∗ owns (c : Thread nD τ) a4 fullShare w2 ∗ owns (c : Thread nD τ) a5 fullShare b1 ∗ owns (c : Thread nD τ) a6 fullShare w3
            ∗ owns (c : Thread nD τ) a7 fullShare b2 ∗ owns (c : Thread nD τ) a8 fullShare (fusOut f g w1 w2 b1 w3 b2)) -∗ K ⟨⟩))
      ⊢ wp frame (wpE (defs₀ (F := F)) Variants.none c none) E (cc1__fused_kernel i a1 h1 a2 h2 a3 h3 a4 h4 a5 h5 a6 h6 a7 h7 a8 h8) K := by
  simp only [cc1__fused_kernel_eq_skeleton]; unfold cc1__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (fusCover _)

/-! ## The pipeline's proof data for this call -/

/-- Arrays as found on entry; after the body at point t each input buffer still at its block and the output buffer
    at `fusOut` of the seven blocks; nothing kept between points, nothing owed, full shares. -/
def fusDat (c : Dev nD) : Dat τ (Elt F) Unit ℕ (UR sig nD τ) ℕ cfg1 c where
  A w := V c (Pipeline.arrRef spec1 w)
  after w t := match w with
    | ⟨0, _⟩ => fusBlk V c 0 t
    | ⟨1, _⟩ => fusBlk V c 1 t
    | ⟨2, _⟩ => fusBlk V c 2 t
    | ⟨3, _⟩ => fusBlk V c 3 t
    | ⟨4, _⟩ => fusBlk V c 4 t
    | ⟨5, _⟩ => fusBlk V c 5 t
    | ⟨6, _⟩ => fusBlk V c 6 t
    | ⟨7, _⟩ => fusOut (fusBlk V c 0 t) (fusBlk V c 1 t) (fusBlk V c 2 t) (fusBlk V c 3 t) (fusBlk V c 4 t) (fusBlk V c 5 t) (fusBlk V c 6 t)
  Φ _ := Pipeline.ΦA spec1 c
  q _ := fullShare
  owed _ := 0

theorem fusDat_A (c : Dev nD) (w : Fin cfg1.W) : (fusDat V c).A w = V c (Pipeline.arrRef spec1 w) := by
  dsimp only [fusDat]

theorem fusAfter0 (c : Dev nD) (t : Fin cfg1.N) : (fusDat V c).after 0 t = fusBlk V c 0 t := by dsimp only [fusDat]
theorem fusAfter1 (c : Dev nD) (t : Fin cfg1.N) : (fusDat V c).after 1 t = fusBlk V c 1 t := by dsimp only [fusDat]
theorem fusAfter2 (c : Dev nD) (t : Fin cfg1.N) : (fusDat V c).after 2 t = fusBlk V c 2 t := by dsimp only [fusDat]
theorem fusAfter3 (c : Dev nD) (t : Fin cfg1.N) : (fusDat V c).after 3 t = fusBlk V c 3 t := by dsimp only [fusDat]
theorem fusAfter4 (c : Dev nD) (t : Fin cfg1.N) : (fusDat V c).after 4 t = fusBlk V c 4 t := by dsimp only [fusDat]
theorem fusAfter5 (c : Dev nD) (t : Fin cfg1.N) : (fusDat V c).after 5 t = fusBlk V c 5 t := by dsimp only [fusDat]
theorem fusAfter6 (c : Dev nD) (t : Fin cfg1.N) : (fusDat V c).after 6 t = fusBlk V c 6 t := by dsimp only [fusDat]
theorem fusAfter7 (c : Dev nD) (t : Fin cfg1.N) :
    (fusDat V c).after 7 t = fusOut (fusBlk V c 0 t) (fusBlk V c 1 t) (fusBlk V c 2 t) (fusBlk V c 3 t) (fusBlk V c 4 t) (fusBlk V c 5 t) (fusBlk V c 6 t) := by
  dsimp only [fusDat]

theorem fusBefore0 (c : Dev nD) (t : Fin cfg1.N) (d) : (fusDat V c).before 0 t d = fusBlk V c 0 t :=
  fusFound0 V (fusDat V c) (fusDat_A V c 0) (fusAfter0 V c) t d
theorem fusBefore1 (c : Dev nD) (t : Fin cfg1.N) (d) : (fusDat V c).before 1 t d = fusBlk V c 1 t :=
  fusFound1 V (fusDat V c) (fusDat_A V c 1) (fusAfter1 V c) t d
theorem fusBefore2 (c : Dev nD) (t : Fin cfg1.N) (d) : (fusDat V c).before 2 t d = fusBlk V c 2 t :=
  fusFound2 V (fusDat V c) (fusDat_A V c 2) (fusAfter2 V c) t d
theorem fusBefore3 (c : Dev nD) (t : Fin cfg1.N) (d) : (fusDat V c).before 3 t d = fusBlk V c 3 t :=
  fusFound3 V (fusDat V c) (fusDat_A V c 3) (fusAfter3 V c) t d
theorem fusBefore4 (c : Dev nD) (t : Fin cfg1.N) (d) : (fusDat V c).before 4 t d = fusBlk V c 4 t :=
  fusFound4 V (fusDat V c) (fusDat_A V c 4) (fusAfter4 V c) t d
theorem fusBefore5 (c : Dev nD) (t : Fin cfg1.N) (d) : (fusDat V c).before 5 t d = fusBlk V c 5 t :=
  fusFound5 V (fusDat V c) (fusDat_A V c 5) (fusAfter5 V c) t d
theorem fusBefore6 (c : Dev nD) (t : Fin cfg1.N) (d) : (fusDat V c).before 6 t d = fusBlk V c 6 t :=
  fusFound6 V (fusDat V c) (fusDat_A V c 6) (fusAfter6 V c) t d

/-! ## The body obligation at a point -/

/-- What the body is called with at point t. -/
def fusPre (c : Dev nD) (t : Fin cfg1.N) : sProp 𝕄 :=
  iprop((fusDat V c).Φ t.castSucc ∗ (fusDat V c).owesAt () t.castSucc
    ∗ (∃ d, owns (c : Thread nD τ) (st1_0 t) fullShare ((fusDat V c).before 0 t d))
    ∗ (∃ d, owns (c : Thread nD τ) (st1_1 t) fullShare ((fusDat V c).before 1 t d))
    ∗ (∃ d, owns (c : Thread nD τ) (st1_2 t) fullShare ((fusDat V c).before 2 t d))
    ∗ (∃ d, owns (c : Thread nD τ) (st1_3 t) fullShare ((fusDat V c).before 3 t d))
    ∗ (∃ d, owns (c : Thread nD τ) (st1_4 t) fullShare ((fusDat V c).before 4 t d))
    ∗ (∃ d, owns (c : Thread nD τ) (st1_5 t) fullShare ((fusDat V c).before 5 t d))
    ∗ (∃ d, owns (c : Thread nD τ) (st1_6 t) fullShare ((fusDat V c).before 6 t d))
    ∗ (∃ d, owns (c : Thread nD τ) (st1_7 t) fullShare ((fusDat V c).before 7 t d)))

/-- What it returns. -/
def fusPost (c : Dev nD) (t : Fin cfg1.N) : sProp 𝕄 :=
  iprop((fusDat V c).Φ t.succ ∗ (fusDat V c).owesAt () t.succ
    ∗ owns (c : Thread nD τ) (st1_0 t) fullShare ((fusDat V c).after 0 t)
    ∗ owns (c : Thread nD τ) (st1_1 t) fullShare ((fusDat V c).after 1 t)
    ∗ owns (c : Thread nD τ) (st1_2 t) fullShare ((fusDat V c).after 2 t)
    ∗ owns (c : Thread nD τ) (st1_3 t) fullShare ((fusDat V c).after 3 t)
    ∗ owns (c : Thread nD τ) (st1_4 t) fullShare ((fusDat V c).after 4 t)
    ∗ owns (c : Thread nD τ) (st1_5 t) fullShare ((fusDat V c).after 5 t)
    ∗ owns (c : Thread nD τ) (st1_6 t) fullShare ((fusDat V c).after 6 t)
    ∗ owns (c : Thread nD τ) (st1_7 t) fullShare ((fusDat V c).after 7 t))

theorem fusBody (c : Dev nD) (t : Fin cfg1.N) :
    fusPre V c t ⊢ wp frame (wpE (defs₀ (F := F)) Variants.none c none) Set.univ (bodyAt1 t) (fun _ => fusPost V c t) := by
  unfold fusPre fusPost bodyAt1
  simp only [fusBefore0, fusBefore1, fusBefore2, fusBefore3, fusBefore4, fusBefore5, fusBefore6]
  rw [show (fusDat V c).Φ t.succ = (fusDat V c).Φ t.castSucc from rfl,
    show (fusDat V c).owesAt () t.succ = (fusDat V c).owesAt () t.castSucc from rfl,
    fusAfter0, fusAfter1, fusAfter2, fusAfter3, fusAfter4, fusAfter5, fusAfter6, fusAfter7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (fusRun c Set.univ _ _ _ _ _ _ _ _ _ _ _ _ _ _ _ _ _ (fusBlk V c 0 t) (fusBlk V c 1 t) (fusBlk V c 2 t) (fusBlk V c 3 t)
    (fusBlk V c 4 t) (fusBlk V c 5 t) (fusBlk V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline rule's obligation for this call, at every point. -/
theorem fusObligation (c : Dev nD) : BodyObligation (fusDat (F := F) V c) (defs₀ (F := F)) Variants.none () Set.univ := fun t => by
  rw [bigSep_W1, bigSep_W1]
  exact fusBody V c t

end Cert.KernelIdeal.Frame

end
-- ==== Proof.KiRun.lean ====
/-
  The whole program as a chain of five segments — host operations, the projection call, host operations, the fused
  call, host operations — and its run. Between two segments the unscoped buffers of a core are held whole at
  contents B0, …, B5: B0 the launch memory; across a stretch of host operations the operations' fold; across a call
  the call's arrays replaced by what its write-backs leave, every other buffer untouched. The run theorem says every
  weakly fair execution ends with every unscoped buffer at B5; the frame claim (the arguments end as launched) and
  the value claim both read off it.
-/
import proofs.«116224_j58600533786747_1_alg».proof.Proof.KiLinear
import proofs.«116224_j58600533786747_1_alg».proof.Proof.KiFused
import proofs.«116224_j58600533786747_1_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between segments -/

/-- At launch. -/
abbrev B0 : Dev nD → Valuation τ sig (Elt F) := fun c b => (s₀ m ρ).mem ((c : Dev nD), b)
/-- After the first stretch of host operations: what the projection call is entered with. -/
abbrev B1 : Dev nD → Valuation τ sig (Elt F) := fun c => StableHlo.after hostOps0 (B0 m ρ c)
abbrev C1 : (c : Dev nD) → (b : Ref sig .tc) → Buf (Elt F) ((c : Thread nD τ).loc b) := fun c b => B1 m ρ c b
/-- After the projection call: its arrays at what the pipeline leaves, the rest as entered. -/
def B2 (c : Dev nD) : Valuation τ sig (Elt F) :=
  Pipeline.withArrays spec0 c (B1 m ρ c) fun w => (linDat (C1 m ρ) c).arrAt w cfg0.N
theorem B2_arr (c : Dev nD) (w : Fin cfg0.W) :
    B2 m ρ c (Proc.devRef .tc (Pipeline.arrRef spec0 w)) = (linDat (C1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev C2 : (c : Dev nD) → (b : Ref sig .tc) → Buf (Elt F) ((c : Thread nD τ).loc b) := fun c b => B2 m ρ c b
theorem left0_arr (c : Dev nD) (w : Fin cfg0.W) : (linDat (C1 m ρ) c).arrAt w cfg0.N = C2 m ρ c (Pipeline.arrRef spec0 w) :=
  (B2_arr m ρ c w).symm
theorem left0_rest (c : Dev nD) : ∀ b, b ∉ Finset.univ.image (Pipeline.arrRef spec0) → C2 m ρ c b = C1 m ρ c b :=
  fun b hb => B2_of_ne m ρ c b fun w e => hb (Finset.mem_image.mpr ⟨w, Finset.mem_univ _, e⟩)

/-- After the second stretch of host operations: what the fused call is entered with. -/
abbrev B3 : Dev nD → Valuation τ sig (Elt F) := fun c => StableHlo.after hostOps1 (B2 m ρ c)
abbrev C3 : (c : Dev nD) → (b : Ref sig .tc) → Buf (Elt F) ((c : Thread nD τ).loc b) := fun c b => B3 m ρ c b
/-- After the fused call. -/
def B4 (c : Dev nD) : Valuation τ sig (Elt F) :=
  Pipeline.withArrays spec1 c (B3 m ρ c) fun w => (fusDat (C3 m ρ) c).arrAt w cfg1.N
theorem B4_arr (c : Dev nD) (w : Fin cfg1.W) :
    B4 m ρ c (Proc.devRef .tc (Pipeline.arrRef spec1 w)) = (fusDat (C3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev C4 : (c : Dev nD) → (b : Ref sig .tc) → Buf (Elt F) ((c : Thread nD τ).loc b) := fun c b => B4 m ρ c b
theorem left1_arr (c : Dev nD) (w : Fin cfg1.W) : (fusDat (C3 m ρ) c).arrAt w cfg1.N = C4 m ρ c (Pipeline.arrRef spec1 w) :=
  (B4_arr m ρ c w).symm
theorem left1_rest (c : Dev nD) : ∀ b, b ∉ Finset.univ.image (Pipeline.arrRef spec1) → C4 m ρ c b = C3 m ρ c b :=
  fun b hb => B4_of_ne m ρ c b fun w e => hb (Finset.mem_image.mpr ⟨w, Finset.mem_univ _, e⟩)

/-- After the last stretch of host operations: the end. -/
abbrev B5 : Dev nD → Valuation τ sig (Elt F) := fun c => StableHlo.after hostOps2 (B4 m ρ c)

/-! ## A buffer no segment writes ends as launched -/

/-- The projection call changes only its output array. -/
theorem B2_keep (c : Dev nD) (b : Ref sig .tc) (hb : b ≠ main_v2) (hin : ∀ w : Fin cfg0.W, Pipeline.arrRef spec0 w = b → (cfg0.win w).isOut = false) :
    B2 m ρ c (Proc.devRef .tc b) = B1 m ρ c (Proc.devRef .tc b) := by
  by_cases h : ∃ w, Pipeline.arrRef spec0 w = b
  · obtain ⟨w, rfl⟩ := h
    rw [B2_arr]
    exact ((linDat (C1 m ρ) c).arrAt_in w (hin w rfl) _).trans (linDat_A (C1 m ρ) c w)
  · exact B2_of_ne m ρ c b fun w e => h ⟨w, e⟩

/-- The fused call changes only its output array. -/
theorem B4_keep (c : Dev nD) (b : Ref sig .tc) (hb : b ≠ main_v37) (hin : ∀ w : Fin cfg1.W, Pipeline.arrRef spec1 w = b → (cfg1.win w).isOut = false) :
    B4 m ρ c (Proc.devRef .tc b) = B3 m ρ c (Proc.devRef .tc b) := by
  by_cases h : ∃ w, Pipeline.arrRef spec1 w = b
  · obtain ⟨w, rfl⟩ := h
    rw [B4_arr]
    exact ((fusDat (C3 m ρ) c).arrAt_in w (hin w rfl) _).trans (fusDat_A (C3 m ρ) c w)
  · exact B4_of_ne m ρ c b fun w e => h ⟨w, e⟩

/-- A window of the projection call whose array is not the call's result is an input window. -/
theorem win0_in (b : Ref sig .tc) (hb : b ≠ main_v2) : ∀ w : Fin cfg0.W, Pipeline.arrRef spec0 w = b → (cfg0.win w).isOut = false := by
  intro w e; subst e; revert hb; revert w; decide

/-- A window of the fused call whose array is not the call's result is an input window. -/
theorem win1_in (b : Ref sig .tc) (hb : b ≠ main_v37) : ∀ w : Fin cfg1.W, Pipeline.arrRef spec1 w = b → (cfg1.win w).isOut = false := by
  intro w e; subst e; revert hb; revert w; decide

/-- A reference that no host operation writes and that is neither call's result holds at the end what it held at launch. -/
theorem B5_kept (c : Dev nD) (b : Ref sig .tc) (h0 : b ∉ hostOps0_W) (h1 : b ∉ hostOps1_W) (h2 : b ∉ hostOps2_W)
    (hv2 : b ≠ main_v2) (hv37 : b ≠ main_v37) : B5 m ρ c (Proc.devRef .tc b) = m ((c : Thread nD τ).loc b) :=
  calc B5 m ρ c (Proc.devRef .tc b)
    _ = B4 m ρ c (Proc.devRef .tc b) := StableHlo.after_of_writes_sub hostOps2 _ hostOps2_writes h2
    _ = B3 m ρ c (Proc.devRef .tc b) := B4_keep m ρ c b hv37 (win1_in b hv37)
    _ = B2 m ρ c (Proc.devRef .tc b) := StableHlo.after_of_writes_sub hostOps1 _ hostOps1_writes h1
    _ = B1 m ρ c (Proc.devRef .tc b) := B2_keep m ρ c b hv2 (win0_in b hv2)
    _ = B0 m ρ c (Proc.devRef .tc b) := StableHlo.after_of_writes_sub hostOps0 _ hostOps0_writes h0
    _ = m ((c : Thread nD τ).loc b) := rfl

theorem B5_main_arg0 (c : Dev nD) : B5 m ρ c (Proc.devRef .tc main_arg0) = m ((c : Thread nD τ).loc main_arg0) :=
  B5_kept m ρ c main_arg0 (by decide) (by decide) (by decide) (by decide) (by decide)
theorem B5_main_arg1 (c : Dev nD) : B5 m ρ c (Proc.devRef .tc main_arg1) = m ((c : Thread nD τ).loc main_arg1) :=
  B5_kept m ρ c main_arg1 (by decide) (by decide) (by decide) (by decide) (by decide)
theorem B5_main_arg2 (c : Dev nD) : B5 m ρ c (Proc.devRef .tc main_arg2) = m ((c : Thread nD τ).loc main_arg2) :=
  B5_kept m ρ c main_arg2 (by decide) (by decide) (by decide) (by decide) (by decide)
theorem B5_main_arg3 (c : Dev nD) : B5 m ρ c (Proc.devRef .tc main_arg3) = m ((c : Thread nD τ).loc main_arg3) :=
  B5_kept m ρ c main_arg3 (by decide) (by decide) (by decide) (by decide) (by decide)
theorem B5_main_arg4 (c : Dev nD) : B5 m ρ c (Proc.devRef .tc main_arg4) = m ((c : Thread nD τ).loc main_arg4) :=
  B5_kept m ρ c main_arg4 (by decide) (by decide) (by decide) (by decide) (by decide)
theorem B5_main_arg5 (c : Dev nD) : B5 m ρ c (Proc.devRef .tc main_arg5) = m ((c : Thread nD τ).loc main_arg5) :=
  B5_kept m ρ c main_arg5 (by decide) (by decide) (by decide) (by decide) (by decide)
theorem B5_main_arg6 (c : Dev nD) : B5 m ρ c (Proc.devRef .tc main_arg6) = m ((c : Thread nD τ).loc main_arg6) :=
  B5_kept m ρ c main_arg6 (by decide) (by decide) (by decide) (by decide) (by decide)
theorem B5_main_arg7 (c : Dev nD) : B5 m ρ c (Proc.devRef .tc main_arg7) = m ((c : Thread nD τ).loc main_arg7) :=
  B5_kept m ρ c main_arg7 (by decide) (by decide) (by decide) (by decide) (by decide)
theorem B5_main_arg8 (c : Dev nD) : B5 m ρ c (Proc.devRef .tc main_arg8) = m ((c : Thread nD τ).loc main_arg8) :=
  B5_kept m ρ c main_arg8 (by decide) (by decide) (by decide) (by decide) (by decide)
theorem B5_main_arg9 (c : Dev nD) : B5 m ρ c (Proc.devRef .tc main_arg9) = m ((c : Thread nD τ).loc main_arg9) :=
  B5_kept m ρ c main_arg9 (by decide) (by decide) (by decide) (by decide) (by decide)
theorem B5_main_arg10 (c : Dev nD) : B5 m ρ c (Proc.devRef .tc main_arg10) = m ((c : Thread nD τ).loc main_arg10) :=
  B5_kept m ρ c main_arg10 (by decide) (by decide) (by decide) (by decide) (by decide)
theorem B5_main_arg11 (c : Dev nD) : B5 m ρ c (Proc.devRef .tc main_arg11) = m ((c : Thread nD τ).loc main_arg11) :=
  B5_kept m ρ c main_arg11 (by decide) (by decide) (by decide) (by decide) (by decide)

/-! ## The proof data family and what rides beside the buffers -/

abbrev padm : (p : Fin 2) → (pcfgs (F := F) p).Adm := fun p => (cfgs p).toPCfg_adm
/-- Each call's proof data at the contents the call is entered with. -/
def bdats : (p : Fin 2) → (c : Dev nD) → Dat τ (Elt F) Unit ℕ (UR sig nD τ) ℕ (Pipeline.pin (pcfgs (F := F)) padm p) c
  | ⟨0, _⟩ => fun c => linDat (C1 m ρ) c
  | ⟨1, _⟩ => fun c => fusDat (C3 m ρ) c
abbrev novar : Variants := Variants.none
abbrev noL : GSem nD τ sig → Finset Unit := fun _ => ∅
abbrev nolv : GSem nD τ sig → Unit → ℕ := fun _ _ => 0
/-- Beside the buffers: the generator register at some state, and the core owing nothing. -/
abbrev Rest (c : Dev nD) : sProp 𝕄 := iprop((∃ r, prngReg c r) ∗ ∃ W, owes (c : Thread nD τ) (0 : CellTallies nD τ sig Unit) W)
/-- A stretch of host operations as a segment from the contents `B`. -/
abbrev stretch (ops : List (HloOp τ sig (Elt F))) (hsub : ops.Forall fun op => op.bufs ⊆ StableHlo.tcRefs τ sig)
    (hfresh : ops.Forall fun op => op.fresh = ∅) (B : Dev nD → Valuation τ sig (Elt F)) :
    Pipeline.HostSeg (Name := ℕ) (U := UR sig nD τ) (pcfgs (F := F)) defs₀ novar noL nolv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) B Rest

set_option backward.isDefEq.respectTransparency.types false in
/-- Call 0 as a segment: entered with every unscoped buffer at `B1`, left with them at `B2`. On entry the call's
    arrays are split off the unscoped buffers and the generator register goes into the call's invariant; on exit the
    arrays come back at what the write-backs left and the register comes out again. Nothing is owed, and the kernel
    has no semaphore of its own. -/
def region0 : Pipeline.RegionSeg (pcfgs (F := F)) padm (bdats m ρ) () defs₀ novar noL nolv 0 where
  win := launch0.win.to₀
  block_pos := launch0.block_pos
  stage_whole := launch0.stage_whole
  K := PEmpty
  osem k := k.elim
  ho := Pipeline.OwnSemFacts.none _
  hbody c := (linObligation (C1 m ρ) c).loose
  hwaits := Pipeline.hwaits_of_owed_zero _ _ _ _ noL nolv 0 fun _ _ => rfl
  pre c := iprop(StableHlo.held (c : Thread nD τ) (Pipeline.ucRefs τ sig) (B1 m ρ c) ∗ Rest c)
  post c := iprop(StableHlo.held (c : Thread nD τ) (Pipeline.ucRefs τ sig) (B2 m ρ c) ∗ Rest c)
  X c := iprop(∃ r, prngReg c r)
  Y c := iprop(∃ r, prngReg c r)
  Z c := Pipeline.unscopedRest (Ix := Unit) (Name := ℕ) (U := UR sig nD τ) (Lvl := ℕ) spec0 c (C1 m ρ c)
  hentry c := by
    rw [Pipeline.ownSems0_none]
    have hsplit := Pipeline.arrays_of_unscopedBufs (p := 0) (pcfgs (F := F)) padm (bdats m ρ) launch0.win launch0.arr_whole c
      ((bdats m ρ 0 c).share_full fun _ => rfl) (C1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (bdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (bdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) padm (Ix := Unit) (Name := ℕ) (U := UR sig nD τ) (Lvl := ℕ)
      launch0.win launch0.arr_whole c (bdats m ρ) ((bdats m ρ 0 c).share_full fun _ => rfl)
      (C1 m ρ c) (C2 m ρ c) ((bdats m ρ 0 c).arrAt · cfg0.N) (left0_arr m ρ c) (left0_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 1 as a segment: entered with every unscoped buffer at `B3`, left with them at `B4`. On entry the call's
    arrays are split off the unscoped buffers and the generator register goes into the call's invariant; on exit the
    arrays come back at what the write-backs left and the register comes out again. Nothing is owed, and the kernel
    has no semaphore of its own. -/
def region1 : Pipeline.RegionSeg (pcfgs (F := F)) padm (bdats m ρ) () defs₀ novar noL nolv 1 where
  win := launch1.win.to₀
  block_pos := launch1.block_pos
  stage_whole := launch1.stage_whole
  K := PEmpty
  osem k := k.elim
  ho := Pipeline.OwnSemFacts.none _
  hbody c := (fusObligation (C3 m ρ) c).loose
  hwaits := Pipeline.hwaits_of_owed_zero _ _ _ _ noL nolv 1 fun _ _ => rfl
  pre c := iprop(StableHlo.held (c : Thread nD τ) (Pipeline.ucRefs τ sig) (B3 m ρ c) ∗ Rest c)
  post c := iprop(StableHlo.held (c : Thread nD τ) (Pipeline.ucRefs τ sig) (B4 m ρ c) ∗ Rest c)
  X c := iprop(∃ r, prngReg c r)
  Y c := iprop(∃ r, prngReg c r)
  Z c := Pipeline.unscopedRest (Ix := Unit) (Name := ℕ) (U := UR sig nD τ) (Lvl := ℕ) spec1 c (C3 m ρ c)
  hentry c := by
    rw [Pipeline.ownSems0_none]
    have hsplit := Pipeline.arrays_of_unscopedBufs (p := 1) (pcfgs (F := F)) padm (bdats m ρ) launch1.win launch1.arr_whole c
      ((bdats m ρ 1 c).share_full fun _ => rfl) (C3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (bdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (bdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) padm (Ix := Unit) (Name := ℕ) (U := UR sig nD τ) (Lvl := ℕ)
      launch1.win launch1.arr_whole c (bdats m ρ) ((bdats m ρ 1 c).share_full fun _ => rfl)
      (C3 m ρ c) (C4 m ρ c) ((bdats m ρ 1 c).arrAt · cfg1.N) (left1_arr m ρ c) (left1_rest m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The five segments in order. -/
abbrev parts : List (Pipeline.Seg (pcfgs (F := F)) padm (bdats m ρ) () defs₀ novar noL nolv) :=
  [ .host (stretch hostOps0 hostOps0_sub hostOps0_fresh (B0 m ρ)),
    .region (region0 m ρ),
    .host (stretch hostOps1 hostOps1_sub hostOps1_fresh (B2 m ρ)),
    .region (region1 m ρ),
    .host (stretch hostOps2 hostOps2_sub hostOps2_fresh (B4 m ρ)) ]

/-- The last thread state without the `owes`. -/
abbrev Tend (c : Dev nD) : sProp 𝕄 := iprop(StableHlo.held (c : Thread nD τ) (Pipeline.ucRefs τ sig) (B5 m ρ c) ∗ ∃ r, prngReg c r)

set_option backward.isDefEq.respectTransparency.types false in
/-- Every weakly fair execution of @main from memory `m` with zero counters terminates, nothing faulting, with every
    unscoped buffer of every core at `B5`. -/
theorem run : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) padm (bdats m ρ) () cellOf_inj emb₁ defs₀ novar noL nolv m ρ main (parts m ρ)
    (fun c Q => by
      rewrite [main_chain c, Pipeline.Seg.run_eq_chain,
        show (parts m ρ).map Pipeline.Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ Rest c)) (Tₙ := Tend m ρ)
    (hch := ⟨fun _ => .rfl, fun _ => .rfl, fun _ => .rfl, fun _ => .rfl, fun _ => .rfl, fun c =>
      (show iprop(StableHlo.held (c : Thread nD τ) (Pipeline.ucRefs τ sig) (B5 m ρ c) ∗ Rest c)
          ⊢ iprop(Tend m ρ c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach noL nolv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h c => h c)

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_arg0 (by decide))).trans (B5_main_arg0 m ρ c),
    (h c _ (mem_uc main_arg1 (by decide))).trans (B5_main_arg1 m ρ c),
    (h c _ (mem_uc main_arg2 (by decide))).trans (B5_main_arg2 m ρ c),
    (h c _ (mem_uc main_arg3 (by decide))).trans (B5_main_arg3 m ρ c),
    (h c _ (mem_uc main_arg4 (by decide))).trans (B5_main_arg4 m ρ c),
    (h c _ (mem_uc main_arg5 (by decide))).trans (B5_main_arg5 m ρ c),
    (h c _ (mem_uc main_arg6 (by decide))).trans (B5_main_arg6 m ρ c),
    (h c _ (mem_uc main_arg7 (by decide))).trans (B5_main_arg7 m ρ c),
    (h c _ (mem_uc main_arg8 (by decide))).trans (B5_main_arg8 m ρ c),
    (h c _ (mem_uc main_arg9 (by decide))).trans (B5_main_arg9 m ρ c),
    (h c _ (mem_uc main_arg10 (by decide))).trans (B5_main_arg10 m ρ c),
    (h c _ (mem_uc main_arg11 (by decide))).trans (B5_main_arg11 m ρ c)⟩) (run m ρ)

end Cert.KernelIdeal.Frame

end
-- ==== Proof.Spec.lean ====
/-
  What the two calls compute, entry by entry over the extended reals.
  linSpec: rows times a matrix plus a bias row,  out[r, o] = (sum over k of x[r, k] * w[k, o]) + b[o].
  fusSpec: two such products added, a bias row, then a second product and bias row,
      out[r, o] = (sum over d of ((sum over k of f[r, k] * w1[k, d]) + (sum over k of g[r, k] * w2[k, d]) + b1[d]) * w3[d, o]) + b2[o].
-/
import proofs.«116224_j58600533786747_1_alg».proof.KernelIdeal
import Idealize.ShloMosaic.Lib.ValueIdx
import Idealize.ShloMosaic.PureOps.Ideal

noncomputable section

open scoped BigOperators

namespace Cert.KernelIdeal.Spec

open Cert.KernelIdeal Idealize.ShloMosaic Idealize.ShloMosaic.ValueIdx

/-- The projection call's result from its three operands. -/
def linSpec (x : Vec Ideal S32768x128 .f32) (w : Vec Ideal S128x128 .f32) (b : Vec Ideal S128 .f32) : Vec Ideal S32768x128 .f32 :=
  fun j => (∑ k : Fin 128, x (ix2 (j 0) k) * w (ix2 k (j 1))) + b (ix1 (j 1))

/-- The fused call's result from its seven operands. -/
def fusSpec (f g : Vec Ideal S294912x128 .f32) (w1 w2 : Vec Ideal S128x128 .f32) (b1 : Vec Ideal S128 .f32)
    (w3 : Vec Ideal S128x128 .f32) (b2 : Vec Ideal S128 .f32) : Vec Ideal S294912x128 .f32 :=
  fun j => (∑ d : Fin 128,
      (((∑ k : Fin 128, f (ix2 (j 0) k) * w1 (ix2 k d)) + (∑ k : Fin 128, g (ix2 (j 0) k) * w2 (ix2 k d))) + b1 (ix1 d)) * w3 (ix2 d (j 1)))
    + b2 (ix1 (j 1))

end Cert.KernelIdeal.Spec

end
-- ==== Proof.LibPlainDot.lean ====
/-
  A matrix product with the plain dimension numbers, read at an entry (general in the sizes).

  For a left operand `[R, K]`, a right operand `[K, N]` and a result `[R, N]`, when the left operand contracts
  its second axis, the right one its first, neither has a batch axis, and the result's axes are the left
  operand's rows then the right operand's columns, the sum over the contraction index at the entry `(p, q)` is
  the sum over `k : Fin K` of `l (p, k) * r (k, q)`. Stated once for any such record of dimension numbers, it
  reads a kernel's matrix product into a zero accumulator and a host's general dot product the same way.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {R K N : ℕ}

/-- The dimension numbers of `[R, K] · [K, N] → [R, N]`: one contracted axis each (the left operand's columns, the
    right operand's rows), no batch axes, rows before columns in the result. -/
structure IsPlain (d : DotDims (⟨2, ![R, K]⟩ : Shape) (⟨2, ![K, N]⟩ : Shape) (⟨2, ![R, N]⟩ : Shape)) : Prop where
  lc : d.lhsContracting = [1]
  rc : d.rhsContracting = [0]
  ln : d.lhsNonContracting = [0]
  rn : d.rhsNonContracting = [1]
  lb : d.lhsBatch = []
  rb : d.rhsBatch = []

variable {d : DotDims (⟨2, ![R, K]⟩ : Shape) (⟨2, ![K, N]⟩ : Shape) (⟨2, ![R, N]⟩ : Shape)}

private theorem coord_congr {s : Shape} (j : s.Idx) (a b : ℕ) (ha : a < s.rank) (hb : b < s.rank) (h : a = b) :
    (j ⟨a, ha⟩).val = (j ⟨b, hb⟩).val := by subst h; rfl

/-- The left operand's row is the result's row. -/
theorem lhs_row (h : IsPlain d) (j : (⟨2, ![R, N]⟩ : Shape).Idx) (k : d.contr.Idx) :
    (d.lhsIdx j k (0 : Fin 2)).val = (j (0 : Fin 2)).val := by
  have hb : (0 : Fin 2) ∉ d.lhsBatch := by rw [h.lb]; exact List.not_mem_nil
  have hn : (0 : Fin 2) ∈ d.lhsNonContracting := by rw [h.ln]; exact List.mem_singleton.mpr rfl
  unfold DotDims.lhsIdx
  rw [dif_neg hb, dif_pos hn]
  simp only [Fin.val_cast]
  exact coord_congr j _ _ _ _ (by simp [h.lb, h.ln])

/-- The left operand's column is the contraction coordinate. -/
theorem lhs_col (h : IsPlain d) (j : (⟨2, ![R, N]⟩ : Shape).Idx) (k : d.contr.Idx) :
    (d.lhsIdx j k (1 : Fin 2)).val = (k ⟨0, by rw [d.rank_contr, h.lc]; exact Nat.one_pos⟩).val :=
  d.lhsIdx_val_of_single h.lc j k

/-- The right operand's row is the contraction coordinate. -/
theorem rhs_row (h : IsPlain d) (j : (⟨2, ![R, N]⟩ : Shape).Idx) (k : d.contr.Idx) :
    (d.rhsIdx j k (0 : Fin 2)).val = (k ⟨0, by rw [d.rank_contr, ← d.length_contracting, h.rc]; exact Nat.one_pos⟩).val :=
  d.rhsIdx_val_of_single h.rc j k

/-- The right operand's column is the result's column. -/
theorem rhs_col (h : IsPlain d) (j : (⟨2, ![R, N]⟩ : Shape).Idx) (k : d.contr.Idx) :
    (d.rhsIdx j k (1 : Fin 2)).val = (j (1 : Fin 2)).val := by
  have hb : (1 : Fin 2) ∉ d.rhsBatch := by rw [h.rb]; exact List.not_mem_nil
  have hn : (1 : Fin 2) ∈ d.rhsNonContracting := by rw [h.rn]; exact List.mem_singleton.mpr rfl
  unfold DotDims.rhsIdx
  rw [dif_neg hb, dif_pos hn]
  simp only [Fin.val_cast]
  exact coord_congr j _ _ _ _ (by simp [h.lb, h.ln, h.rn])

theorem contr_rank (h : IsPlain d) : d.contr.rank = 1 := by rw [d.rank_contr, h.lc]; rfl

theorem contr_size (h : IsPlain d) : d.contr.size ⟨0, by rw [contr_rank h]; exact Nat.one_pos⟩ = K := by
  rw [d.size_contr 0 (by rw [h.lc]; exact Nat.one_pos)]
  simp [h.lc]

/-- The contraction sum at the entry `(p, q)`, over the one contracted coordinate. -/
theorem sum_contr (h : IsPlain d) (l : (⟨2, ![R, K]⟩ : Shape).Idx → EReal) (r : (⟨2, ![K, N]⟩ : Shape).Idx → EReal)
    (p : Fin R) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank h) (contr_size h)).symm]
  refine Finset.sum_congr rfl fun k _ => ?_
  have hl : d.lhsIdx (ix2 p q) ((contrEquiv1 d K (contr_rank h) (contr_size h)).symm k) = ix2 p k := by
    funext a
    refine Fin.ext ?_
    match a with
    | ⟨0, _⟩ => exact lhs_row h _ _
    | ⟨1, _⟩ => exact (lhs_col h _ _).trans (contrEquiv1_symm_val d K (contr_rank h) (contr_size h) k)
  have hr : d.rhsIdx (ix2 p q) ((contrEquiv1 d K (contr_rank h) (contr_size h)).symm k) = ix2 k q := by
    funext a
    refine Fin.ext ?_
    match a with
    | ⟨0, _⟩ => exact (rhs_row h _ _).trans (contrEquiv1_symm_val d K (contr_rank h) (contr_size h) k)
    | ⟨1, _⟩ => exact rhs_col h _ _
  rw [hl, hr]

/-- A kernel's matrix product into the zero accumulator, at the ideal values, read at `(p, q)`. -/
theorem matmul_zero_apply (h : IsPlain d) (prec : Option ContractPrecision)
    (l : FVec Ideal (⟨2, ![R, K]⟩ : Shape) .f32) (r : FVec Ideal (⟨2, ![K, N]⟩ : Shape) .f32) (p : Fin R) (q : Fin N) :
    FloatOps.matmul d prec l r (constant (⟨2, ![R, N]⟩ : Shape) .f32 0x00000000#32) (ix2 p q)
      = ∑ k : Fin K, l (ix2 p k) * r (ix2 k q) :=
  (Ideal.matmul_constant_zero_apply d prec l r (ix2 p q)).trans (sum_contr h l r p q)

/-- A host's general dot product, at the ideal values, read at `(p, q)`. -/
theorem dotGeneral_apply (h : IsPlain d) (prec : Option ContractPrecision) (sched : HostSchedule)
    (l : FVec Ideal (⟨2, ![R, K]⟩ : Shape) .f32) (r : FVec Ideal (⟨2, ![K, N]⟩ : Shape) .f32) (p : Fin R) (q : Fin N) :
    FloatOps.dotGeneral d prec sched l r (ix2 p q) = ∑ k : Fin K, l (ix2 p k) * r (ix2 k q) :=
  (Ideal.dotGeneral_apply d prec sched l r (ix2 p q)).trans (sum_contr h l r p q)

end Idealize.ShloMosaic.PlainDot
-- ==== Proof.LibRowSpread.lean ====
/-
  A vector spread over the rows of a matrix, read at an entry (general in the sizes and the element type).

  A vector `[n]` recast as the one-row matrix `[1, n]` keeps its entries (`asRow_apply`), and the one-row matrix
  broadcast to `[m, n]` has that row in every row (`spreadRows_apply`); together, the entry `(p, q)` of the
  spread vector is the vector's entry `q` (`spread_asRow_apply`). This is what adding a per-column bias to every row
  of a matrix prints in a kernel.
-/
import Idealize.ShloMosaic.Lib.ValueIdx
import Idealize.ShloMosaic.Lib.Pipeline.Value

namespace Cert.Lib.RowSpread

open Idealize.ShloMosaic Idealize.ShloMosaic.ValueIdx

variable {m n : ℕ} {α : Type}

/-- The vector as a one-row matrix: the entry `(0, q)` is the vector's entry `q`. -/
theorem asRow_apply (v : (⟨1, ![n]⟩ : Shape).Idx → α) (h : (⟨1, ![n]⟩ : Shape).ShapeCasts (⟨2, ![1, n]⟩ : Shape))
    (z : Fin 1) (q : Fin n) : shapeCast (⟨2, ![1, n]⟩ : Shape) v h (ix2 z q) = v (ix1 q) := by
  refine shapeCast_apply v h _ _ ?_
  rw [Shape.rowMajor_val_one, Shape.rowMajor_val_two]
  obtain rfl : z = 0 := Subsingleton.elim _ _
  show q.val = 0 * n + q.val
  rw [Nat.zero_mul, Nat.zero_add]

/-- The one-row matrix broadcast down `m` rows: the entry `(p, q)` is the row's entry `q`. -/
theorem spreadRows_apply (x : (⟨2, ![1, n]⟩ : Shape).Idx → α) (h : (⟨2, ![1, n]⟩ : Shape).Broadcasts (⟨2, ![m, n]⟩ : Shape))
    (p : Fin m) (q : Fin n) : broadcastTo (⟨2, ![m, n]⟩ : Shape) x h (ix2 p q) = x (ix2 (0 : Fin 1) q) := by
  refine broadcastTo_apply x h _ _ fun a => ?_
  match a with
  | ⟨0, _⟩ => exact (if_pos rfl).symm
  | ⟨1, _⟩ =>
    show q.val = if n = 1 then 0 else q.val
    by_cases hn : n = 1
    · rw [if_pos hn]; have := q.isLt; omega
    · rw [if_neg hn]

/-- The vector spread over the rows: the entry `(p, q)` is the vector's entry `q`. -/
theorem spread_asRow_apply (v : (⟨1, ![n]⟩ : Shape).Idx → α) (h : (⟨1, ![n]⟩ : Shape).ShapeCasts (⟨2, ![1, n]⟩ : Shape))
    (hb : (⟨2, ![1, n]⟩ : Shape).Broadcasts (⟨2, ![m, n]⟩ : Shape)) (p : Fin m) (q : Fin n) :
    broadcastTo (⟨2, ![m, n]⟩ : Shape) (shapeCast (⟨2, ![1, n]⟩ : Shape) v h) hb (ix2 p q) = v (ix1 q) :=
  (spreadRows_apply _ hb p q).trans (asRow_apply v h 0 q)

end Cert.Lib.RowSpread
-- ==== Proof.KvLinear.lean ====
/-
  The projection call's result array: after the call, the array the call writes holds, entry by entry, the rows of
  the array it read times the weight matrix plus the bias row (at the extended reals).
-/
import proofs.«116224_j58600533786747_1_alg».proof.Proof.KiLinear
import proofs.«116224_j58600533786747_1_alg».proof.Proof.Spec
import proofs.«116224_j58600533786747_1_alg».proof.Proof.LibPlainDot
import proofs.«116224_j58600533786747_1_alg».proof.Proof.LibRowSpread
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Frame

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## One entry of what the body stores -/

/-- The product's dimension numbers are the plain ones of rows times columns: the left operand contracts its
    columns, the right one its rows, no batch axis. -/
theorem linDims_plain :
    PlainDot.IsPlain (R := 4096) (K := 128) (N := 128) dot_S4096x128_S128x128_S4096x128_1_0_0_1_n_n :=
  ⟨rfl, rfl, rfl, rfl, rfl, rfl⟩

/-- Entry (p, q) of the product into the zero accumulator: row p of the left operand against column q of the
    right one, whatever formats the operands carry (every format is the extended reals here). -/
theorem linDot_entry {φ₁ φ₂ : FTy} (l : FVec Ideal S4096x128 φ₁) (r : FVec Ideal S128x128 φ₂) (p : Fin 4096) (q : Fin 128) :
    matmul dot_S4096x128_S128x128_S4096x128_1_0_0_1_n_n none l r (constant S4096x128 .f32 0x00000000#32) (ix2 p q)
      = ∑ k : Fin 128, l (ix2 p k) * r (ix2 k q) :=
  (Ideal.matmul_constant_zero_apply dot_S4096x128_S128x128_S4096x128_1_0_0_1_n_n none l r (ix2 p q)).trans
    (PlainDot.sum_contr linDims_plain l r p q)

/-- Entry (p, q) of the stored tile: row p of the activations' block against column q of the weights, plus the
    bias at q. Narrowing to the short format changes nothing at the extended reals, the accumulator starts at zero,
    and the bias row is the same in every row of the tile. -/
theorem linPay_entry (x : Vec Ideal S4096x128 .f32) (w : Vec Ideal S128x128 .f32) (b : Vec Ideal S128 .f32)
    (p : Fin 4096) (q : Fin 128) :
    k0_pay1 (F := Ideal) x w b (ix2 p q) = (∑ k : Fin 128, x (ix2 p k) * w (ix2 k q)) + b (ix1 q) := by
  unfold k0_pay1
  rw [shapeCast_self, shapeCast_self, addf_apply, linDot_entry, Cert.Lib.RowSpread.spread_asRow_apply]
  rfl

variable (V : (c : Dev nD) → (b : Ref sig .tc) → Buf (Elt Ideal) ((c : Thread nD τ).loc b))

/-! ## Where the blocks sit in their arrays -/

theorem origin2 : (![0, 0] : Fin 2 → Nat) = fun _ => 0 :=
  funext fun a => match a with | ⟨0, _⟩ => rfl | ⟨1, _⟩ => rfl

theorem origin1 : (![0] : Fin 1 → Nat) = fun _ => 0 :=
  funext fun a => match a with | ⟨0, _⟩ => rfl

/-- The block indices at grid point t, decided over the eight points: the activations' window and the result's
    window go down the rows together, block t at point t; the weights' and the bias row's stay at the origin. -/
theorem linIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Entry y of the activations' block at point t is the array's entry in row 4096 t + y₀, column y₁. -/
theorem linBlk0_entry (c : Dev nD) (t : Fin cfg0.N) (y : S4096x128.Idx) (i : S32768x128.Idx)
    (h0 : (i 0).val = t.val * 4096 + (y 0).val) (h1 : (i 1).val = (y 1).val) :
    linBlk V c 0 t y = V c main_v1 i := by
  obtain ⟨e0, e1, -⟩ := linIndex t
  show V c main_v1 (((cfg0.win 0).blk t).view.emb y) = V c main_v1 i
  refine congrArg (V c main_v1) (funext fun a => Fin.ext ?_)
  match a with
  | ⟨0, _⟩ => show win0_0.index t (0 : Fin 2) * 4096 + 1 * (y 0).val = (i 0).val; omega
  | ⟨1, _⟩ => show win0_0.index t (1 : Fin 2) * 128 + 1 * (y 1).val = (i 1).val; omega

/-- The weights' block is the whole matrix at every point. -/
theorem linBlk1_whole (c : Dev nD) (t : Fin cfg0.N) : linBlk V c 1 t = V c main_v0 := by
  obtain ⟨-, -, e0, e1, -⟩ := linIndex t
  funext y
  show V c main_v0 (((cfg0.win 1).blk t).view.emb y) = V c main_v0 y
  refine congrArg (V c main_v0) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The bias row's block is the whole row at every point. -/
theorem linBlk2_whole (c : Dev nD) (t : Fin cfg0.N) : linBlk V c 2 t = V c main_arg7 := by
  obtain ⟨-, -, -, -, e0, -⟩ := linIndex t
  funext y
  show V c main_arg7 (((cfg0.win 2).blk t).view.emb y) = V c main_arg7 y
  refine congrArg (V c main_arg7) (funext fun a => Fin.ext ?_)
  match a with
  | ⟨0, _⟩ => show win0_2.index t (0 : Fin 1) * 128 + 1 * (y 0).val = (y 0).val; omega

/-! ## What one grid point writes back -/

/-- Entry y of the stored tile, when the activations' block holds at its row y₀ the array's row i₀ and i₁ = y₁:
    the specification's entry i. -/
theorem linTile_entry (X : Vec Ideal S32768x128 .f32) (W : Vec Ideal S128x128 .f32) (B : Vec Ideal S128 .f32)
    (x : Vec Ideal S4096x128 .f32) (y : S4096x128.Idx) (i : S32768x128.Idx)
    (hx : ∀ k : Fin 128, x (ix2 (y 0) k) = X (ix2 (i 0) k)) (hq : (i 1).val = (y 1).val) :
    k0_pay1 (F := Ideal) x W B y = Spec.linSpec X W B i := by
  obtain ⟨p, q, rfl⟩ : ∃ (p : Fin 4096) (q : Fin 128), y = ix2 p q := ⟨y 0, y 1, eq_ix2 y⟩
  obtain ⟨r, s, rfl⟩ : ∃ (r : Fin 32768) (s : Fin 128), i = ix2 r s := ⟨i 0, i 1, eq_ix2 i⟩
  obtain rfl : s = q := Fin.ext hq
  have hrow : ∀ k : Fin 128, x (ix2 p k) = X (ix2 r k) := hx
  rw [linPay_entry]
  show _ = (∑ k : Fin 128, X (ix2 r k) * W (ix2 k s)) + B (ix1 s)
  simp only [hrow]

/-- Grid point t writes back block t of the specification of the three arrays as the call found them. -/
theorem linFlushed (c : Dev nD) (t : Fin cfg0.N) :
    (linDat (F := Ideal) V c).flushed 3 t
      = ((cfg0.win 3).blk t).view.read (Elt Ideal) (Spec.linSpec (V c main_v1) (V c main_v0) (V c main_arg7)) := by
  show (cfg0.win 3).cut (grid0.coords t) ((linDat V c).after 3 t) = _
  rw [linAfter3]
  unfold linOut
  rw [View.canon_unit_zero origin2, View.ld_unit_zero (S := S4096x128) origin2,
    View.ld_unit_zero (S := S128x128) origin2, View.ld_unit_zero (S := S128) origin1,
    linBlk1_whole, linBlk2_whole]
  obtain ⟨-, -, -, -, -, e0, e1⟩ := linIndex t
  refine funext fun (y : S4096x128.Idx) => ?_
  show k0_pay1 (F := Ideal) (linBlk V c 0 t) (V c main_v0) (V c main_arg7) y
    = Spec.linSpec (V c main_v1) (V c main_v0) (V c main_arg7) (((cfg0.win 3).blk t).view.emb y)
  have r0 : ((((cfg0.win 3).blk t).view.emb y : S32768x128.Idx) 0).val = t.val * 4096 + (y 0).val := by
    show win0_3.index t (0 : Fin 2) * 4096 + 1 * (y 0).val = _
    omega
  have r1 : ((((cfg0.win 3).blk t).view.emb y : S32768x128.Idx) 1).val = (y 1).val := by
    show win0_3.index t (1 : Fin 2) * 128 + 1 * (y 1).val = _
    omega
  exact linTile_entry _ _ _ _ y _ (fun k => linBlk0_entry V c t _ _ r0 rfl) r1

/-! ## The eight blocks fill the array -/

/-- An index of the result array lies in point t's block when each coordinate is in the block's range on its axis. -/
theorem linBlk3_mem (t : Fin cfg0.N) (i : S32768x128.Idx) :
    i ∈ ((cfg0.win 3).blk t).view.set ↔ ∀ a : Fin 2, win0_3.index t a * S4096x128.size a ≤ (i a).val
      ∧ (i a).val < win0_3.index t a * S4096x128.size a + S4096x128.size a := by
  show i ∈ ((View.whole main_v2).slice (win0_3.rect t)).set ↔ _
  rw [View.set_slice_whole, Rect.mem_set_unit]
  exact Iff.rfl

/-- Row r of the result array is written back by grid point r / 4096. -/
theorem linCovered (i : S32768x128.Idx) :
    ∃ t : Fin cfg0.N, (cfg0.win 3).flush t = true ∧ i ∈ ((cfg0.win 3).blk t).view.set := by
  have hN : cfg0.N = 8 := N_0
  have hi0 : (i 0).val < 32768 := idx2_lt0 i
  have hi1 : (i 1).val < 128 := idx2_lt1 i
  have ht : (i 0).val / 4096 < cfg0.N := by rw [hN]; omega
  obtain ⟨-, -, -, -, -, e0, e1⟩ := linIndex ⟨(i 0).val / 4096, ht⟩
  refine ⟨⟨(i 0).val / 4096, ht⟩, flush0_3 _, ?_⟩
  rw [linBlk3_mem]
  intro a
  match a with
  | ⟨0, _⟩ =>
    show win0_3.index ⟨(i 0).val / 4096, ht⟩ (0 : Fin 2) * 4096 ≤ (i 0).val
      ∧ (i 0).val < win0_3.index ⟨(i 0).val / 4096, ht⟩ (0 : Fin 2) * 4096 + 4096
    rw [e0]; show (i 0).val / 4096 * 4096 ≤ (i 0).val ∧ (i 0).val < (i 0).val / 4096 * 4096 + 4096
    omega
  | ⟨1, _⟩ =>
    show win0_3.index ⟨(i 0).val / 4096, ht⟩ (1 : Fin 2) * 128 ≤ (i 1).val
      ∧ (i 1).val < win0_3.index ⟨(i 0).val / 4096, ht⟩ (1 : Fin 2) * 128 + 128
    rw [e1]; omega

/-- The array the projection call leaves is `linSpec` of the three arrays it was entered with. -/
theorem linArr (c : Dev nD) :
    (linDat (F := Ideal) V c).arrAt 3 cfg0.N = Spec.linSpec (V c main_v1) (V c main_v0) (V c main_arg7) :=
  (linDat (F := Ideal) V c).arrAt_eq_of_cover 3 (Spec.linSpec (V c main_v1) (V c main_v0) (V c main_arg7))
    (fun t _ => linFlushed V c t) linCovered

end Cert.KernelIdeal.Frame

end
-- ==== Proof.KvFused.lean ====
/-
  The fused call's result array: after the call, the array the call writes holds, entry by entry, the two-layer map
  of the rows of the two arrays it read (at the extended reals).
-/
import proofs.«116224_j58600533786747_1_alg».proof.Proof.KiFused
import proofs.«116224_j58600533786747_1_alg».proof.Proof.Spec
import proofs.«116224_j58600533786747_1_alg».proof.Proof.LibPlainDot
import proofs.«116224_j58600533786747_1_alg».proof.Proof.LibRowSpread
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Frame

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The body's value at an entry -/

/-- The kernel's three products all use the plain dimension numbers of rows times a square matrix. -/
theorem fusDotPlain : PlainDot.IsPlain (R := 4096) (K := 128) (N := 128) dot_S4096x128_S128x128_S4096x128_1_0_0_1_n_n :=
  ⟨rfl, rfl, rfl, rfl, rfl, rfl⟩

/-- One product of the body into the zero accumulator, whatever formats its operands are held in: entry (p, q) is the
    sum over the shared index of the row's entries times the column's. -/
theorem fusDotAt {φ₁ φ₂ : FTy} (l : FVec Ideal S4096x128 φ₁) (r : FVec Ideal S128x128 φ₂) (p : Fin 4096) (q : Fin 128) :
    matmul dot_S4096x128_S128x128_S4096x128_1_0_0_1_n_n none l r (constant S4096x128 .f32 0x00000000#32) (ix2 p q)
      = ∑ k : Fin 128, l (ix2 p k) * r (ix2 k q) :=
  (Ideal.matmul_constant_zero_apply dot_S4096x128_S128x128_S4096x128_1_0_0_1_n_n none l r (ix2 p q)).trans
    (PlainDot.sum_contr fusDotPlain l r p q)

/-- The inner layer at (p, d): the two products of the rows of f and g with w1 and w2, added, plus the bias b1 at d. -/
theorem fusInnerAt {φ₁ φ₂ φ₃ φ₄ : FTy} (f : FVec Ideal S4096x128 φ₁) (w1 : FVec Ideal S128x128 φ₂)
    (g : FVec Ideal S4096x128 φ₃) (w2 : FVec Ideal S128x128 φ₄) (b1 : Vec Ideal S128 .f32) (p : Fin 4096) (d : Fin 128) :
    addf (addf (matmul dot_S4096x128_S128x128_S4096x128_1_0_0_1_n_n none f w1 (constant S4096x128 .f32 0x00000000#32))
          (matmul dot_S4096x128_S128x128_S4096x128_1_0_0_1_n_n none g w2 (constant S4096x128 .f32 0x00000000#32)))
        (broadcastTo S4096x128 (shapeCast S1x128 b1 shapeCasts_S128_S1x128) broadcasts_S1x128_S4096x128) (ix2 p d)
      = ((∑ k : Fin 128, f (ix2 p k) * w1 (ix2 k d)) + (∑ k : Fin 128, g (ix2 p k) * w2 (ix2 k d))) + b1 (ix1 d) := by
  rw [addf_apply, addf_apply,
    Cert.Lib.RowSpread.spread_asRow_apply (m := 4096) (n := 128) b1 shapeCasts_S128_S1x128 broadcasts_S1x128_S4096x128 p d,
    fusDotAt f w1 p d, fusDotAt g w2 p d]

/-- The body's stored value at (p, q): the inner layer's row p times column q of w3, plus the bias b2 at q. The changes
    of format before each product keep every entry, the values being extended reals. -/
theorem fusPayAt (f g : Vec Ideal S4096x128 .f32) (w1 w2 : Vec Ideal S128x128 .f32) (b1 : Vec Ideal S128 .f32)
    (w3 : Vec Ideal S128x128 .f32) (b2 : Vec Ideal S128 .f32) (p : Fin 4096) (q : Fin 128) :
    k1_pay1 (F := Ideal) f g w1 w2 b1 w3 b2 (ix2 p q)
      = (∑ d : Fin 128,
          (((∑ k : Fin 128, f (ix2 p k) * w1 (ix2 k d)) + (∑ k : Fin 128, g (ix2 p k) * w2 (ix2 k d))) + b1 (ix1 d)) * w3 (ix2 d q))
        + b2 (ix1 q) := by
  unfold k1_pay1
  simp only [shapeCast_self]
  rw [addf_apply,
    Cert.Lib.RowSpread.spread_asRow_apply (m := 4096) (n := 128) b2 shapeCasts_S128_S1x128 broadcasts_S1x128_S4096x128 p q,
    fusDotAt]
  refine congrArg (· + b2 (ix1 q)) (Finset.sum_congr rfl fun d _ => ?_)
  rw [truncf_apply, truncf_apply, fusInnerAt]
  rfl

/-! ## One grid point's block of the result -/

/-- A tile of the body's result is the same tile of `fusSpec`: when the row of the tiles f and g that y lies in is the
    row of the arrays F0 and G0 that i lies in, y and i are in the same column, and the five small operands are the
    arrays whole, the body's value at y is `fusSpec` at i. -/
theorem fusTileAt (F0 G0 : Vec Ideal S294912x128 .f32) (w1 w2 : Vec Ideal S128x128 .f32) (b1 : Vec Ideal S128 .f32)
    (w3 : Vec Ideal S128x128 .f32) (b2 : Vec Ideal S128 .f32)
    (f g : Vec Ideal S4096x128 .f32) (W1 W2 : Vec Ideal S128x128 .f32) (B1 : Vec Ideal S128 .f32)
    (W3 : Vec Ideal S128x128 .f32) (B2 : Vec Ideal S128 .f32)
    (y : S4096x128.Idx) (i : S294912x128.Idx)
    (hf : ∀ k : Fin 128, f (ix2 (y 0) k) = F0 (ix2 (i 0) k)) (hg : ∀ k : Fin 128, g (ix2 (y 0) k) = G0 (ix2 (i 0) k))
    (hq : (i 1).val = (y 1).val)
    (h1 : W1 = w1) (h2 : W2 = w2) (h3 : B1 = b1) (h4 : W3 = w3) (h5 : B2 = b2) :
    k1_pay1 (F := Ideal) f g W1 W2 B1 W3 B2 y = Spec.fusSpec F0 G0 w1 w2 b1 w3 b2 i := by
  subst h1 h2 h3 h4 h5
  obtain ⟨p, q, rfl⟩ : ∃ (p : Fin 4096) (q : Fin 128), y = ix2 p q := ⟨y 0, y 1, eq_ix2 y⟩
  obtain ⟨r, s, rfl⟩ : ∃ (r : Fin 294912) (s : Fin 128), i = ix2 r s := ⟨i 0, i 1, eq_ix2 i⟩
  obtain rfl : s = q := Fin.ext hq
  have hf' : ∀ k : Fin 128, f (ix2 p k) = F0 (ix2 r k) := hf
  have hg' : ∀ k : Fin 128, g (ix2 p k) = G0 (ix2 r k) := hg
  rw [fusPayAt]
  show _ = (∑ d : Fin 128,
      (((∑ k : Fin 128, F0 (ix2 r k) * W1 (ix2 k d)) + (∑ k : Fin 128, G0 (ix2 r k) * W2 (ix2 k d))) + B1 (ix1 d)) * W3 (ix2 d s))
    + B2 (ix1 s)
  simp only [hf', hg']

/-- The zero offsets of a whole rank-2 tile, as the constant function. -/
theorem fusZero2 : (![0, 0] : Fin 2 → Nat) = fun _ => 0 := funext fun a => by fin_cases a <;> rfl
/-- The zero offset of a whole row, as the constant function. -/
theorem fusZero1 : (![0] : Fin 1 → Nat) = fun _ => 0 := funext fun a => by fin_cases a <;> rfl

/-- The index maps over the 72 points: the two row operands and the result are at block (t, 0); the five small operands
    at block 0 on every axis. -/
theorem fusIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- Row p of the first row operand's block at point t is row 4096 t + p of its array. -/
theorem fusRows0 (c : Dev nD) (t : Fin cfg1.N) (x : S4096x128.Idx) (i : S294912x128.Idx)
    (h0 : (i 0).val = t.val * 4096 + (x 0).val) (h1 : (i 1).val = (x 1).val) :
    (fusBlk V c 0 t : Vec Ideal S4096x128 .f32) x = (V c main_v35 : S294912x128.Idx → Elt Ideal .f32) i := by
  obtain ⟨e0, e1, -⟩ := fusIndex t
  unfold fusBlk
  rw [View.read_apply]
  show V c main_v35 _ = V c main_v35 _
  congr 1
  funext a
  apply Fin.ext
  match a with
  | ⟨0, _⟩ => show win1_0.index t (0 : Fin 2) * 4096 + 1 * (x 0).val = (i 0).val; omega
  | ⟨1, _⟩ => show win1_0.index t (1 : Fin 2) * 128 + 1 * (x 1).val = (i 1).val; omega

/-- The second row operand's likewise. -/
theorem fusRows1 (c : Dev nD) (t : Fin cfg1.N) (x : S4096x128.Idx) (i : S294912x128.Idx)
    (h0 : (i 0).val = t.val * 4096 + (x 0).val) (h1 : (i 1).val = (x 1).val) :
    (fusBlk V c 1 t : Vec Ideal S4096x128 .f32) x = (V c main_v36 : S294912x128.Idx → Elt Ideal .f32) i := by
  obtain ⟨-, -, e0, e1, -⟩ := fusIndex t
  unfold fusBlk
  rw [View.read_apply]
  show V c main_v36 _ = V c main_v36 _
  congr 1
  funext a
  apply Fin.ext
  match a with
  | ⟨0, _⟩ => show win1_1.index t (0 : Fin 2) * 4096 + 1 * (x 0).val = (i 0).val; omega
  | ⟨1, _⟩ => show win1_1.index t (1 : Fin 2) * 128 + 1 * (x 1).val = (i 1).val; omega

/-- The first weight matrix's block at every point is the matrix whole. -/
theorem fusWhole2 (c : Dev nD) (t : Fin cfg1.N) : (fusBlk V c 2 t : Vec Ideal S128x128 .f32) = V c main_v31 := by
  obtain ⟨-, -, -, -, e0, e1, -⟩ := fusIndex t
  funext x
  unfold fusBlk
  rw [View.read_apply]
  show V c main_v31 _ = V c main_v31 x
  congr 1
  funext a
  apply Fin.ext
  match a with
  | ⟨0, _⟩ => show win1_2.index t (0 : Fin 2) * 128 + 1 * (x 0).val = (x 0).val; omega
  | ⟨1, _⟩ => show win1_2.index t (1 : Fin 2) * 128 + 1 * (x 1).val = (x 1).val; omega

/-- The second weight matrix's likewise. -/
theorem fusWhole3 (c : Dev nD) (t : Fin cfg1.N) : (fusBlk V c 3 t : Vec Ideal S128x128 .f32) = V c main_v33 := by
  obtain ⟨-, -, -, -, -, -, e0, e1, -⟩ := fusIndex t
  funext x
  unfold fusBlk
  rw [View.read_apply]
  show V c main_v33 _ = V c main_v33 x
  congr 1
  funext a
  apply Fin.ext
  match a with
  | ⟨0, _⟩ => show win1_3.index t (0 : Fin 2) * 128 + 1 * (x 0).val = (x 0).val; omega
  | ⟨1, _⟩ => show win1_3.index t (1 : Fin 2) * 128 + 1 * (x 1).val = (x 1).val; omega

/-- The inner bias row's block at every point is the row whole. -/
theorem fusWhole4 (c : Dev nD) (t : Fin cfg1.N) : (fusBlk V c 4 t : Vec Ideal S128 .f32) = V c main_arg9 := by
  obtain ⟨-, -, -, -, -, -, -, -, e0, -⟩ := fusIndex t
  funext x
  unfold fusBlk
  rw [View.read_apply]
  show V c main_arg9 _ = V c main_arg9 x
  congr 1
  funext a
  apply Fin.ext
  match a with
  | ⟨0, _⟩ => show win1_4.index t (0 : Fin 1) * 128 + 1 * (x 0).val = (x 0).val; omega

/-- The outer weight matrix's block at every point is the matrix whole. -/
theorem fusWhole5 (c : Dev nD) (t : Fin cfg1.N) : (fusBlk V c 5 t : Vec Ideal S128x128 .f32) = V c main_v34 := by
  obtain ⟨-, -, -, -, -, -, -, -, -, e0, e1, -⟩ := fusIndex t
  funext x
  unfold fusBlk
  rw [View.read_apply]
  show V c main_v34 _ = V c main_v34 x
  congr 1
  funext a
  apply Fin.ext
  match a with
  | ⟨0, _⟩ => show win1_5.index t (0 : Fin 2) * 128 + 1 * (x 0).val = (x 0).val; omega
  | ⟨1, _⟩ => show win1_5.index t (1 : Fin 2) * 128 + 1 * (x 1).val = (x 1).val; omega

/-- The outer bias row's block at every point is the row whole. -/
theorem fusWhole6 (c : Dev nD) (t : Fin cfg1.N) : (fusBlk V c 6 t : Vec Ideal S128 .f32) = V c main_arg11 := by
  obtain ⟨-, -, -, -, -, -, -, -, -, -, -, e0, -⟩ := fusIndex t
  funext x
  unfold fusBlk
  rw [View.read_apply]
  show V c main_arg11 _ = V c main_arg11 x
  congr 1
  funext a
  apply Fin.ext
  match a with
  | ⟨0, _⟩ => show win1_6.index t (0 : Fin 1) * 128 + 1 * (x 0).val = (x 0).val; omega

/-- What point t writes back is block t of `fusSpec` of the seven arrays. -/
theorem fusFlushed (c : Dev nD) (t : Fin cfg1.N) :
    (fusDat (F := Ideal) V c).flushed 7 t = ((cfg1.win 7).blk t).view.read (Elt Ideal)
      (Spec.fusSpec (V c main_v35) (V c main_v36) (V c main_v31) (V c main_v33) (V c main_arg9) (V c main_v34) (V c main_arg11)) := by
  show (cfg1.win 7).cut (grid1.coords t) ((fusDat V c).after 7 t) = _
  rw [fusAfter7]
  unfold fusOut
  rw [View.canon_unit_zero fusZero2]
  simp only [View.ld_unit_zero (S := S4096x128) fusZero2, View.ld_unit_zero (S := S128x128) fusZero2,
    View.ld_unit_zero (S := S128) fusZero1]
  obtain ⟨-, -, -, -, -, -, -, -, -, -, -, -, e0, e1⟩ := fusIndex t
  funext j
  show k1_pay1 (F := Ideal) (fusBlk V c 0 t) (fusBlk V c 1 t) (fusBlk V c 2 t) (fusBlk V c 3 t) (fusBlk V c 4 t)
      (fusBlk V c 5 t) (fusBlk V c 6 t) ((cfg1.win 7).xinj (grid1.coords t) j)
    = Spec.fusSpec (V c main_v35) (V c main_v36) (V c main_v31) (V c main_v33) (V c main_arg9) (V c main_v34) (V c main_arg11)
      (((cfg1.win 7).blk t).view.emb j)
  have r0 : ((((cfg1.win 7).blk t).view.emb j) 0).val = t.val * 4096 + (j 0).val := by
    show win1_7.index t (0 : Fin 2) * 4096 + 1 * (j 0).val = _; omega
  have r1 : ((((cfg1.win 7).blk t).view.emb j) 1).val = (j 1).val := by
    show win1_7.index t (1 : Fin 2) * 128 + 1 * (j 1).val = _; omega
  exact fusTileAt _ _ _ _ _ _ _ _ _ _ _ _ _ _ _ _
    (fun k => fusRows0 V c t _ _ r0 rfl) (fun k => fusRows1 V c t _ _ r0 rfl) r1
    (fusWhole2 V c t) (fusWhole3 V c t) (fusWhole4 V c t) (fusWhole5 V c t) (fusWhole6 V c t)

/-! ## The array after the 72 write-backs -/

/-- An index of the result array is in point t's block iff each coordinate is in the block's range on its axis. -/
theorem fusInBlock (t : Fin cfg1.N) (i : S294912x128.Idx) :
    i ∈ ((cfg1.win 7).blk t).view.set
      ↔ ∀ a : Fin 2, win1_7.index t a * S4096x128.size a ≤ (i a).val ∧ (i a).val < win1_7.index t a * S4096x128.size a + S4096x128.size a := by
  show i ∈ ((View.whole main_v37).slice (win1_7.rect t)).set ↔ _
  rw [View.set_slice_whole, Rect.mem_set_unit]
  exact Iff.rfl

/-- Row r of the result array is written by point r / 4096. -/
theorem fusCovered (i : S294912x128.Idx) :
    ∃ t : Fin cfg1.N, (cfg1.win 7).flush t = true ∧ i ∈ ((cfg1.win 7).blk t).view.set := by
  have hi0 : (i 0).val < 294912 := idx2_lt0 i
  have hi1 : (i 1).val < 128 := idx2_lt1 i
  have hN : cfg1.N = 72 := N_1
  refine ⟨⟨(i 0).val / 4096, by rw [hN]; omega⟩, flush1_7 _, ?_⟩
  rw [fusInBlock]
  obtain ⟨-, -, -, -, -, -, -, -, -, -, -, -, e0, e1⟩ := fusIndex ⟨(i 0).val / 4096, by rw [hN]; omega⟩
  intro a
  match a with
  | ⟨0, _⟩ =>
    show win1_7.index ⟨(i 0).val / 4096, _⟩ (0 : Fin 2) * 4096 ≤ (i 0).val
      ∧ (i 0).val < win1_7.index ⟨(i 0).val / 4096, _⟩ (0 : Fin 2) * 4096 + 4096
    rw [e0]; show (i 0).val / 4096 * 4096 ≤ (i 0).val ∧ (i 0).val < (i 0).val / 4096 * 4096 + 4096; omega
  | ⟨1, _⟩ =>
    show win1_7.index ⟨(i 0).val / 4096, _⟩ (1 : Fin 2) * 128 ≤ (i 1).val
      ∧ (i 1).val < win1_7.index ⟨(i 0).val / 4096, _⟩ (1 : Fin 2) * 128 + 128
    rw [e1]; omega

/-- The array the fused call leaves is `fusSpec` of the seven arrays it was entered with. -/
theorem fusArr (c : Dev nD) :
    (fusDat (F := Ideal) V c).arrAt 7 cfg1.N
      = Spec.fusSpec (V c main_v35) (V c main_v36) (V c main_v31) (V c main_v33) (V c main_arg9) (V c main_v34) (V c main_arg11) :=
  (fusDat (F := Ideal) V c).arrAt_eq_of_cover 7 _ (fun t _ => fusFlushed V c t) fusCovered

end Cert.KernelIdeal.Frame

end
-- ==== Proof.HostChains.lean ====
/-
  The host operations both programs share, as functions of the values they start from.
  projOf: the reference's first stage, the contraction of the activations' last axis with the weights plus the bias.
  updOf: from the projected activations xp, the node table n and the pad value: the mean over the trial axis, the
    385 x 385 grid filled with the pad value, the mean rows written at the (wrapped) node pairs of batch row 0, and
    the grid without its first row and column.
  featsOf: from the features a1 and the update u: the concatenation along the last axis, the first layer (weights
    a8, bias a9) and the second layer (weights a10, bias a11).
  tailOf: from the projected activations x3, the new features f38, the node table n and the lane indices: the rows
    of f38 gathered at (node pair shifted down by one and clipped at zero, lane), spread over the trial axis and
    added to x3. laneIdx is the reference's lane-index array (the wrapped iota spread over the 4096 rows).
-/
import proofs.«116224_j58600533786747_1_alg».proof.Proof.RefRunOps

noncomputable section

namespace Cert.ReferenceIdeal.Chains

open Cert.ReferenceIdeal Cert.ReferenceIdeal.Gen Idealize.ShloMosaic Idealize.ShloMosaic.TcCoe Idealize.SL.Sem Idealize.ShloMosaic.StableHlo

variable {F : FTy → Type} [FloatOps F]

/-- The projection on the host: the contraction with the weights, plus the bias spread along the last axis. -/
def projOf (x : (⟨S4x4096x2x128, .f32⟩ : BufTy).Contents (Elt F)) (w : (⟨S128x128, .f32⟩ : BufTy).Contents (Elt F)) (b : (⟨S128, .f32⟩ : BufTy).Contents (Elt F)) : (⟨S4x4096x2x128, .f32⟩ : BufTy).Contents (Elt F) :=
  addf (Host.dotGeneral dot_S4x4096x2x128_S128x128_S4x4096x2x128_3_1_012_0_n_n none x w) (broadcastInDim S4x4096x2x128 ![0, 1, 2, 3] bcast_S1x1x1x128_S4x4096x2x128_0_1_2_3 (broadcastInDim S1x1x1x128 ![3] bcast_S128_S1x1x1x128_3 b))

set_option maxRecDepth 8192 in
/-- The update scattered into the padded grid, cut back to 384 x 384. -/
def updOf (xp : (⟨S4x4096x2x128, .f32⟩ : BufTy).Contents (Elt F)) (n : (⟨S2x4096x2, .i32⟩ : BufTy).Contents (Elt F)) (pad : (⟨S1, .f32⟩ : BufTy).Contents (Elt F)) : (⟨S384x384x2x128, .f32⟩ : BufTy).Contents (Elt F) :=
  (extractStridedSlice S384x384x2x128 ![1, 1, 0, 0] (Host.scatter scatter_S385x385x2x128_S4096x2_S4096x2x128_12_01_01_1 (fun _ b => b) (mulf (broadcastInDim S385x385x2x128 ![] bcast_S_S385x385x2x128 (constant S_ .f32 0x3F800000#32)) (broadcastInDim S385x385x2x128 ![0, 1, 2, 3] bcast_S1x1x1x1_S385x385x2x128_0_1_2_3 (broadcastInDim S1x1x1x1 ![3] bcast_S1_S1x1x1x1_3 pad))) (concatenate S4096x2 1 [⟨S4096x1, (broadcastInDim S4096x1 ![0] bcast_S4096_S4096x1_0 (select (cmpi .slt (shapeCast _ (extractStridedSlice S1x4096x1 ![0, 0, 0] n slices_S2x4096x2_S1x4096x1_0_0_0) shapeCasts_S1x4096x1_S4096) (broadcastInDim S4096 ![] bcast_S_S4096 (constantI S_ 32 0#32))) (addi (shapeCast _ (extractStridedSlice S1x4096x1 ![0, 0, 0] n slices_S2x4096x2_S1x4096x1_0_0_0) shapeCasts_S1x4096x1_S4096) (broadcastInDim S4096 ![] bcast_S_S4096 (constantI S_ 32 385#32))) (shapeCast _ (extractStridedSlice S1x4096x1 ![0, 0, 0] n slices_S2x4096x2_S1x4096x1_0_0_0) shapeCasts_S1x4096x1_S4096)))⟩, ⟨S4096x1, (broadcastInDim S4096x1 ![0] bcast_S4096_S4096x1_0 (select (cmpi .slt (shapeCast _ (extractStridedSlice S1x4096x1 ![0, 0, 1] n slices_S2x4096x2_S1x4096x1_0_0_1) shapeCasts_S1x4096x1_S4096) (broadcastInDim S4096 ![] bcast_S_S4096 (constantI S_ 32 0#32))) (addi (shapeCast _ (extractStridedSlice S1x4096x1 ![0, 0, 1] n slices_S2x4096x2_S1x4096x1_0_0_1) shapeCasts_S1x4096x1_S4096) (broadcastInDim S4096 ![] bcast_S_S4096 (constantI S_ 32 385#32))) (shapeCast _ (extractStridedSlice S1x4096x1 ![0, 0, 1] n slices_S2x4096x2_S1x4096x1_0_0_1) shapeCasts_S1x4096x1_S4096)))⟩] concatenates_S4096x1_S4096x1_S4096x2_d1) (Host.divf (Host.reduceAdd xp (constant S_ .f32 0x00000000#32) reducesTo_S4x4096x2x128_S4096x2x128_d0 h_S_) (broadcastInDim S4096x2x128 ![] bcast_S_S4096x2x128 (constant S_ .f32 0x40800000#32)))) slices_S385x385x2x128_S384x384x2x128_1_1_0_0)

/-- The two layers over the concatenated features. -/
def featsOf (a1 u : (⟨S384x384x2x128, .f32⟩ : BufTy).Contents (Elt F)) (a8 : (⟨S128x256, .f32⟩ : BufTy).Contents (Elt F)) (a9 : (⟨S128, .f32⟩ : BufTy).Contents (Elt F)) (a10 : (⟨S128x128, .f32⟩ : BufTy).Contents (Elt F)) (a11 : (⟨S128, .f32⟩ : BufTy).Contents (Elt F)) :
    (⟨S384x384x2x128, .f32⟩ : BufTy).Contents (Elt F) :=
  addf (Host.dotGeneral dot_S384x384x2x128_S128x128_S384x384x2x128_3_1_012_0_n_n none (addf (Host.dotGeneral dot_S384x384x2x256_S128x256_S384x384x2x128_3_1_012_0_n_n none (concatenate S384x384x2x256 3 [⟨S384x384x2x128, a1⟩, ⟨S384x384x2x128, u⟩] concatenates_S384x384x2x128_S384x384x2x128_S384x384x2x256_d3) a8) (broadcastInDim S384x384x2x128 ![0, 1, 2, 3] bcast_S1x1x1x128_S384x384x2x128_0_1_2_3 (broadcastInDim S1x1x1x128 ![3] bcast_S128_S1x1x1x128_3 a9))) a10) (broadcastInDim S384x384x2x128 ![0, 1, 2, 3] bcast_S1x1x1x128_S384x384x2x128_0_1_2_3 (broadcastInDim S1x1x1x128 ![3] bcast_S128_S1x1x1x128_3 a11))

/-- The reference's lane indices: the wrapped iota over the two lanes, spread over the 4096 rows. -/
def laneIdx : (⟨S4096x2, .i32⟩ : BufTy).Contents (Elt F) :=
  (broadcastInDim S4096x2 ![0, 1] bcast_S1x2_S4096x2_0_1 (select (cmpi .slt (broadcastInDim S1x2 ![1] bcast_S2_S1x2_1 (iotaInDim S2 32 0)) (broadcastInDim S1x2 ![] bcast_S_S1x2 (constantI S_ 32 0#32))) (addi (broadcastInDim S1x2 ![1] bcast_S2_S1x2_1 (iotaInDim S2 32 0)) (broadcastInDim S1x2 ![] bcast_S_S1x2 (constantI S_ 32 2#32))) (broadcastInDim S1x2 ![1] bcast_S2_S1x2_1 (iotaInDim S2 32 0))))

set_option maxRecDepth 8192 in
/-- The gathered rows added to the projected activations. -/
def tailOf (x3 : (⟨S4x4096x2x128, .f32⟩ : BufTy).Contents (Elt F)) (f38 : (⟨S384x384x2x128, .f32⟩ : BufTy).Contents (Elt F)) (n : (⟨S2x4096x2, .i32⟩ : BufTy).Contents (Elt F)) (lanes : (⟨S4096x2, .i32⟩ : BufTy).Contents (Elt F)) :
    (⟨S4x4096x2x128, .f32⟩ : BufTy).Contents (Elt F) :=
  addf x3 (broadcastInDim S4x4096x2x128 ![0, 1, 2, 3] bcast_S1x4096x2x128_S4x4096x2x128_0_1_2_3 (broadcastInDim S1x4096x2x128 ![1, 2, 3] bcast_S4096x2x128_S1x4096x2x128_1_2_3 (Host.gather gather_S384x384x2x128_S4096x2x3_S4096x2x128_2_012_n_n_012_2_111128 f38 (concatenate S4096x2x3 2 [⟨S4096x2x1, (broadcastInDim S4096x2x1 ![0, 1] bcast_S4096x2_S4096x2x1_0_1 (select (cmpi .slt (transpose S4096x2 [1, 0] (shapeCast _ (extractStridedSlice S2x4096x1 ![0, 0, 0] (maxsi (subi n (broadcastInDim S2x4096x2 ![] bcast_S_S2x4096x2 (constantI S_ 32 1#32))) (broadcastInDim S2x4096x2 ![] bcast_S_S2x4096x2 (constantI S_ 32 0#32))) slices_S2x4096x2_S2x4096x1_0_0_0) shapeCasts_S2x4096x1_S2x4096) transposes_S2x4096_S4096x2_1_0) (broadcastInDim S4096x2 ![] bcast_S_S4096x2 (constantI S_ 32 0#32))) (addi (transpose S4096x2 [1, 0] (shapeCast _ (extractStridedSlice S2x4096x1 ![0, 0, 0] (maxsi (subi n (broadcastInDim S2x4096x2 ![] bcast_S_S2x4096x2 (constantI S_ 32 1#32))) (broadcastInDim S2x4096x2 ![] bcast_S_S2x4096x2 (constantI S_ 32 0#32))) slices_S2x4096x2_S2x4096x1_0_0_0) shapeCasts_S2x4096x1_S2x4096) transposes_S2x4096_S4096x2_1_0) (broadcastInDim S4096x2 ![] bcast_S_S4096x2 (constantI S_ 32 384#32))) (transpose S4096x2 [1, 0] (shapeCast _ (extractStridedSlice S2x4096x1 ![0, 0, 0] (maxsi (subi n (broadcastInDim S2x4096x2 ![] bcast_S_S2x4096x2 (constantI S_ 32 1#32))) (broadcastInDim S2x4096x2 ![] bcast_S_S2x4096x2 (constantI S_ 32 0#32))) slices_S2x4096x2_S2x4096x1_0_0_0) shapeCasts_S2x4096x1_S2x4096) transposes_S2x4096_S4096x2_1_0)))⟩, ⟨S4096x2x1, (broadcastInDim S4096x2x1 ![0, 1] bcast_S4096x2_S4096x2x1_0_1 (select (cmpi .slt (transpose S4096x2 [1, 0] (shapeCast _ (extractStridedSlice S2x4096x1 ![0, 0, 1] (maxsi (subi n (broadcastInDim S2x4096x2 ![] bcast_S_S2x4096x2 (constantI S_ 32 1#32))) (broadcastInDim S2x4096x2 ![] bcast_S_S2x4096x2 (constantI S_ 32 0#32))) slices_S2x4096x2_S2x4096x1_0_0_1) shapeCasts_S2x4096x1_S2x4096) transposes_S2x4096_S4096x2_1_0) (broadcastInDim S4096x2 ![] bcast_S_S4096x2 (constantI S_ 32 0#32))) (addi (transpose S4096x2 [1, 0] (shapeCast _ (extractStridedSlice S2x4096x1 ![0, 0, 1] (maxsi (subi n (broadcastInDim S2x4096x2 ![] bcast_S_S2x4096x2 (constantI S_ 32 1#32))) (broadcastInDim S2x4096x2 ![] bcast_S_S2x4096x2 (constantI S_ 32 0#32))) slices_S2x4096x2_S2x4096x1_0_0_1) shapeCasts_S2x4096x1_S2x4096) transposes_S2x4096_S4096x2_1_0) (broadcastInDim S4096x2 ![] bcast_S_S4096x2 (constantI S_ 32 384#32))) (transpose S4096x2 [1, 0] (shapeCast _ (extractStridedSlice S2x4096x1 ![0, 0, 1] (maxsi (subi n (broadcastInDim S2x4096x2 ![] bcast_S_S2x4096x2 (constantI S_ 32 1#32))) (broadcastInDim S2x4096x2 ![] bcast_S_S2x4096x2 (constantI S_ 32 0#32))) slices_S2x4096x2_S2x4096x1_0_0_1) shapeCasts_S2x4096x1_S2x4096) transposes_S2x4096_S4096x2_1_0)))⟩, ⟨S4096x2x1, (broadcastInDim S4096x2x1 ![0, 1] bcast_S4096x2_S4096x2x1_0_1 lanes)⟩] concatenates_S4096x2x1_S4096x2x1_S4096x2x1_S4096x2x3_d2))))

/-- The program's second result from its arguments: the new features. -/
def featsOut (a0 : (⟨S4x4096x2x128, .f32⟩ : BufTy).Contents (Elt F)) (a1 : (⟨S384x384x2x128, .f32⟩ : BufTy).Contents (Elt F)) (a2 : (⟨S2x4096x2, .i32⟩ : BufTy).Contents (Elt F)) (a5 : (⟨S1, .f32⟩ : BufTy).Contents (Elt F)) (a6 : (⟨S128x128, .f32⟩ : BufTy).Contents (Elt F)) (a7 : (⟨S128, .f32⟩ : BufTy).Contents (Elt F)) (a8 : (⟨S128x256, .f32⟩ : BufTy).Contents (Elt F)) (a9 : (⟨S128, .f32⟩ : BufTy).Contents (Elt F)) (a10 : (⟨S128x128, .f32⟩ : BufTy).Contents (Elt F)) (a11 : (⟨S128, .f32⟩ : BufTy).Contents (Elt F)) : (⟨S384x384x2x128, .f32⟩ : BufTy).Contents (Elt F) :=
  featsOf a1 (updOf (projOf a0 a6 a7) a2 a5) a8 a9 a10 a11

/-- The program's first result from its arguments: the projected activations plus the gathered rows of the new features. -/
def actsOut (a0 : (⟨S4x4096x2x128, .f32⟩ : BufTy).Contents (Elt F)) (a1 : (⟨S384x384x2x128, .f32⟩ : BufTy).Contents (Elt F)) (a2 : (⟨S2x4096x2, .i32⟩ : BufTy).Contents (Elt F)) (a5 : (⟨S1, .f32⟩ : BufTy).Contents (Elt F)) (a6 : (⟨S128x128, .f32⟩ : BufTy).Contents (Elt F)) (a7 : (⟨S128, .f32⟩ : BufTy).Contents (Elt F)) (a8 : (⟨S128x256, .f32⟩ : BufTy).Contents (Elt F)) (a9 : (⟨S128, .f32⟩ : BufTy).Contents (Elt F)) (a10 : (⟨S128x128, .f32⟩ : BufTy).Contents (Elt F)) (a11 : (⟨S128, .f32⟩ : BufTy).Contents (Elt F)) : (⟨S4x4096x2x128, .f32⟩ : BufTy).Contents (Elt F) :=
  tailOf (projOf a0 a6 a7) (featsOut a0 a1 a2 a5 a6 a7 a8 a9 a10 a11) a2 laneIdx

end Cert.ReferenceIdeal.Chains

end
-- ==== Proof.LibNary3.lean ====
/-
  A host concatenation of THREE operands, printed as one n-ary operation over a literal family of three references:
  its result with each operand's contents at its own reference (in the shape of the library's four-reference lemma),
  so that the fold of a line of host operations can go on being evaluated through the three operands.
  nary3_result is the plain form, nary3_result' the form for one simp pass beside the library's primed lemmas.
  Generic in the topology, the signature and the value family.
-/
import Idealize.ShloMosaic.Lib.StableHlo.Run

noncomputable section

namespace Cert.Lib.Nary3

open Idealize.ShloMosaic Idealize.ShloMosaic.StableHlo

variable {τ : Topo} {sig : RefSig} {Val : EltTy → Type} {x a b y : Ref sig .tc}

/-- The result of a three-operand n-ary operation at its own result buffer: the function applied to the three
    operands' contents, each read at its own reference. -/
theorem nary3_result
    (f : ((k : Fin 3) → ((![x, a, b] : Fin 3 → Ref sig .tc) k).ty.Contents Val) → y.ty.Contents Val) (hxs hy)
    (G : Valuation τ sig Val) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

/-- The same with the result reference un-indexed, for use in a simp set. -/
theorem nary3_result'
    (f : ((k : Fin 3) → ((![x, a, b] : Fin 3 → Ref sig .tc) k).ty.Contents Val) → y.ty.Contents Val) (hxs hy)
    (G : Valuation τ sig Val) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G

end Cert.Lib.Nary3

end
-- ==== Proof.KiStages.lean ====
/-
  The kernel program's three stretches of host operations, each read over an arbitrary valuation W of the buffers.
  The first recasts the activations to rows and transposes the weights. The second recasts the projection call's
  result to four axes, runs the same mean / scatter / cut as the reference on it, and prepares the fused call's
  operands (recasts to rows, the first layer's weights cut in two and transposed, the second layer's transposed).
  The third recasts the fused call's result to four axes and runs the reference's gather tail on it, with the lane
  indices wrapped after being spread over the rows instead of before.
-/
import proofs.«116224_j58600533786747_1_alg».proof.Proof.Gen.KernelIdeal.Regions
import proofs.«116224_j58600533786747_1_alg».proof.Proof.HostChains
import proofs.«116224_j58600533786747_1_alg».proof.Proof.LibNary3
import Idealize.ShloMosaic.Lib.StableHlo.Run

noncomputable section

namespace Cert.KernelIdeal.Stages

open Cert.KernelIdeal Cert.KernelIdeal.Gen Idealize.ShloMosaic Idealize.ShloMosaic.TcCoe Idealize.SL.Sem Idealize.ShloMosaic.StableHlo
open Cert.Lib.Nary3

variable {F : FTy → Type} [FloatOps F]

/-- The kernel's lane indices: the iota over the two lanes spread over the 4096 rows, then wrapped. -/
def laneIdxK : (⟨S4096x2, .i32⟩ : BufTy).Contents (Elt F) :=
  (select (cmpi .slt (broadcastInDim S4096x2 ![0, 1] bcast_S1x2_S4096x2_0_1 (broadcastInDim S1x2 ![1] bcast_S2_S1x2_1 (iotaInDim S2 32 0))) (broadcastInDim S4096x2 ![] bcast_S_S4096x2 (constantI S_ 32 0#32))) (addi (broadcastInDim S4096x2 ![0, 1] bcast_S1x2_S4096x2_0_1 (broadcastInDim S1x2 ![1] bcast_S2_S1x2_1 (iotaInDim S2 32 0))) (broadcastInDim S4096x2 ![] bcast_S_S4096x2 (constantI S_ 32 2#32))) (broadcastInDim S4096x2 ![0, 1] bcast_S1x2_S4096x2_0_1 (broadcastInDim S1x2 ![1] bcast_S2_S1x2_1 (iotaInDim S2 32 0))))

variable (W : Valuation τ sig (Elt F))

/-! ## First stretch -/

theorem s0_v1 : after hostOps0 W (Proc.devRef .tc main_v1) = shapeCast S32768x128 (W (Proc.devRef .tc main_arg0)) shapeCasts_S4x4096x2x128_S32768x128 := by after_results_simp <;> rfl
theorem s0_v0 : after hostOps0 W (Proc.devRef .tc main_v0) = transpose S128x128 [1, 0] (W (Proc.devRef .tc main_arg6)) transposes_S128x128_S128x128_1_0 := by after_results_simp <;> rfl

/-! ## Second stretch -/

set_option maxRecDepth 8192 in
set_option maxHeartbeats 4000000 in
theorem s1_v3 : after hostOps1 W (Proc.devRef .tc main_v3) = shapeCast S4x4096x2x128 (W (Proc.devRef .tc main_v2)) shapeCasts_S32768x128_S4x4096x2x128 := by after_results_simp <;> rfl

set_option maxRecDepth 8192 in
set_option maxHeartbeats 4000000 in
theorem s1_v29 : after hostOps1 W (Proc.devRef .tc main_v29)
    = Cert.ReferenceIdeal.Chains.updOf (shapeCast S4x4096x2x128 (W (Proc.devRef .tc main_v2)) shapeCasts_S32768x128_S4x4096x2x128) (W (Proc.devRef .tc main_arg2)) (W (Proc.devRef .tc main_arg5)) := by after_results_simp <;> rfl

set_option maxRecDepth 8192 in
set_option maxHeartbeats 4000000 in
theorem s1_v35 : after hostOps1 W (Proc.devRef .tc main_v35) = shapeCast S294912x128 (W (Proc.devRef .tc main_arg1)) shapeCasts_S384x384x2x128_S294912x128 := by after_results_simp <;> rfl

set_option maxRecDepth 8192 in
set_option maxHeartbeats 4000000 in
theorem s1_v36 : after hostOps1 W (Proc.devRef .tc main_v36)
    = shapeCast S294912x128 (Cert.ReferenceIdeal.Chains.updOf (shapeCast S4x4096x2x128 (W (Proc.devRef .tc main_v2)) shapeCasts_S32768x128_S4x4096x2x128) (W (Proc.devRef .tc main_arg2)) (W (Proc.devRef .tc main_arg5)))
        shapeCasts_S384x384x2x128_S294912x128 := by after_results_simp <;> rfl

set_option maxRecDepth 8192 in
set_option maxHeartbeats 4000000 in
theorem s1_v31 : after hostOps1 W (Proc.devRef .tc main_v31)
    = transpose S128x128 [1, 0] (extractStridedSlice S128x128 ![0, 0] (W (Proc.devRef .tc main_arg8)) slices_S128x256_S128x128_0_0) transposes_S128x128_S128x128_1_0 := by after_results_simp <;> rfl

set_option maxRecDepth 8192 in
set_option maxHeartbeats 4000000 in
theorem s1_v33 : after hostOps1 W (Proc.devRef .tc main_v33)
    = transpose S128x128 [1, 0] (extractStridedSlice S128x128 ![0, 128] (W (Proc.devRef .tc main_arg8)) slices_S128x256_S128x128_0_128) transposes_S128x128_S128x128_1_0 := by after_results_simp <;> rfl

set_option maxRecDepth 8192 in
set_option maxHeartbeats 4000000 in
theorem s1_v34 : after hostOps1 W (Proc.devRef .tc main_v34) = transpose S128x128 [1, 0] (W (Proc.devRef .tc main_arg10)) transposes_S128x128_S128x128_1_0 := by after_results_simp <;> rfl

/-! ## Third stretch -/

set_option maxRecDepth 8192 in
set_option maxHeartbeats 4000000 in
theorem s2_v38 : after hostOps2 W (Proc.devRef .tc main_v38) = shapeCast S384x384x2x128 (W (Proc.devRef .tc main_v37)) shapeCasts_S294912x128_S384x384x2x128 := by after_results_simp <;> rfl

set_option maxRecDepth 8192 in
set_option maxHeartbeats 8000000 in
theorem s2_v74 : after hostOps2 W (Proc.devRef .tc main_v74)
    = Cert.ReferenceIdeal.Chains.tailOf (W (Proc.devRef .tc main_v3)) (shapeCast S384x384x2x128 (W (Proc.devRef .tc main_v37)) shapeCasts_S294912x128_S384x384x2x128) (W (Proc.devRef .tc main_arg2)) laneIdxK := by
  simp (disch := decide) only [after_cons, after_nil,
      nullary_result', unary_result', binary_result', ternary_result', quaternary_result', reshape_result', nary3_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

end Cert.KernelIdeal.Stages

end
-- ==== Proof.Bridge.lean ====
/-
  The two calls against the reference's operations, entry by entry over the extended reals.
  proj_eq: the projection of the flattened activations by the transposed weights, recast to four axes, is the
    reference's contraction of the last axis with the weights plus the broadcast bias.
  feats_eq: the fused two-layer map of the flattened features and update, with the first layer's weights cut in two
    halves and transposed, recast to four axes, is the reference's concatenation along the last axis, contraction with
    the whole first-layer weights, bias, contraction with the second-layer weights, bias. The one law used is that a
    sum over 256 terms is the sum of its first 128 and its last 128, which holds in any commutative additive monoid.
  iota_sel: wrapping a negative lane index (select (x < 0) (x + 2) x) commutes with spreading the row of lane indices
    over 4096 rows.
-/
import proofs.«116224_j58600533786747_1_alg».proof.Proof.Spec
import proofs.«116224_j58600533786747_1_alg».proof.Proof.Gen.KernelIdeal
import proofs.«116224_j58600533786747_1_alg».proof.Proof.Gen.ReferenceIdeal
import proofs.«116224_j58600533786747_1_alg».proof.Proof.RefReadP
import proofs.«116224_j58600533786747_1_alg».proof.Proof.LibPlainDot
import proofs.«116224_j58600533786747_1_alg».proof.Proof.LibRowSpread
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Bridge

open Idealize.ShloMosaic Idealize.ShloMosaic.ValueIdx

/-! ## Layout operations of this kernel read at an entry -/

/-- Flattening the three leading axes: row `(p * n1 + q) * n2 + s`, column `c`, of the recast array is the entry `(p, q, s, c)`. -/
theorem flatRows_apply {n0 n1 n2 n3 R : ℕ} {α : Type} (x : (⟨4, ![n0, n1, n2, n3]⟩ : Shape).Idx → α)
    (h : (⟨4, ![n0, n1, n2, n3]⟩ : Shape).ShapeCasts (⟨2, ![R, n3]⟩ : Shape))
    (p : Fin n0) (q : Fin n1) (s : Fin n2) (c : Fin n3) (r : Fin R) (hr : r.val = (p.val * n1 + q.val) * n2 + s.val) :
    shapeCast (⟨2, ![R, n3]⟩ : Shape) x h (ix2 r c) = x (ix4 p q s c) := by
  refine shapeCast_apply x h _ _ ?_
  rw [Shape.rowMajor_val_four, Shape.rowMajor_val_two]
  show ((p.val * n1 + q.val) * n2 + s.val) * n3 + c.val = r.val * n3 + c.val
  rw [hr]

/-- Splitting the rows back into three axes: the entry `(p, q, s, c)` of the recast matrix is its row
    `(p * n1 + q) * n2 + s`, column `c`. -/
theorem splitRows_apply {n0 n1 n2 n3 R : ℕ} {α : Type} (y : (⟨2, ![R, n3]⟩ : Shape).Idx → α)
    (h : (⟨2, ![R, n3]⟩ : Shape).ShapeCasts (⟨4, ![n0, n1, n2, n3]⟩ : Shape))
    (p : Fin n0) (q : Fin n1) (s : Fin n2) (c : Fin n3) (r : Fin R) (hr : r.val = (p.val * n1 + q.val) * n2 + s.val) :
    shapeCast (⟨4, ![n0, n1, n2, n3]⟩ : Shape) y h (ix4 p q s c) = y (ix2 r c) := by
  refine shapeCast_apply y h _ _ ?_
  rw [Shape.rowMajor_val_four, Shape.rowMajor_val_two]
  show r.val * n3 + c.val = ((p.val * n1 + q.val) * n2 + s.val) * n3 + c.val
  rw [hr]

/-- The transposed matrix at `(k, o)` is the matrix at `(o, k)`. -/
theorem swapped_apply {a b : ℕ} {α : Type} (w : (⟨2, ![a, b]⟩ : Shape).Idx → α)
    (h : (⟨2, ![a, b]⟩ : Shape).Transposes [1, 0] (⟨2, ![b, a]⟩ : Shape)) (k : Fin b) (o : Fin a) :
    transpose (⟨2, ![b, a]⟩ : Shape) [1, 0] w h (ix2 k o) = w (ix2 o k) := by
  refine transpose_apply [1, 0] w h _ _ fun c => ?_
  match c with
  | ⟨0, _⟩ => rfl
  | ⟨1, _⟩ => rfl

/-- The first 128 columns of a 256-column matrix. -/
theorem firstCols_apply {α : Type} (w : (⟨2, ![128, 256]⟩ : Shape).Idx → α)
    (h : (⟨2, ![128, 256]⟩ : Shape).Slices ![0, 0] (⟨2, ![128, 128]⟩ : Shape)) (d k : Fin 128) :
    extractStridedSlice (⟨2, ![128, 128]⟩ : Shape) ![0, 0] w h (ix2 d k) = w (ix2 d (⟨k.val, by omega⟩ : Fin 256)) := by
  refine extractStridedSlice_apply ![0, 0] w h _ _ fun c => ?_
  match c with
  | ⟨0, _⟩ => exact (Nat.zero_add d.val).symm
  | ⟨1, _⟩ => exact (Nat.zero_add k.val).symm

/-- The last 128 columns of a 256-column matrix. -/
theorem lastCols_apply {α : Type} (w : (⟨2, ![128, 256]⟩ : Shape).Idx → α)
    (h : (⟨2, ![128, 256]⟩ : Shape).Slices ![0, 128] (⟨2, ![128, 128]⟩ : Shape)) (d k : Fin 128) :
    extractStridedSlice (⟨2, ![128, 128]⟩ : Shape) ![0, 128] w h (ix2 d k) = w (ix2 d (⟨128 + k.val, by omega⟩ : Fin 256)) := by
  refine extractStridedSlice_apply ![0, 128] w h _ _ fun c => ?_
  match c with
  | ⟨0, _⟩ => exact (Nat.zero_add d.val).symm
  | ⟨1, _⟩ => rfl

/-- A 128-vector laid along the last of four axes and spread over the other three: the entry `(p, q, s, o)` is the
    vector's entry `o`. -/
theorem lastAxisSpread_apply {n0 n1 n2 : ℕ} {α : Type} (v : (⟨1, ![128]⟩ : Shape).Idx → α)
    (h1 : (⟨1, ![128]⟩ : Shape).BroadcastsInDim (⟨4, ![1, 1, 1, 128]⟩ : Shape) ![3])
    (h2 : (⟨4, ![1, 1, 1, 128]⟩ : Shape).BroadcastsInDim (⟨4, ![n0, n1, n2, 128]⟩ : Shape) ![0, 1, 2, 3])
    (p : Fin n0) (q : Fin n1) (s : Fin n2) (o : Fin 128) :
    broadcastInDim (⟨4, ![n0, n1, n2, 128]⟩ : Shape) ![0, 1, 2, 3] h2
        (broadcastInDim (⟨4, ![1, 1, 1, 128]⟩ : Shape) ![3] h1 v) (ix4 p q s o) = v (ix1 o) := by
  refine (broadcastInDim_apply _ h2 _ (ix4 p q s o) (ix4 (0 : Fin 1) (0 : Fin 1) (0 : Fin 1) o) fun c => ?_).trans
    (broadcastInDim_apply _ h1 v _ (ix1 o) fun c => ?_)
  · match c with
    | ⟨0, _⟩ => exact (if_pos rfl).symm
    | ⟨1, _⟩ => exact (if_pos rfl).symm
    | ⟨2, _⟩ => exact (if_pos rfl).symm
    | ⟨3, _⟩ => exact (if_neg (show ¬((128 : ℕ) = 1) by decide)).symm
  · match c with
    | ⟨0, _⟩ => exact (if_neg (show ¬((128 : ℕ) = 1) by decide)).symm

/-! ## The reference's two contractions over any left operand, and the joined operand -/

/-- The 256 entries along the last axis contracted with a row of a [128, 256] matrix: the entry `(n, m, b, d)` of the result. -/
theorem wideContract_apply (y : (⟨Cert.ReferenceIdeal.S384x384x2x256, .f32⟩ : BufTy).Contents (Elt Ideal))
    (w : (⟨Cert.ReferenceIdeal.S128x256, .f32⟩ : BufTy).Contents (Elt Ideal)) (n m : Fin 384) (b : Fin 2) (d : Fin 128) :
    Host.dotGeneral (F := Ideal) (φ₁ := .f32) (φ₂ := .f32) Cert.ReferenceIdeal.dot_S384x384x2x256_S128x256_S384x384x2x128_3_1_012_0_n_n none y w (ix4 n m b d)
      = ∑ k : Fin 256, y (ix4 n m b k) * w (ix2 d k) := by
  simp only [Host.dotGeneral]
  rw [Ideal.dotGeneral_apply, ← Equiv.sum_comp (contrEquiv1 Cert.ReferenceIdeal.dot_S384x384x2x256_S128x256_S384x384x2x128_3_1_012_0_n_n 256 rfl rfl).symm]
  refine Finset.sum_congr rfl fun k _ => ?_
  have hk := contrEquiv1_symm_val Cert.ReferenceIdeal.dot_S384x384x2x256_S128x256_S384x384x2x128_3_1_012_0_n_n 256 rfl rfl k
  have el : Cert.ReferenceIdeal.dot_S384x384x2x256_S128x256_S384x384x2x128_3_1_012_0_n_n.lhsIdx (ix4 n m b d) ((contrEquiv1 Cert.ReferenceIdeal.dot_S384x384x2x256_S128x256_S384x384x2x128_3_1_012_0_n_n 256 rfl rfl).symm k) = ix4 n m b k :=
    funext fun a => Fin.ext (by
      match a with
      | ⟨0, _⟩ => exact Cert.ReferenceIdeal.ReadP.lhs_main_v31_0 _ _
      | ⟨1, _⟩ => exact Cert.ReferenceIdeal.ReadP.lhs_main_v31_1 _ _
      | ⟨2, _⟩ => exact Cert.ReferenceIdeal.ReadP.lhs_main_v31_2 _ _
      | ⟨3, _⟩ => exact (Cert.ReferenceIdeal.ReadP.lhs_main_v31_3 _ _).trans hk)
  have er : Cert.ReferenceIdeal.dot_S384x384x2x256_S128x256_S384x384x2x128_3_1_012_0_n_n.rhsIdx (ix4 n m b d) ((contrEquiv1 Cert.ReferenceIdeal.dot_S384x384x2x256_S128x256_S384x384x2x128_3_1_012_0_n_n 256 rfl rfl).symm k) = ix2 d k :=
    funext fun a => Fin.ext (by
      match a with
      | ⟨0, _⟩ => exact Cert.ReferenceIdeal.ReadP.rhs_main_v31_0 _ _
      | ⟨1, _⟩ => exact (Cert.ReferenceIdeal.ReadP.rhs_main_v31_1 _ _).trans hk)
  rw [el, er]

/-- The 128 entries along the last axis contracted with a row of a [128, 128] matrix: the entry `(n, m, b, d)` of the result. -/
theorem narrowContract_apply (y : (⟨Cert.ReferenceIdeal.S384x384x2x128, .f32⟩ : BufTy).Contents (Elt Ideal))
    (w : (⟨Cert.ReferenceIdeal.S128x128, .f32⟩ : BufTy).Contents (Elt Ideal)) (n m : Fin 384) (b : Fin 2) (d : Fin 128) :
    Host.dotGeneral (F := Ideal) (φ₁ := .f32) (φ₂ := .f32) Cert.ReferenceIdeal.dot_S384x384x2x128_S128x128_S384x384x2x128_3_1_012_0_n_n none y w (ix4 n m b d)
      = ∑ k : Fin 128, y (ix4 n m b k) * w (ix2 d k) := by
  simp only [Host.dotGeneral]
  rw [Ideal.dotGeneral_apply, ← Equiv.sum_comp (contrEquiv1 Cert.ReferenceIdeal.dot_S384x384x2x128_S128x128_S384x384x2x128_3_1_012_0_n_n 128 rfl rfl).symm]
  refine Finset.sum_congr rfl fun k _ => ?_
  have hk := contrEquiv1_symm_val Cert.ReferenceIdeal.dot_S384x384x2x128_S128x128_S384x384x2x128_3_1_012_0_n_n 128 rfl rfl k
  have el : Cert.ReferenceIdeal.dot_S384x384x2x128_S128x128_S384x384x2x128_3_1_012_0_n_n.lhsIdx (ix4 n m b d) ((contrEquiv1 Cert.ReferenceIdeal.dot_S384x384x2x128_S128x128_S384x384x2x128_3_1_012_0_n_n 128 rfl rfl).symm k) = ix4 n m b k :=
    funext fun a => Fin.ext (by
      match a with
      | ⟨0, _⟩ => exact Cert.ReferenceIdeal.ReadP.lhs_main_v35_0 _ _
      | ⟨1, _⟩ => exact Cert.ReferenceIdeal.ReadP.lhs_main_v35_1 _ _
      | ⟨2, _⟩ => exact Cert.ReferenceIdeal.ReadP.lhs_main_v35_2 _ _
      | ⟨3, _⟩ => exact (Cert.ReferenceIdeal.ReadP.lhs_main_v35_3 _ _).trans hk)
  have er : Cert.ReferenceIdeal.dot_S384x384x2x128_S128x128_S384x384x2x128_3_1_012_0_n_n.rhsIdx (ix4 n m b d) ((contrEquiv1 Cert.ReferenceIdeal.dot_S384x384x2x128_S128x128_S384x384x2x128_3_1_012_0_n_n 128 rfl rfl).symm k) = ix2 d k :=
    funext fun a => Fin.ext (by
      match a with
      | ⟨0, _⟩ => exact Cert.ReferenceIdeal.ReadP.rhs_main_v35_0 _ _
      | ⟨1, _⟩ => exact (Cert.ReferenceIdeal.ReadP.rhs_main_v35_1 _ _).trans hk)
  rw [el, er]

/-- A sum of 256 terms is the sum of its first 128 terms plus the sum of its last 128 (in any commutative additive monoid). -/
theorem sum_halves {M : Type*} [AddCommMonoid M] (f : Fin 256 → M) :
    ∑ k : Fin 256, f k
      = (∑ k : Fin 128, f (⟨k.val, by omega⟩ : Fin 256)) + ∑ k : Fin 128, f (⟨128 + k.val, by omega⟩ : Fin 256) :=
  Fin.sum_univ_add (a := 128) (b := 128) f

/-- Two [384, 384, 2, 128] arrays joined along the last axis: the first 128 entries of the last axis are the first array's. -/
theorem joined_first_apply {α : Type} (x₁ x₂ : Cert.ReferenceIdeal.S384x384x2x128.Idx → α)
    (h : Shape.Concatenates [Cert.ReferenceIdeal.S384x384x2x128, Cert.ReferenceIdeal.S384x384x2x128] Cert.ReferenceIdeal.S384x384x2x256 3)
    (n m : Fin 384) (b : Fin 2) (k : Fin 128) :
    concatenate Cert.ReferenceIdeal.S384x384x2x256 3 [⟨Cert.ReferenceIdeal.S384x384x2x128, x₁⟩, ⟨Cert.ReferenceIdeal.S384x384x2x128, x₂⟩] h
        (ix4 n m b (⟨k.val, by omega⟩ : Fin 256)) = x₁ (ix4 n m b k) := by
  refine concatenate_pair_apply_left 3 x₁ x₂ h _ rfl (ix4 n m b k) fun c => ?_
  match c with
  | ⟨0, _⟩ => rfl
  | ⟨1, _⟩ => rfl
  | ⟨2, _⟩ => rfl
  | ⟨3, _⟩ => rfl

/-- … and the last 128 entries of the last axis are the second array's. -/
theorem joined_second_apply {α : Type} (x₁ x₂ : Cert.ReferenceIdeal.S384x384x2x128.Idx → α)
    (h : Shape.Concatenates [Cert.ReferenceIdeal.S384x384x2x128, Cert.ReferenceIdeal.S384x384x2x128] Cert.ReferenceIdeal.S384x384x2x256 3)
    (n m : Fin 384) (b : Fin 2) (k : Fin 128) :
    concatenate Cert.ReferenceIdeal.S384x384x2x256 3 [⟨Cert.ReferenceIdeal.S384x384x2x128, x₁⟩, ⟨Cert.ReferenceIdeal.S384x384x2x128, x₂⟩] h
        (ix4 n m b (⟨128 + k.val, by omega⟩ : Fin 256)) = x₂ (ix4 n m b k) := by
  refine concatenate_pair_apply_right 3 x₁ x₂ h _ rfl rfl (ix4 n m b k) (fun c hc => ?_) (Nat.add_comm k.val 128)
  match c with
  | ⟨0, _⟩ => rfl
  | ⟨1, _⟩ => rfl
  | ⟨2, _⟩ => rfl
  | ⟨3, _⟩ => exact absurd rfl hc

/-- The reference's operations from the update `u` (its main_v29) and the arguments to its second result. -/
def refFeats (a1 u : (⟨Cert.ReferenceIdeal.S384x384x2x128, .f32⟩ : BufTy).Contents (Elt Ideal)) (a8 : (⟨Cert.ReferenceIdeal.S128x256, .f32⟩ : BufTy).Contents (Elt Ideal))
    (a9 : (⟨Cert.ReferenceIdeal.S128, .f32⟩ : BufTy).Contents (Elt Ideal)) (a10 : (⟨Cert.ReferenceIdeal.S128x128, .f32⟩ : BufTy).Contents (Elt Ideal)) (a11 : (⟨Cert.ReferenceIdeal.S128, .f32⟩ : BufTy).Contents (Elt Ideal)) :
    (⟨Cert.ReferenceIdeal.S384x384x2x128, .f32⟩ : BufTy).Contents (Elt Ideal) :=
  addf (F := Ideal) (Host.dotGeneral (F := Ideal) (φ₁ := .f32) (φ₂ := .f32) Cert.ReferenceIdeal.dot_S384x384x2x128_S128x128_S384x384x2x128_3_1_012_0_n_n none
    (addf (F := Ideal) (Host.dotGeneral (F := Ideal) (φ₁ := .f32) (φ₂ := .f32) Cert.ReferenceIdeal.dot_S384x384x2x256_S128x256_S384x384x2x128_3_1_012_0_n_n none
      (concatenate Cert.ReferenceIdeal.S384x384x2x256 3 [⟨Cert.ReferenceIdeal.S384x384x2x128, a1⟩, ⟨Cert.ReferenceIdeal.S384x384x2x128, u⟩]
        Cert.ReferenceIdeal.Facts₀.concatenates_S384x384x2x128_S384x384x2x128_S384x384x2x256_d3 : (⟨Cert.ReferenceIdeal.S384x384x2x256, .f32⟩ : BufTy).Contents (Elt Ideal)) a8)
      (broadcastInDim Cert.ReferenceIdeal.S384x384x2x128 ![0, 1, 2, 3] Cert.ReferenceIdeal.Facts₀.bcast_S1x1x1x128_S384x384x2x128_0_1_2_3
        (broadcastInDim Cert.ReferenceIdeal.S1x1x1x128 ![3] Cert.ReferenceIdeal.Facts₀.bcast_S128_S1x1x1x128_3 a9))) a10)
    (broadcastInDim Cert.ReferenceIdeal.S384x384x2x128 ![0, 1, 2, 3] Cert.ReferenceIdeal.Facts₀.bcast_S1x1x1x128_S384x384x2x128_0_1_2_3
      (broadcastInDim Cert.ReferenceIdeal.S1x1x1x128 ![3] Cert.ReferenceIdeal.Facts₀.bcast_S128_S1x1x1x128_3 a11))

/-- The reference's operations from the update, at an entry: both contractions as sums, the joined operand's sum cut
    into the features' half and the update's half. -/
theorem refFeats_apply (a1 u : (⟨Cert.ReferenceIdeal.S384x384x2x128, .f32⟩ : BufTy).Contents (Elt Ideal)) (a8 : (⟨Cert.ReferenceIdeal.S128x256, .f32⟩ : BufTy).Contents (Elt Ideal))
    (a9 : (⟨Cert.ReferenceIdeal.S128, .f32⟩ : BufTy).Contents (Elt Ideal)) (a10 : (⟨Cert.ReferenceIdeal.S128x128, .f32⟩ : BufTy).Contents (Elt Ideal)) (a11 : (⟨Cert.ReferenceIdeal.S128, .f32⟩ : BufTy).Contents (Elt Ideal))
    (n m : Fin 384) (b : Fin 2) (o : Fin 128) :
    refFeats a1 u a8 a9 a10 a11 (ix4 n m b o)
      = (∑ d : Fin 128,
          (((∑ k : Fin 128, a1 (ix4 n m b k) * a8 (ix2 d (⟨k.val, by omega⟩ : Fin 256)))
              + (∑ k : Fin 128, u (ix4 n m b k) * a8 (ix2 d (⟨128 + k.val, by omega⟩ : Fin 256)))) + a9 (ix1 d)) * a10 (ix2 o d))
        + a11 (ix1 o) := by
  unfold refFeats
  rw [addf_apply, lastAxisSpread_apply, narrowContract_apply]
  refine congrArg (· + a11 (ix1 o)) (Finset.sum_congr rfl fun d _ => ?_)
  rw [addf_apply, lastAxisSpread_apply, wideContract_apply, sum_halves]
  refine congrArg (fun z => (z + a9 (ix1 d)) * a10 (ix2 o d)) ?_
  refine congrArg₂ (· + ·) (Finset.sum_congr rfl fun k _ => ?_) (Finset.sum_congr rfl fun k _ => ?_)
  · rw [joined_first_apply]
  · rw [joined_second_apply]

/-- The projection, recast to four axes, is the reference's first stage. -/
theorem proj_eq (a0 : Vec Ideal Cert.KernelIdeal.S4x4096x2x128 .f32) (a6 : Vec Ideal Cert.KernelIdeal.S128x128 .f32)
    (a7 : Vec Ideal Cert.KernelIdeal.S128 .f32) :
    shapeCast Cert.KernelIdeal.S4x4096x2x128
        (Cert.KernelIdeal.Spec.linSpec (shapeCast Cert.KernelIdeal.S32768x128 a0 Cert.KernelIdeal.Facts₀.shapeCasts_S4x4096x2x128_S32768x128)
          (transpose Cert.KernelIdeal.S128x128 [1, 0] a6 Cert.KernelIdeal.Facts₀.transposes_S128x128_S128x128_1_0) a7)
        Cert.KernelIdeal.Facts₀.shapeCasts_S32768x128_S4x4096x2x128
      = Cert.ReferenceIdeal.ReadP.val_main_v3 (F := Ideal) a0 a6 a7 := by
  funext i
  obtain ⟨t, e, b, o, rfl⟩ : ∃ (t : Fin 4) (e : Fin 4096) (b : Fin 2) (o : Fin 128), i = ix4 t e b o :=
    ⟨i 0, i 1, i 2, i 3, eq_ix4 i⟩
  -- the row of the flattened activations that holds (t, e, b)
  have hrow : (t.val * 4096 + e.val) * 2 + b.val < 32768 := by omega
  -- the kernel's side: the specification at that row, its operands read through their layout operations
  rw [splitRows_apply _ _ t e b o ⟨(t.val * 4096 + e.val) * 2 + b.val, hrow⟩ rfl]
  show (∑ k : Fin 128, shapeCast Cert.KernelIdeal.S32768x128 a0 Cert.KernelIdeal.Facts₀.shapeCasts_S4x4096x2x128_S32768x128
            (ix2 (⟨(t.val * 4096 + e.val) * 2 + b.val, hrow⟩ : Fin 32768) k)
          * transpose Cert.KernelIdeal.S128x128 [1, 0] a6 Cert.KernelIdeal.Facts₀.transposes_S128x128_S128x128_1_0 (ix2 k o))
        + a7 (ix1 o) = _
  -- the reference's side: the contraction and the spread bias
  have hsum : Cert.ReferenceIdeal.ReadP.val_main_v0 (F := Ideal) a0 a6 (ix4 t e b o) = ∑ k : Fin 128, a0 (ix4 t e b k) * a6 (ix2 o k) := by
    rw [Cert.ReferenceIdeal.ReadP.val_main_v0_apply]
    refine Finset.sum_congr rfl fun k _ => ?_
    have el : Cert.ReferenceIdeal.ReadP.lidx_main_v0 (ix4 t e b o) k = ix4 t e b k :=
      funext fun c => match c with | ⟨0, _⟩ => rfl | ⟨1, _⟩ => rfl | ⟨2, _⟩ => rfl | ⟨3, _⟩ => rfl
    have er : Cert.ReferenceIdeal.ReadP.ridx_main_v0 (ix4 t e b o) k = ix2 o k :=
      funext fun c => match c with | ⟨0, _⟩ => rfl | ⟨1, _⟩ => rfl
    rw [el, er]
  have hbias : Cert.ReferenceIdeal.ReadP.val_main_v2 (F := Ideal) a7 (ix4 t e b o) = a7 (ix1 o) := by
    unfold Cert.ReferenceIdeal.ReadP.val_main_v2 Cert.ReferenceIdeal.ReadP.val_main_v1
    exact lastAxisSpread_apply a7 _ _ t e b o
  rw [Cert.ReferenceIdeal.ReadP.val_main_v3_apply, hsum, hbias]
  refine congrArg (· + a7 (ix1 o)) (Finset.sum_congr rfl fun k _ => ?_)
  rw [flatRows_apply a0 _ t e b k ⟨(t.val * 4096 + e.val) * 2 + b.val, hrow⟩ rfl, swapped_apply a6 _ k o]

/-- The fused map, recast to four axes, is the reference's operations from the update to its second result. -/
theorem feats_eq (a1 u : Vec Ideal Cert.KernelIdeal.S384x384x2x128 .f32) (a8 : Vec Ideal Cert.KernelIdeal.S128x256 .f32)
    (a9 : Vec Ideal Cert.KernelIdeal.S128 .f32) (a10 : Vec Ideal Cert.KernelIdeal.S128x128 .f32) (a11 : Vec Ideal Cert.KernelIdeal.S128 .f32) :
    shapeCast Cert.KernelIdeal.S384x384x2x128
        (Cert.KernelIdeal.Spec.fusSpec
          (shapeCast Cert.KernelIdeal.S294912x128 a1 Cert.KernelIdeal.Facts₀.shapeCasts_S384x384x2x128_S294912x128)
          (shapeCast Cert.KernelIdeal.S294912x128 u Cert.KernelIdeal.Facts₀.shapeCasts_S384x384x2x128_S294912x128)
          (transpose Cert.KernelIdeal.S128x128 [1, 0]
            (extractStridedSlice Cert.KernelIdeal.S128x128 ![0, 0] a8 Cert.KernelIdeal.Facts₀.slices_S128x256_S128x128_0_0)
            Cert.KernelIdeal.Facts₀.transposes_S128x128_S128x128_1_0)
          (transpose Cert.KernelIdeal.S128x128 [1, 0]
            (extractStridedSlice Cert.KernelIdeal.S128x128 ![0, 128] a8 Cert.KernelIdeal.Facts₀.slices_S128x256_S128x128_0_128)
            Cert.KernelIdeal.Facts₀.transposes_S128x128_S128x128_1_0)
          a9
          (transpose Cert.KernelIdeal.S128x128 [1, 0] a10 Cert.KernelIdeal.Facts₀.transposes_S128x128_S128x128_1_0)
          a11)
        Cert.KernelIdeal.Facts₀.shapeCasts_S294912x128_S384x384x2x128
      = refFeats a1 u a8 a9 a10 a11 := by
  funext i
  obtain ⟨n, m, b, o, rfl⟩ : ∃ (n : Fin 384) (m : Fin 384) (b : Fin 2) (o : Fin 128), i = ix4 n m b o :=
    ⟨i 0, i 1, i 2, i 3, eq_ix4 i⟩
  -- the row of the flattened features that holds (n, m, b)
  have hrow : (n.val * 384 + m.val) * 2 + b.val < 294912 := by omega
  rw [splitRows_apply _ _ n m b o ⟨(n.val * 384 + m.val) * 2 + b.val, hrow⟩ rfl, refFeats_apply]
  -- the specification at that row, its operands still behind their layout operations
  show (∑ d : Fin 128,
        (((∑ k : Fin 128,
              shapeCast Cert.KernelIdeal.S294912x128 a1 Cert.KernelIdeal.Facts₀.shapeCasts_S384x384x2x128_S294912x128
                  (ix2 (⟨(n.val * 384 + m.val) * 2 + b.val, hrow⟩ : Fin 294912) k)
                * transpose Cert.KernelIdeal.S128x128 [1, 0]
                    (extractStridedSlice Cert.KernelIdeal.S128x128 ![0, 0] a8 Cert.KernelIdeal.Facts₀.slices_S128x256_S128x128_0_0)
                    Cert.KernelIdeal.Facts₀.transposes_S128x128_S128x128_1_0 (ix2 k d))
            + (∑ k : Fin 128,
              shapeCast Cert.KernelIdeal.S294912x128 u Cert.KernelIdeal.Facts₀.shapeCasts_S384x384x2x128_S294912x128
                  (ix2 (⟨(n.val * 384 + m.val) * 2 + b.val, hrow⟩ : Fin 294912) k)
                * transpose Cert.KernelIdeal.S128x128 [1, 0]
                    (extractStridedSlice Cert.KernelIdeal.S128x128 ![0, 128] a8 Cert.KernelIdeal.Facts₀.slices_S128x256_S128x128_0_128)
                    Cert.KernelIdeal.Facts₀.transposes_S128x128_S128x128_1_0 (ix2 k d))) + a9 (ix1 d))
          * transpose Cert.KernelIdeal.S128x128 [1, 0] a10 Cert.KernelIdeal.Facts₀.transposes_S128x128_S128x128_1_0 (ix2 d o))
      + a11 (ix1 o) = _
  refine congrArg (· + a11 (ix1 o)) (Finset.sum_congr rfl fun d _ => ?_)
  rw [swapped_apply a10 _ d o]
  refine congrArg (fun z => (z + a9 (ix1 d)) * a10 (ix2 o d)) ?_
  refine congrArg₂ (· + ·) (Finset.sum_congr rfl fun k _ => ?_) (Finset.sum_congr rfl fun k _ => ?_)
  · rw [flatRows_apply a1 _ n m b k ⟨(n.val * 384 + m.val) * 2 + b.val, hrow⟩ rfl, swapped_apply _ _ k d, firstCols_apply a8 _ d k]
  · rw [flatRows_apply u _ n m b k ⟨(n.val * 384 + m.val) * 2 + b.val, hrow⟩ rfl, swapped_apply _ _ k d, lastCols_apply a8 _ d k]

/-- Wrapping the lane indices after spreading them over the rows is spreading the wrapped lane indices. -/
theorem iota_sel :
    (select
        (cmpi .slt
          (broadcastInDim Cert.KernelIdeal.S4096x2 ![0, 1] Cert.KernelIdeal.Facts₀.bcast_S1x2_S4096x2_0_1
            (broadcastInDim Cert.KernelIdeal.S1x2 ![1] Cert.KernelIdeal.Facts₀.bcast_S2_S1x2_1 (iotaInDim Cert.KernelIdeal.S2 32 0)))
          (broadcastInDim Cert.KernelIdeal.S4096x2 ![] Cert.KernelIdeal.Facts₀.bcast_S_S4096x2 (constantI Cert.KernelIdeal.S_ 32 0#32)))
        (addi
          (broadcastInDim Cert.KernelIdeal.S4096x2 ![0, 1] Cert.KernelIdeal.Facts₀.bcast_S1x2_S4096x2_0_1
            (broadcastInDim Cert.KernelIdeal.S1x2 ![1] Cert.KernelIdeal.Facts₀.bcast_S2_S1x2_1 (iotaInDim Cert.KernelIdeal.S2 32 0)))
          (broadcastInDim Cert.KernelIdeal.S4096x2 ![] Cert.KernelIdeal.Facts₀.bcast_S_S4096x2 (constantI Cert.KernelIdeal.S_ 32 2#32)))
        (broadcastInDim Cert.KernelIdeal.S4096x2 ![0, 1] Cert.KernelIdeal.Facts₀.bcast_S1x2_S4096x2_0_1
          (broadcastInDim Cert.KernelIdeal.S1x2 ![1] Cert.KernelIdeal.Facts₀.bcast_S2_S1x2_1 (iotaInDim Cert.KernelIdeal.S2 32 0)))
      : (⟨Cert.KernelIdeal.S4096x2, .i32⟩ : BufTy).Contents (Elt Ideal))
    = broadcastInDim Cert.ReferenceIdeal.S4096x2 ![0, 1] Cert.ReferenceIdeal.Facts₀.bcast_S1x2_S4096x2_0_1
        (select
          (cmpi .slt
            (broadcastInDim Cert.ReferenceIdeal.S1x2 ![1] Cert.ReferenceIdeal.Facts₀.bcast_S2_S1x2_1 (iotaInDim Cert.ReferenceIdeal.S2 32 0))
            (broadcastInDim Cert.ReferenceIdeal.S1x2 ![] Cert.ReferenceIdeal.Facts₀.bcast_S_S1x2 (constantI Cert.ReferenceIdeal.S_ 32 0#32)))
          (addi
            (broadcastInDim Cert.ReferenceIdeal.S1x2 ![1] Cert.ReferenceIdeal.Facts₀.bcast_S2_S1x2_1 (iotaInDim Cert.ReferenceIdeal.S2 32 0))
            (broadcastInDim Cert.ReferenceIdeal.S1x2 ![] Cert.ReferenceIdeal.Facts₀.bcast_S_S1x2 (constantI Cert.ReferenceIdeal.S_ 32 2#32)))
          (broadcastInDim Cert.ReferenceIdeal.S1x2 ![1] Cert.ReferenceIdeal.Facts₀.bcast_S2_S1x2_1 (iotaInDim Cert.ReferenceIdeal.S2 32 0))) := by
  funext i
  rfl

end Cert.Bridge

end
-- ==== Proof.KiValue.lean ====
/-
  The idealized kernel's two results as functions of the arguments, over the extended reals.
  Walking the run's five segments: the first stretch hands the projection call the activations recast to rows and
  the transposed weights; the call leaves rows · weights + bias, which recast to four axes is the reference's first
  stage; the second stretch runs the shared mean / scatter / cut on it and prepares the fused call's operands; the
  call leaves the two-layer map of the rows, which recast to four axes is the reference's two layers over the
  concatenated features; the last stretch gathers its rows and adds them to the projected activations, with lane
  indices equal to the reference's.
-/
import proofs.«116224_j58600533786747_1_alg».proof.Proof.KiRun
import proofs.«116224_j58600533786747_1_alg».proof.Proof.KvLinear
import proofs.«116224_j58600533786747_1_alg».proof.Proof.KvFused
import proofs.«116224_j58600533786747_1_alg».proof.Proof.KiStages
import proofs.«116224_j58600533786747_1_alg».proof.Proof.Bridge

set_option maxRecDepth 16384

noncomputable section

namespace Cert.KernelIdeal.Frame

open Cert.KernelIdeal Cert.KernelIdeal.Gen
open Idealize.ShloMosaic Idealize.ShloMosaic.TcCoe
open Idealize.SL Idealize.SL.Sem
open Cert.ReferenceIdeal.Chains

variable (m : (ℓ : Loc nD τ sig) → Buf (Elt Ideal) ℓ) (ρ : Dev nD → PrngReg) (c : Dev nD)

/-! ## What the projection call is entered with, and what it leaves -/

theorem in0_rows : C1 m ρ c main_v1 = shapeCast S32768x128 (m ((c : Thread nD τ).loc main_arg0)) shapeCasts_S4x4096x2x128_S32768x128 :=
  Stages.s0_v1 (B0 m ρ c)
theorem in0_weights : C1 m ρ c main_v0 = transpose S128x128 [1, 0] (m ((c : Thread nD τ).loc main_arg6)) transposes_S128x128_S128x128_1_0 :=
  Stages.s0_v0 (B0 m ρ c)
theorem in0_bias : C1 m ρ c main_arg7 = (m ((c : Thread nD τ).loc main_arg7)) :=
  (StableHlo.after_of_writes_sub hostOps0 _ hostOps0_writes (by decide)).trans rfl

/-- The projection call's result array. -/
theorem out0 : B2 m ρ c (Proc.devRef .tc main_v2)
    = Spec.linSpec (shapeCast S32768x128 (m ((c : Thread nD τ).loc main_arg0)) shapeCasts_S4x4096x2x128_S32768x128)
        (transpose S128x128 [1, 0] (m ((c : Thread nD τ).loc main_arg6)) transposes_S128x128_S128x128_1_0) (m ((c : Thread nD τ).loc main_arg7)) := by
  have h := (B2_arr m ρ c 3).trans (linArr (C1 m ρ) c)
  rw [in0_rows, in0_weights, in0_bias] at h
  exact h

/-- A buffer the first stretch does not write and that is not the projection's result still holds its launch contents. -/
theorem kept2 (b : Ref sig .tc) (h0 : b ∉ hostOps0_W) (hv2 : b ≠ main_v2) :
    B2 m ρ c (Proc.devRef .tc b) = m ((c : Thread nD τ).loc b) :=
  (B2_keep m ρ c b hv2 (win0_in b hv2)).trans ((StableHlo.after_of_writes_sub hostOps0 _ hostOps0_writes h0).trans rfl)

/-- The projection recast to four axes is the reference's first stage. -/
theorem proj4 : shapeCast S4x4096x2x128 (B2 m ρ c (Proc.devRef .tc main_v2)) shapeCasts_S32768x128_S4x4096x2x128
    = projOf (m ((c : Thread nD τ).loc main_arg0)) (m ((c : Thread nD τ).loc main_arg6)) (m ((c : Thread nD τ).loc main_arg7)) := by
  rw [out0]
  exact Cert.Bridge.proj_eq _ _ _

/-! ## After the second stretch -/

theorem mid_proj : B3 m ρ c (Proc.devRef .tc main_v3) = projOf (m ((c : Thread nD τ).loc main_arg0)) (m ((c : Thread nD τ).loc main_arg6)) (m ((c : Thread nD τ).loc main_arg7)) :=
  (Stages.s1_v3 (B2 m ρ c)).trans (proj4 m ρ c)

/-- The update the fused call reads. -/
abbrev updArr : (⟨Cert.ReferenceIdeal.S384x384x2x128, .f32⟩ : BufTy).Contents (Elt Ideal) :=
  updOf (projOf (m ((c : Thread nD τ).loc main_arg0)) (m ((c : Thread nD τ).loc main_arg6)) (m ((c : Thread nD τ).loc main_arg7))) (m ((c : Thread nD τ).loc main_arg2)) (m ((c : Thread nD τ).loc main_arg5))

theorem in1_f : C3 m ρ c main_v35 = shapeCast S294912x128 (m ((c : Thread nD τ).loc main_arg1)) shapeCasts_S384x384x2x128_S294912x128 := by
  refine (Stages.s1_v35 (B2 m ρ c)).trans ?_
  rw [kept2 m ρ c main_arg1 (by decide) (by decide)]
theorem in1_g : C3 m ρ c main_v36 = shapeCast S294912x128 (updArr m c) shapeCasts_S384x384x2x128_S294912x128 := by
  refine (Stages.s1_v36 (B2 m ρ c)).trans ?_
  rw [proj4, kept2 m ρ c main_arg2 (by decide) (by decide), kept2 m ρ c main_arg5 (by decide) (by decide)]
theorem in1_w1 : C3 m ρ c main_v31
    = transpose S128x128 [1, 0] (extractStridedSlice S128x128 ![0, 0] (m ((c : Thread nD τ).loc main_arg8)) slices_S128x256_S128x128_0_0) transposes_S128x128_S128x128_1_0 := by
  refine (Stages.s1_v31 (B2 m ρ c)).trans ?_
  rw [kept2 m ρ c main_arg8 (by decide) (by decide)]
theorem in1_w2 : C3 m ρ c main_v33
    = transpose S128x128 [1, 0] (extractStridedSlice S128x128 ![0, 128] (m ((c : Thread nD τ).loc main_arg8)) slices_S128x256_S128x128_0_128) transposes_S128x128_S128x128_1_0 := by
  refine (Stages.s1_v33 (B2 m ρ c)).trans ?_
  rw [kept2 m ρ c main_arg8 (by decide) (by decide)]
theorem in1_w3 : C3 m ρ c main_v34 = transpose S128x128 [1, 0] (m ((c : Thread nD τ).loc main_arg10)) transposes_S128x128_S128x128_1_0 := by
  refine (Stages.s1_v34 (B2 m ρ c)).trans ?_
  rw [kept2 m ρ c main_arg10 (by decide) (by decide)]
theorem in1_b1 : C3 m ρ c main_arg9 = (m ((c : Thread nD τ).loc main_arg9)) :=
  (StableHlo.after_of_writes_sub hostOps1 _ hostOps1_writes (by decide)).trans (kept2 m ρ c main_arg9 (by decide) (by decide))
theorem in1_b2 : C3 m ρ c main_arg11 = (m ((c : Thread nD τ).loc main_arg11)) :=
  (StableHlo.after_of_writes_sub hostOps1 _ hostOps1_writes (by decide)).trans (kept2 m ρ c main_arg11 (by decide) (by decide))

/-- The fused call's result array. -/
theorem out1 : B4 m ρ c (Proc.devRef .tc main_v37)
    = Spec.fusSpec (shapeCast S294912x128 (m ((c : Thread nD τ).loc main_arg1)) shapeCasts_S384x384x2x128_S294912x128)
        (shapeCast S294912x128 (updArr m c) shapeCasts_S384x384x2x128_S294912x128)
        (transpose S128x128 [1, 0] (extractStridedSlice S128x128 ![0, 0] (m ((c : Thread nD τ).loc main_arg8)) slices_S128x256_S128x128_0_0) transposes_S128x128_S128x128_1_0)
        (transpose S128x128 [1, 0] (extractStridedSlice S128x128 ![0, 128] (m ((c : Thread nD τ).loc main_arg8)) slices_S128x256_S128x128_0_128) transposes_S128x128_S128x128_1_0)
        (m ((c : Thread nD τ).loc main_arg9))
        (transpose S128x128 [1, 0] (m ((c : Thread nD τ).loc main_arg10)) transposes_S128x128_S128x128_1_0)
        (m ((c : Thread nD τ).loc main_arg11)) := by
  have h := (B4_arr m ρ c 7).trans (fusArr (C3 m ρ) c)
  rw [in1_f, in1_g, in1_w1, in1_w2, in1_w3, in1_b1, in1_b2] at h
  exact h

/-- The fused map recast to four axes is the reference's two layers over the concatenated features. -/
theorem feats4 : shapeCast S384x384x2x128 (B4 m ρ c (Proc.devRef .tc main_v37)) shapeCasts_S294912x128_S384x384x2x128
    = featsOut (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [out1]
  exact (Cert.Bridge.feats_eq _ _ _ _ _ _).trans rfl

/-! ## The two results -/

/-- The second result: the new features. -/
theorem res_feats : B5 m ρ c (Proc.devRef .tc main_v38) = featsOut (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (Stages.s2_v38 (B4 m ρ c)).trans (feats4 m ρ c)

/-- A buffer the second stretch does not write and that is not the fused call's result: as after the projection. -/
theorem kept4 (b : Ref sig .tc) (h1 : b ∉ hostOps1_W) (hv37 : b ≠ main_v37) :
    B4 m ρ c (Proc.devRef .tc b) = B2 m ρ c (Proc.devRef .tc b) :=
  (B4_keep m ρ c b hv37 (win1_in b hv37)).trans (StableHlo.after_of_writes_sub hostOps1 _ hostOps1_writes h1)

/-- The kernel's lane indices are the reference's. -/
theorem lanes_eq : (Stages.laneIdxK (F := Ideal)) = laneIdx (F := Ideal) := Cert.Bridge.iota_sel

/-- The first result: the projected activations plus the gathered rows of the new features. -/
theorem res_acts : B5 m ρ c (Proc.devRef .tc main_v74) = actsOut (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (Stages.s2_v74 (B4 m ρ c)).trans ?_
  rw [feats4, lanes_eq,
    (B4_keep m ρ c main_v3 (by decide) (win1_in main_v3 (by decide))).trans (mid_proj m ρ c),
    (kept4 m ρ c main_arg2 (by decide) (by decide)).trans (kept2 m ρ c main_arg2 (by decide) (by decide))]
  rfl

/-! ## The run with its results named -/

/-- Every weakly fair execution of the idealized kernel program terminates with its two results at the chain functions
    of the arguments and the arguments as launched. -/
theorem value_run : θ_run defs (onTc (τ := τ) (main (F := Ideal))) ⟨m, fun _ => 0, ρ⟩ (fun r => ∀ c : Dev nD,
      r.2.mem ((c.tc : Thread nD τ).loc main_v74) = actsOut (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_v38) = featsOut (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c _ (mem_uc main_v74 (by decide))).trans (res_acts m ρ c),
    (h c _ (mem_uc main_v38 (by decide))).trans (res_feats m ρ c),
    (h c _ (mem_uc main_arg0 (by decide))).trans (B5_main_arg0 m ρ c),
    (h c _ (mem_uc main_arg1 (by decide))).trans (B5_main_arg1 m ρ c),
    (h c _ (mem_uc main_arg2 (by decide))).trans (B5_main_arg2 m ρ c),
    (h c _ (mem_uc main_arg3 (by decide))).trans (B5_main_arg3 m ρ c),
    (h c _ (mem_uc main_arg4 (by decide))).trans (B5_main_arg4 m ρ c),
    (h c _ (mem_uc main_arg5 (by decide))).trans (B5_main_arg5 m ρ c),
    (h c _ (mem_uc main_arg6 (by decide))).trans (B5_main_arg6 m ρ c),
    (h c _ (mem_uc main_arg7 (by decide))).trans (B5_main_arg7 m ρ c),
    (h c _ (mem_uc main_arg8 (by decide))).trans (B5_main_arg8 m ρ c),
    (h c _ (mem_uc main_arg9 (by decide))).trans (B5_main_arg9 m ρ c),
    (h c _ (mem_uc main_arg10 (by decide))).trans (B5_main_arg10 m ρ c),
    (h c _ (mem_uc main_arg11 (by decide))).trans (B5_main_arg11 m ρ c)⟩) (run m ρ)

end Cert.KernelIdeal.Frame

end
-- ==== Proof.RefStages.lean ====
/-
  The reference's 90 host operations cut in three stretches, each read over an arbitrary valuation V of the
  buffers: the first stretch leaves the projected activations and the update, the second the new features, the
  third the final sum; every stretch leaves alone the buffers the later ones still read. Joined, the program's two
  results are the shared chain functions of the arguments.
-/
import proofs.«116224_j58600533786747_1_alg».proof.Proof.HostChains
import proofs.«116224_j58600533786747_1_alg».proof.Proof.LibNary3
import Idealize.ShloMosaic.Lib.Pipeline.Frame

noncomputable section

namespace Cert.ReferenceIdeal.Stages

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.Chains Cert.Lib.Nary3

variable {F : FTy → Type} [FloatOps F]

/-- Through the update. -/
abbrev opsA : List (HloOp τ sig (Elt F)) :=
  [ binary main_arg0 main_arg6 main_v0 ((fun l r => Host.dotGeneral dot_S4x4096x2x128_S128x128_S4x4096x2x128_3_1_012_0_n_n none l r) : (⟨S4x4096x2x128, .f32⟩ : BufTy).Contents (Elt F) → (⟨S128x128, .f32⟩ : BufTy).Contents (Elt F) → (⟨S4x4096x2x128, .f32⟩ : BufTy).Contents (Elt F)),
    unary main_arg7 main_v1 (broadcastInDim S1x1x1x128 ![3] bcast_S128_S1x1x1x128_3 : (⟨S128, .f32⟩ : BufTy).Contents (Elt F) → (⟨S1x1x1x128, .f32⟩ : BufTy).Contents (Elt F)),
    unary main_v1 main_v2 (broadcastInDim S4x4096x2x128 ![0, 1, 2, 3] bcast_S1x1x1x128_S4x4096x2x128_0_1_2_3 : (⟨S1x1x1x128, .f32⟩ : BufTy).Contents (Elt F) → (⟨S4x4096x2x128, .f32⟩ : BufTy).Contents (Elt F)),
    binary main_v0 main_v2 main_v3 (addf : (⟨S4x4096x2x128, .f32⟩ : BufTy).Contents (Elt F) → (⟨S4x4096x2x128, .f32⟩ : BufTy).Contents (Elt F) → (⟨S4x4096x2x128, .f32⟩ : BufTy).Contents (Elt F)),
    nullary main_cst (constant S_ .f32 0x00000000#32),
    binary main_v3 main_cst main_v4 ((fun x v => Host.reduceAdd x v reducesTo_S4x4096x2x128_S4096x2x128_d0 h_S_) : (⟨S4x4096x2x128, .f32⟩ : BufTy).Contents (Elt F) → (⟨S_, .f32⟩ : BufTy).Contents (Elt F) → (⟨S4096x2x128, .f32⟩ : BufTy).Contents (Elt F)),
    nullary main_cst_0 (constant S_ .f32 0x40800000#32),
    unary main_cst_0 main_v5 (broadcastInDim S4096x2x128 ![] bcast_S_S4096x2x128 : (⟨S_, .f32⟩ : BufTy).Contents (Elt F) → (⟨S4096x2x128, .f32⟩ : BufTy).Contents (Elt F)),
    binary main_v4 main_v5 main_v6 (Host.divf : (⟨S4096x2x128, .f32⟩ : BufTy).Contents (Elt F) → (⟨S4096x2x128, .f32⟩ : BufTy).Contents (Elt F) → (⟨S4096x2x128, .f32⟩ : BufTy).Contents (Elt F)),
    nullary main_cst_1 (constant S_ .f32 0x3F800000#32),
    unary main_cst_1 main_v7 (broadcastInDim S385x385x2x128 ![] bcast_S_S385x385x2x128 : (⟨S_, .f32⟩ : BufTy).Contents (Elt F) → (⟨S385x385x2x128, .f32⟩ : BufTy).Contents (Elt F)),
    unary main_arg5 main_v8 (broadcastInDim S1x1x1x1 ![3] bcast_S1_S1x1x1x1_3 : (⟨S1, .f32⟩ : BufTy).Contents (Elt F) → (⟨S1x1x1x1, .f32⟩ : BufTy).Contents (Elt F)),
    unary main_v8 main_v9 (broadcastInDim S385x385x2x128 ![0, 1, 2, 3] bcast_S1x1x1x1_S385x385x2x128_0_1_2_3 : (⟨S1x1x1x1, .f32⟩ : BufTy).Contents (Elt F) → (⟨S385x385x2x128, .f32⟩ : BufTy).Contents (Elt F)),
    binary main_v7 main_v9 main_v10 (mulf : (⟨S385x385x2x128, .f32⟩ : BufTy).Contents (Elt F) → (⟨S385x385x2x128, .f32⟩ : BufTy).Contents (Elt F) → (⟨S385x385x2x128, .f32⟩ : BufTy).Contents (Elt F)),
    unary main_arg2 main_v11 ((extractStridedSlice S1x4096x1 ![0, 0, 0] · slices_S2x4096x2_S1x4096x1_0_0_0) : (⟨S2x4096x2, .i32⟩ : BufTy).Contents (Elt F) → (⟨S1x4096x1, .i32⟩ : BufTy).Contents (Elt F)),
    reshape main_v11 main_v12 rfl shapeCasts_S1x4096x1_S4096,
    unary main_arg2 main_v13 ((extractStridedSlice S1x4096x1 ![0, 0, 1] · slices_S2x4096x2_S1x4096x1_0_0_1) : (⟨S2x4096x2, .i32⟩ : BufTy).Contents (Elt F) → (⟨S1x4096x1, .i32⟩ : BufTy).Contents (Elt F)),
    reshape main_v13 main_v14 rfl shapeCasts_S1x4096x1_S4096,
    nullary main_c (constantI S_ 32 0#32),
    unary main_c main_v15 (broadcastInDim S4096 ![] bcast_S_S4096 : (⟨S_, .i32⟩ : BufTy).Contents (Elt F) → (⟨S4096, .i32⟩ : BufTy).Contents (Elt F)),
    binary main_v12 main_v15 main_v16 (cmpi .slt : (⟨S4096, .i32⟩ : BufTy).Contents (Elt F) → (⟨S4096, .i32⟩ : BufTy).Contents (Elt F) → (⟨S4096, .i1⟩ : BufTy).Contents (Elt F)),
    nullary main_c_2 (constantI S_ 32 385#32),
    unary main_c_2 main_v17 (broadcastInDim S4096 ![] bcast_S_S4096 : (⟨S_, .i32⟩ : BufTy).Contents (Elt F) → (⟨S4096, .i32⟩ : BufTy).Contents (Elt F)),
    binary main_v12 main_v17 main_v18 (addi : (⟨S4096, .i32⟩ : BufTy).Contents (Elt F) → (⟨S4096, .i32⟩ : BufTy).Contents (Elt F) → (⟨S4096, .i32⟩ : BufTy).Contents (Elt F)),
    ternary main_v16 main_v18 main_v12 main_v19 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_3 (constantI S_ 32 0#32),
    unary main_c_3 main_v20 (broadcastInDim S4096 ![] bcast_S_S4096 : (⟨S_, .i32⟩ : BufTy).Contents (Elt F) → (⟨S4096, .i32⟩ : BufTy).Contents (Elt F)),
    binary main_v14 main_v20 main_v21 (cmpi .slt : (⟨S4096, .i32⟩ : BufTy).Contents (Elt F) → (⟨S4096, .i32⟩ : BufTy).Contents (Elt F) → (⟨S4096, .i1⟩ : BufTy).Contents (Elt F)),
    nullary main_c_4 (constantI S_ 32 385#32),
    unary main_c_4 main_v22 (broadcastInDim S4096 ![] bcast_S_S4096 : (⟨S_, .i32⟩ : BufTy).Contents (Elt F) → (⟨S4096, .i32⟩ : BufTy).Contents (Elt F)),
    binary main_v14 main_v22 main_v23 (addi : (⟨S4096, .i32⟩ : BufTy).Contents (Elt F) → (⟨S4096, .i32⟩ : BufTy).Contents (Elt F) → (⟨S4096, .i32⟩ : BufTy).Contents (Elt F)),
    ternary main_v21 main_v23 main_v14 main_v24 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v19 main_v25 (broadcastInDim S4096x1 ![0] bcast_S4096_S4096x1_0 : (⟨S4096, .i32⟩ : BufTy).Contents (Elt F) → (⟨S4096x1, .i32⟩ : BufTy).Contents (Elt F)),
    unary main_v24 main_v26 (broadcastInDim S4096x1 ![0] bcast_S4096_S4096x1_0 : (⟨S4096, .i32⟩ : BufTy).Contents (Elt F) → (⟨S4096x1, .i32⟩ : BufTy).Contents (Elt F)),
    binary main_v25 main_v26 main_v27 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    ternary main_v10 main_v27 main_v6 main_v28 ((fun x i u => Host.scatter scatter_S385x385x2x128_S4096x2_S4096x2x128_12_01_01_1 (fun _ b => b) x i u) : (⟨S385x385x2x128, .f32⟩ : BufTy).Contents (Elt F) → (⟨S4096x2, .i32⟩ : BufTy).Contents (Elt F) → (⟨S4096x2x128, .f32⟩ : BufTy).Contents (Elt F) → (⟨S385x385x2x128, .f32⟩ : BufTy).Contents (Elt F)),
    unary main_v28 main_v29 ((extractStridedSlice S384x384x2x128 ![1, 1, 0, 0] · slices_S385x385x2x128_S384x384x2x128_1_1_0_0) : (⟨S385x385x2x128, .f32⟩ : BufTy).Contents (Elt F) → (⟨S384x384x2x128, .f32⟩ : BufTy).Contents (Elt F)) ]
/-- Through the new features. -/
abbrev opsB : List (HloOp τ sig (Elt F)) :=
  [ binary main_arg1 main_v29 main_v30 ((fun a b => concatenate S384x384x2x256 3 [⟨S384x384x2x128, a⟩, ⟨S384x384x2x128, b⟩] concatenates_S384x384x2x128_S384x384x2x128_S384x384x2x256_d3) : (⟨S384x384x2x128, .f32⟩ : BufTy).Contents (Elt F) → (⟨S384x384x2x128, .f32⟩ : BufTy).Contents (Elt F) → (⟨S384x384x2x256, .f32⟩ : BufTy).Contents (Elt F)),
    binary main_v30 main_arg8 main_v31 ((fun l r => Host.dotGeneral dot_S384x384x2x256_S128x256_S384x384x2x128_3_1_012_0_n_n none l r) : (⟨S384x384x2x256, .f32⟩ : BufTy).Contents (Elt F) → (⟨S128x256, .f32⟩ : BufTy).Contents (Elt F) → (⟨S384x384x2x128, .f32⟩ : BufTy).Contents (Elt F)),
    unary main_arg9 main_v32 (broadcastInDim S1x1x1x128 ![3] bcast_S128_S1x1x1x128_3 : (⟨S128, .f32⟩ : BufTy).Contents (Elt F) → (⟨S1x1x1x128, .f32⟩ : BufTy).Contents (Elt F)),
    unary main_v32 main_v33 (broadcastInDim S384x384x2x128 ![0, 1, 2, 3] bcast_S1x1x1x128_S384x384x2x128_0_1_2_3 : (⟨S1x1x1x128, .f32⟩ : BufTy).Contents (Elt F) → (⟨S384x384x2x128, .f32⟩ : BufTy).Contents (Elt F)),
    binary main_v31 main_v33 main_v34 (addf : (⟨S384x384x2x128, .f32⟩ : BufTy).Contents (Elt F) → (⟨S384x384x2x128, .f32⟩ : BufTy).Contents (Elt F) → (⟨S384x384x2x128, .f32⟩ : BufTy).Contents (Elt F)),
    binary main_v34 main_arg10 main_v35 ((fun l r => Host.dotGeneral dot_S384x384x2x128_S128x128_S384x384x2x128_3_1_012_0_n_n none l r) : (⟨S384x384x2x128, .f32⟩ : BufTy).Contents (Elt F) → (⟨S128x128, .f32⟩ : BufTy).Contents (Elt F) → (⟨S384x384x2x128, .f32⟩ : BufTy).Contents (Elt F)),
    unary main_arg11 main_v36 (broadcastInDim S1x1x1x128 ![3] bcast_S128_S1x1x1x128_3 : (⟨S128, .f32⟩ : BufTy).Contents (Elt F) → (⟨S1x1x1x128, .f32⟩ : BufTy).Contents (Elt F)),
    unary main_v36 main_v37 (broadcastInDim S384x384x2x128 ![0, 1, 2, 3] bcast_S1x1x1x128_S384x384x2x128_0_1_2_3 : (⟨S1x1x1x128, .f32⟩ : BufTy).Contents (Elt F) → (⟨S384x384x2x128, .f32⟩ : BufTy).Contents (Elt F)),
    binary main_v35 main_v37 main_v38 (addf : (⟨S384x384x2x128, .f32⟩ : BufTy).Contents (Elt F) → (⟨S384x384x2x128, .f32⟩ : BufTy).Contents (Elt F) → (⟨S384x384x2x128, .f32⟩ : BufTy).Contents (Elt F)) ]
/-- The gather and the final sum. -/
abbrev opsC : List (HloOp τ sig (Elt F)) :=
  [ nullary main_c_5 (constantI S_ 32 1#32),
    unary main_c_5 main_v39 (broadcastInDim S2x4096x2 ![] bcast_S_S2x4096x2 : (⟨S_, .i32⟩ : BufTy).Contents (Elt F) → (⟨S2x4096x2, .i32⟩ : BufTy).Contents (Elt F)),
    binary main_arg2 main_v39 main_v40 (subi : (⟨S2x4096x2, .i32⟩ : BufTy).Contents (Elt F) → (⟨S2x4096x2, .i32⟩ : BufTy).Contents (Elt F) → (⟨S2x4096x2, .i32⟩ : BufTy).Contents (Elt F)),
    nullary main_c_6 (constantI S_ 32 0#32),
    unary main_c_6 main_v41 (broadcastInDim S2x4096x2 ![] bcast_S_S2x4096x2 : (⟨S_, .i32⟩ : BufTy).Contents (Elt F) → (⟨S2x4096x2, .i32⟩ : BufTy).Contents (Elt F)),
    binary main_v40 main_v41 main_v42 (maxsi : (⟨S2x4096x2, .i32⟩ : BufTy).Contents (Elt F) → (⟨S2x4096x2, .i32⟩ : BufTy).Contents (Elt F) → (⟨S2x4096x2, .i32⟩ : BufTy).Contents (Elt F)),
    unary main_v42 main_v43 ((extractStridedSlice S2x4096x1 ![0, 0, 0] · slices_S2x4096x2_S2x4096x1_0_0_0) : (⟨S2x4096x2, .i32⟩ : BufTy).Contents (Elt F) → (⟨S2x4096x1, .i32⟩ : BufTy).Contents (Elt F)),
    reshape main_v43 main_v44 rfl shapeCasts_S2x4096x1_S2x4096,
    unary main_v44 main_v45 ((transpose S4096x2 [1, 0] · transposes_S2x4096_S4096x2_1_0) : (⟨S2x4096, .i32⟩ : BufTy).Contents (Elt F) → (⟨S4096x2, .i32⟩ : BufTy).Contents (Elt F)),
    unary main_v42 main_v46 ((extractStridedSlice S2x4096x1 ![0, 0, 1] · slices_S2x4096x2_S2x4096x1_0_0_1) : (⟨S2x4096x2, .i32⟩ : BufTy).Contents (Elt F) → (⟨S2x4096x1, .i32⟩ : BufTy).Contents (Elt F)),
    reshape main_v46 main_v47 rfl shapeCasts_S2x4096x1_S2x4096,
    unary main_v47 main_v48 ((transpose S4096x2 [1, 0] · transposes_S2x4096_S4096x2_1_0) : (⟨S2x4096, .i32⟩ : BufTy).Contents (Elt F) → (⟨S4096x2, .i32⟩ : BufTy).Contents (Elt F)),
    nullary main_v49 (iotaInDim S2 32 0),
    unary main_v49 main_v50 (broadcastInDim S1x2 ![1] bcast_S2_S1x2_1 : (⟨S2, .i32⟩ : BufTy).Contents (Elt F) → (⟨S1x2, .i32⟩ : BufTy).Contents (Elt F)),
    nullary main_c_7 (constantI S_ 32 0#32),
    unary main_c_7 main_v51 (broadcastInDim S4096x2 ![] bcast_S_S4096x2 : (⟨S_, .i32⟩ : BufTy).Contents (Elt F) → (⟨S4096x2, .i32⟩ : BufTy).Contents (Elt F)),
    binary main_v45 main_v51 main_v52 (cmpi .slt : (⟨S4096x2, .i32⟩ : BufTy).Contents (Elt F) → (⟨S4096x2, .i32⟩ : BufTy).Contents (Elt F) → (⟨S4096x2, .i1⟩ : BufTy).Contents (Elt F)),
    nullary main_c_8 (constantI S_ 32 384#32),
    unary main_c_8 main_v53 (broadcastInDim S4096x2 ![] bcast_S_S4096x2 : (⟨S_, .i32⟩ : BufTy).Contents (Elt F) → (⟨S4096x2, .i32⟩ : BufTy).Contents (Elt F)),
    binary main_v45 main_v53 main_v54 (addi : (⟨S4096x2, .i32⟩ : BufTy).Contents (Elt F) → (⟨S4096x2, .i32⟩ : BufTy).Contents (Elt F) → (⟨S4096x2, .i32⟩ : BufTy).Contents (Elt F)),
    ternary main_v52 main_v54 main_v45 main_v55 (select : (⟨S4096x2, .i1⟩ : BufTy).Contents (Elt F) → (⟨S4096x2, .i32⟩ : BufTy).Contents (Elt F) → (⟨S4096x2, .i32⟩ : BufTy).Contents (Elt F) → (⟨S4096x2, .i32⟩ : BufTy).Contents (Elt F)),
    nullary main_c_9 (constantI S_ 32 0#32),
    unary main_c_9 main_v56 (broadcastInDim S4096x2 ![] bcast_S_S4096x2 : (⟨S_, .i32⟩ : BufTy).Contents (Elt F) → (⟨S4096x2, .i32⟩ : BufTy).Contents (Elt F)),
    binary main_v48 main_v56 main_v57 (cmpi .slt : (⟨S4096x2, .i32⟩ : BufTy).Contents (Elt F) → (⟨S4096x2, .i32⟩ : BufTy).Contents (Elt F) → (⟨S4096x2, .i1⟩ : BufTy).Contents (Elt F)),
    nullary main_c_10 (constantI S_ 32 384#32),
    unary main_c_10 main_v58 (broadcastInDim S4096x2 ![] bcast_S_S4096x2 : (⟨S_, .i32⟩ : BufTy).Contents (Elt F) → (⟨S4096x2, .i32⟩ : BufTy).Contents (Elt F)),
    binary main_v48 main_v58 main_v59 (addi : (⟨S4096x2, .i32⟩ : BufTy).Contents (Elt F) → (⟨S4096x2, .i32⟩ : BufTy).Contents (Elt F) → (⟨S4096x2, .i32⟩ : BufTy).Contents (Elt F)),
    ternary main_v57 main_v59 main_v48 main_v60 (select : (⟨S4096x2, .i1⟩ : BufTy).Contents (Elt F) → (⟨S4096x2, .i32⟩ : BufTy).Contents (Elt F) → (⟨S4096x2, .i32⟩ : BufTy).Contents (Elt F) → (⟨S4096x2, .i32⟩ : BufTy).Contents (Elt F)),
    nullary main_c_11 (constantI S_ 32 0#32),
    unary main_c_11 main_v61 (broadcastInDim S1x2 ![] bcast_S_S1x2 : (⟨S_, .i32⟩ : BufTy).Contents (Elt F) → (⟨S1x2, .i32⟩ : BufTy).Contents (Elt F)),
    binary main_v50 main_v61 main_v62 (cmpi .slt : (⟨S1x2, .i32⟩ : BufTy).Contents (Elt F) → (⟨S1x2, .i32⟩ : BufTy).Contents (Elt F) → (⟨S1x2, .i1⟩ : BufTy).Contents (Elt F)),
    nullary main_c_12 (constantI S_ 32 2#32),
    unary main_c_12 main_v63 (broadcastInDim S1x2 ![] bcast_S_S1x2 : (⟨S_, .i32⟩ : BufTy).Contents (Elt F) → (⟨S1x2, .i32⟩ : BufTy).Contents (Elt F)),
    binary main_v50 main_v63 main_v64 (addi : (⟨S1x2, .i32⟩ : BufTy).Contents (Elt F) → (⟨S1x2, .i32⟩ : BufTy).Contents (Elt F) → (⟨S1x2, .i32⟩ : BufTy).Contents (Elt F)),
    ternary main_v62 main_v64 main_v50 main_v65 (select : (⟨S1x2, .i1⟩ : BufTy).Contents (Elt F) → (⟨S1x2, .i32⟩ : BufTy).Contents (Elt F) → (⟨S1x2, .i32⟩ : BufTy).Contents (Elt F) → (⟨S1x2, .i32⟩ : BufTy).Contents (Elt F)),
    unary main_v65 main_v66 (broadcastInDim S4096x2 ![0, 1] bcast_S1x2_S4096x2_0_1 : (⟨S1x2, .i32⟩ : BufTy).Contents (Elt F) → (⟨S4096x2, .i32⟩ : BufTy).Contents (Elt F)),
    unary main_v55 main_v67 (broadcastInDim S4096x2x1 ![0, 1] bcast_S4096x2_S4096x2x1_0_1 : (⟨S4096x2, .i32⟩ : BufTy).Contents (Elt F) → (⟨S4096x2x1, .i32⟩ : BufTy).Contents (Elt F)),
    unary main_v60 main_v68 (broadcastInDim S4096x2x1 ![0, 1] bcast_S4096x2_S4096x2x1_0_1 : (⟨S4096x2, .i32⟩ : BufTy).Contents (Elt F) → (⟨S4096x2x1, .i32⟩ : BufTy).Contents (Elt F)),
    unary main_v66 main_v69 (broadcastInDim S4096x2x1 ![0, 1] bcast_S4096x2_S4096x2x1_0_1 : (⟨S4096x2, .i32⟩ : BufTy).Contents (Elt F) → (⟨S4096x2x1, .i32⟩ : BufTy).Contents (Elt F)),
    nary ![main_v67, main_v68, main_v69] main_v70 (fun u => concatenate S4096x2x3 2 [⟨S4096x2x1, u 0⟩, ⟨S4096x2x1, u 1⟩, ⟨S4096x2x1, u 2⟩] concatenates_S4096x2x1_S4096x2x1_S4096x2x1_S4096x2x3_d2),
    binary main_v38 main_v70 main_v71 ((fun x i => Host.gather gather_S384x384x2x128_S4096x2x3_S4096x2x128_2_012_n_n_012_2_111128 x i) : (⟨S384x384x2x128, .f32⟩ : BufTy).Contents (Elt F) → (⟨S4096x2x3, .i32⟩ : BufTy).Contents (Elt F) → (⟨S4096x2x128, .f32⟩ : BufTy).Contents (Elt F)),
    unary main_v71 main_v72 (broadcastInDim S1x4096x2x128 ![1, 2, 3] bcast_S4096x2x128_S1x4096x2x128_1_2_3 : (⟨S4096x2x128, .f32⟩ : BufTy).Contents (Elt F) → (⟨S1x4096x2x128, .f32⟩ : BufTy).Contents (Elt F)),
    unary main_v72 main_v73 (broadcastInDim S4x4096x2x128 ![0, 1, 2, 3] bcast_S1x4096x2x128_S4x4096x2x128_0_1_2_3 : (⟨S1x4096x2x128, .f32⟩ : BufTy).Contents (Elt F) → (⟨S4x4096x2x128, .f32⟩ : BufTy).Contents (Elt F)),
    binary main_v3 main_v73 main_v74 (addf : (⟨S4x4096x2x128, .f32⟩ : BufTy).Contents (Elt F) → (⟨S4x4096x2x128, .f32⟩ : BufTy).Contents (Elt F) → (⟨S4x4096x2x128, .f32⟩ : BufTy).Contents (Elt F)) ]

set_option maxRecDepth 8192 in
theorem ops_cut : (ops (F := F)) = opsA ++ (opsB ++ opsC) := rfl

variable (V : Valuation τ sig (Elt F))

set_option maxRecDepth 8192 in
set_option maxHeartbeats 4000000 in
theorem A_v3 : after opsA V (Proc.devRef .tc main_v3) = projOf (V (Proc.devRef .tc main_arg0)) (V (Proc.devRef .tc main_arg6)) (V (Proc.devRef .tc main_arg7)) := by
  after_results_simp <;> rfl

set_option maxRecDepth 8192 in
set_option maxHeartbeats 4000000 in
theorem A_v29 : after opsA V (Proc.devRef .tc main_v29)
    = updOf (projOf (V (Proc.devRef .tc main_arg0)) (V (Proc.devRef .tc main_arg6)) (V (Proc.devRef .tc main_arg7))) (V (Proc.devRef .tc main_arg2)) (V (Proc.devRef .tc main_arg5)) := by
  after_results_simp <;> rfl

set_option maxRecDepth 8192 in
set_option maxHeartbeats 4000000 in
theorem A_main_arg1 : after opsA V (Proc.devRef .tc main_arg1) = V (Proc.devRef .tc main_arg1) := by after_results_simp
set_option maxRecDepth 8192 in
set_option maxHeartbeats 4000000 in
theorem A_main_arg2 : after opsA V (Proc.devRef .tc main_arg2) = V (Proc.devRef .tc main_arg2) := by after_results_simp
set_option maxRecDepth 8192 in
set_option maxHeartbeats 4000000 in
theorem A_main_arg8 : after opsA V (Proc.devRef .tc main_arg8) = V (Proc.devRef .tc main_arg8) := by after_results_simp
set_option maxRecDepth 8192 in
set_option maxHeartbeats 4000000 in
theorem A_main_arg9 : after opsA V (Proc.devRef .tc main_arg9) = V (Proc.devRef .tc main_arg9) := by after_results_simp
set_option maxRecDepth 8192 in
set_option maxHeartbeats 4000000 in
theorem A_main_arg10 : after opsA V (Proc.devRef .tc main_arg10) = V (Proc.devRef .tc main_arg10) := by after_results_simp
set_option maxRecDepth 8192 in
set_option maxHeartbeats 4000000 in
theorem A_main_arg11 : after opsA V (Proc.devRef .tc main_arg11) = V (Proc.devRef .tc main_arg11) := by after_results_simp

/-! ## Second stretch -/

theorem B_v38 : after opsB V (Proc.devRef .tc main_v38)
    = featsOf (V (Proc.devRef .tc main_arg1)) (V (Proc.devRef .tc main_v29)) (V (Proc.devRef .tc main_arg8)) (V (Proc.devRef .tc main_arg9)) (V (Proc.devRef .tc main_arg10)) (V (Proc.devRef .tc main_arg11)) := by
  after_results_simp <;> rfl
theorem B_main_v3 : after opsB V (Proc.devRef .tc main_v3) = V (Proc.devRef .tc main_v3) := by after_results_simp
theorem B_main_arg2 : after opsB V (Proc.devRef .tc main_arg2) = V (Proc.devRef .tc main_arg2) := by after_results_simp

/-! ## Third stretch -/

set_option maxRecDepth 8192 in
set_option maxHeartbeats 8000000 in
theorem C_v74 : after opsC V (Proc.devRef .tc main_v74)
    = tailOf (V (Proc.devRef .tc main_v3)) (V (Proc.devRef .tc main_v38)) (V (Proc.devRef .tc main_arg2)) laneIdx := by
  simp (disch := decide) only [after_cons, after_nil,
      nullary_result', unary_result', binary_result', ternary_result', quaternary_result', reshape_result', nary3_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rfl

set_option maxRecDepth 8192 in
set_option maxHeartbeats 4000000 in
theorem C_v38 : after opsC V (Proc.devRef .tc main_v38) = V (Proc.devRef .tc main_v38) := by after_results_simp

/-! ## Joined -/

/-- The reference's second result: the two layers over the features and the update. -/
theorem all_v38 : after (ops (F := F)) V (Proc.devRef .tc main_v38)
    = featsOf (V (Proc.devRef .tc main_arg1)) (updOf (projOf (V (Proc.devRef .tc main_arg0)) (V (Proc.devRef .tc main_arg6)) (V (Proc.devRef .tc main_arg7))) (V (Proc.devRef .tc main_arg2)) (V (Proc.devRef .tc main_arg5)))
        (V (Proc.devRef .tc main_arg8)) (V (Proc.devRef .tc main_arg9)) (V (Proc.devRef .tc main_arg10)) (V (Proc.devRef .tc main_arg11)) := by
  rw [ops_cut, StableHlo.after_append, StableHlo.after_append, C_v38, B_v38, A_v29, A_main_arg1, A_main_arg8, A_main_arg9, A_main_arg10, A_main_arg11]

/-- The reference's first result: the gathered rows of the second added to the projected activations. -/
theorem all_v74 : after (ops (F := F)) V (Proc.devRef .tc main_v74)
    = tailOf (projOf (V (Proc.devRef .tc main_arg0)) (V (Proc.devRef .tc main_arg6)) (V (Proc.devRef .tc main_arg7)))
        (featsOf (V (Proc.devRef .tc main_arg1)) (updOf (projOf (V (Proc.devRef .tc main_arg0)) (V (Proc.devRef .tc main_arg6)) (V (Proc.devRef .tc main_arg7))) (V (Proc.devRef .tc main_arg2)) (V (Proc.devRef .tc main_arg5)))
          (V (Proc.devRef .tc main_arg8)) (V (Proc.devRef .tc main_arg9)) (V (Proc.devRef .tc main_arg10)) (V (Proc.devRef .tc main_arg11)))
        (V (Proc.devRef .tc main_arg2)) laneIdx := by
  rw [ops_cut, StableHlo.after_append, StableHlo.after_append, C_v74, B_v38, B_main_v3, B_main_arg2, A_v3, A_v29, A_main_arg1, A_main_arg2, A_main_arg8, A_main_arg9, A_main_arg10, A_main_arg11]

/-! ## No operation writes an argument -/

set_option maxRecDepth 8192 in
set_option maxHeartbeats 4000000 in
theorem all_main_arg0 : after (ops (F := F)) V (Proc.devRef .tc main_arg0) = V (Proc.devRef .tc main_arg0) := by after_results_simp
set_option maxRecDepth 8192 in
set_option maxHeartbeats 4000000 in
theorem all_main_arg1 : after (ops (F := F)) V (Proc.devRef .tc main_arg1) = V (Proc.devRef .tc main_arg1) := by after_results_simp
set_option maxRecDepth 8192 in
set_option maxHeartbeats 4000000 in
theorem all_main_arg2 : after (ops (F := F)) V (Proc.devRef .tc main_arg2) = V (Proc.devRef .tc main_arg2) := by after_results_simp
set_option maxRecDepth 8192 in
set_option maxHeartbeats 4000000 in
theorem all_main_arg3 : after (ops (F := F)) V (Proc.devRef .tc main_arg3) = V (Proc.devRef .tc main_arg3) := by after_results_simp
set_option maxRecDepth 8192 in
set_option maxHeartbeats 4000000 in
theorem all_main_arg4 : after (ops (F := F)) V (Proc.devRef .tc main_arg4) = V (Proc.devRef .tc main_arg4) := by after_results_simp
set_option maxRecDepth 8192 in
set_option maxHeartbeats 4000000 in
theorem all_main_arg5 : after (ops (F := F)) V (Proc.devRef .tc main_arg5) = V (Proc.devRef .tc main_arg5) := by after_results_simp
set_option maxRecDepth 8192 in
set_option maxHeartbeats 4000000 in
theorem all_main_arg6 : after (ops (F := F)) V (Proc.devRef .tc main_arg6) = V (Proc.devRef .tc main_arg6) := by after_results_simp
set_option maxRecDepth 8192 in
set_option maxHeartbeats 4000000 in
theorem all_main_arg7 : after (ops (F := F)) V (Proc.devRef .tc main_arg7) = V (Proc.devRef .tc main_arg7) := by after_results_simp
set_option maxRecDepth 8192 in
set_option maxHeartbeats 4000000 in
theorem all_main_arg8 : after (ops (F := F)) V (Proc.devRef .tc main_arg8) = V (Proc.devRef .tc main_arg8) := by after_results_simp
set_option maxRecDepth 8192 in
set_option maxHeartbeats 4000000 in
theorem all_main_arg9 : after (ops (F := F)) V (Proc.devRef .tc main_arg9) = V (Proc.devRef .tc main_arg9) := by after_results_simp
set_option maxRecDepth 8192 in
set_option maxHeartbeats 4000000 in
theorem all_main_arg10 : after (ops (F := F)) V (Proc.devRef .tc main_arg10) = V (Proc.devRef .tc main_arg10) := by after_results_simp
set_option maxRecDepth 8192 in
set_option maxHeartbeats 4000000 in
theorem all_main_arg11 : after (ops (F := F)) V (Proc.devRef .tc main_arg11) = V (Proc.devRef .tc main_arg11) := by after_results_simp

/-! ## The run -/

/-- Every weakly fair execution of the reference terminates with its two results at the chain functions of the
    arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v74) = actsOut (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v38) = featsOut (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v74).trans (all_v74 (launchContents m c)), (h c main_v38).trans (all_v38 (launchContents m c)),
      (h c main_arg0).trans (all_main_arg0 (launchContents m c)),
      (h c main_arg1).trans (all_main_arg1 (launchContents m c)),
      (h c main_arg2).trans (all_main_arg2 (launchContents m c)),
      (h c main_arg3).trans (all_main_arg3 (launchContents m c)),
      (h c main_arg4).trans (all_main_arg4 (launchContents m c)),
      (h c main_arg5).trans (all_main_arg5 (launchContents m c)),
      (h c main_arg6).trans (all_main_arg6 (launchContents m c)),
      (h c main_arg7).trans (all_main_arg7 (launchContents m c)),
      (h c main_arg8).trans (all_main_arg8 (launchContents m c)),
      (h c main_arg9).trans (all_main_arg9 (launchContents m c)),
      (h c main_arg10).trans (all_main_arg10 (launchContents m c)),
      (h c main_arg11).trans (all_main_arg11 (launchContents m c))⟩)
    (run_fold m ρ)

end Cert.ReferenceIdeal.Stages

end
-- ==== Proof.lean ====
/-
  The certificate's claim: the three frames, the (empty) idealization ledger, and the equivalence over the extended
  reals of the kernel program with its reference.

  The program projects the activations (rows times the transposed weights plus a bias, in one row-tiled call), averages
  the projection over the trial axis, scatters the averages into a padded 385 x 385 grid at the node pairs and cuts the
  grid back to 384 x 384, runs a fused call (two row-tiled products added, a bias, a third product, a bias) on the
  flattened features and update, and finally gathers rows of the new features at the shifted node pairs and adds them
  to the projection. The reference computes the same with a contraction against the whole first-layer weights over
  the concatenated features. At the extended reals the two agree entry by entry: every product, sum and bias is the
  same term on both sides, the only rearrangement being that a sum over the 256 concatenated columns is the sum over
  its first 128 plus the sum over its last 128 (true in any commutative additive monoid, so the finiteness of the
  inputs is never used), and the lane indices wrapped after or before being spread over the rows are the same array.

  Frames of the two kernel programs: the run of the five segments (host operations, call, host operations, call, host
  operations) with every unscoped buffer named at each boundary; no segment writes an argument. Frame of the
  reference: its run of host operations, read in three stretches.
-/
import proofs.«116224_j58600533786747_1_alg».proof.Defs
import proofs.«116224_j58600533786747_1_alg».proof.Proof.Gen.Kernel
import proofs.«116224_j58600533786747_1_alg».proof.Proof.Gen.KernelIdeal
import proofs.«116224_j58600533786747_1_alg».proof.Proof.Gen.ReferenceIdeal
import proofs.«116224_j58600533786747_1_alg».proof.Proof.Gen.Pre_finite_inputs
import proofs.«116224_j58600533786747_1_alg».proof.Proof.KRun
import proofs.«116224_j58600533786747_1_alg».proof.Proof.KiValue
import proofs.«116224_j58600533786747_1_alg».proof.Proof.RefStages
import Idealize.ShloMosaic.Adequacy
import Idealize.ShloMosaic.Init

noncomputable section

namespace Cert.Proof

open Idealize.ShloMosaic Idealize.SL.Sem

/-- The word-level kernel program runs and leaves its arguments as launched. -/
theorem frame_k : Cert.frame_Kernel (hKernel := Cert.Kernel.Gen.facts) (hPre_finite_inputs := Cert.Pre_finite_inputs.Gen.facts) :=
  fun m ρ _ => Cert.Kernel.Frame.frame m ρ

/-- The idealized kernel program runs and leaves its arguments as launched. -/
theorem frame_ki : Cert.frame_KernelIdeal (hKernelIdeal := Cert.KernelIdeal.Gen.facts) (hPre_finite_inputs := Cert.Pre_finite_inputs.Gen.facts) :=
  fun m ρ _ => Cert.KernelIdeal.Frame.frame m ρ

/-- The idealized reference runs and leaves its arguments as launched. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Stages.run (F := Ideal) m ρ)

/-- From memories agreeing on the arguments both idealized programs end with the same two results: each result is the
    same chain function of the arguments on both sides. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.Frame.value_run m ρ, ?_⟩
  refine (θ_run Cert.ReferenceIdeal.defs _ _).mono (fun _ h c => ?_) (Cert.ReferenceIdeal.Stages.run (F := Ideal) m' ρ')
  obtain ⟨h74, h38, hargs⟩ := h c
  obtain ⟨e0, e1, e2, e3, e4, e5, e6, e7, e8, e9, e10, e11⟩ := hagree c
  refine ⟨h74.trans ?_, h38.trans ?_, hargs⟩
  · rw [e0, e1, e2, e5, e6, e7, e8, e9, e10, e11]
  · rw [e0, e1, e2, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
